-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x10 .f32) (main_arg16 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x10 .f32) (main_arg16 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x10 .f32) (main_arg16 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S50000x1 : Shape := ⟨2, ![50000, 1]⟩
abbrev S1x10 : Shape := ⟨2, ![1, 10]⟩

abbrev nBuf : Space → Nat
  | .hbm => 105
  | .vmem => 41
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S1x128, .f32⟩
  | .hbm, ⟨35, _⟩ => ⟨S1x128, .f32⟩
  | .hbm, ⟨36, _⟩ => ⟨S50000x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128, .f32⟩
  | .hbm, ⟨71, _⟩ => ⟨S1x128, .f32⟩
  | .hbm, ⟨72, _⟩ => ⟨S50000x128, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S50000x128, .f32⟩
  | .hbm, ⟨93, _⟩ => ⟨S50000x1, .i32⟩
  | .hbm, ⟨94, _⟩ => ⟨S128, .i32⟩
  | .hbm, ⟨95, _⟩ => ⟨S1x128, .i32⟩
  | .hbm, ⟨96, _⟩ => ⟨S50000x128, .i32⟩
  | .hbm, ⟨97, _⟩ => ⟨S50000x128, .i32⟩
  | .hbm, ⟨98, _⟩ => ⟨S50000x128, .i1⟩
  | .hbm, ⟨99, _⟩ => ⟨S50000x128, .f32⟩
  | .hbm, ⟨100, _⟩ => ⟨S128x128, .f32⟩
  | .hbm, ⟨101, _⟩ => ⟨S128x10, .f32⟩
  | .hbm, ⟨102, _⟩ => ⟨S1x10, .f32⟩
  | .hbm, ⟨103, _⟩ => ⟨S128x10, .f32⟩
  | .hbm, ⟨104, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44_0 : Ref sig .tc := ⟨.hbm, 72, rfl⟩
abbrev main_v44_1 : Ref sig .tc := ⟨.hbm, 73, rfl⟩
abbrev main_v44_2 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  shapeCasts_S128x128_S128x128 : S128x128.ShapeCasts S128x128
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v44_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v44_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S128x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S1x10 : Shape := ⟨2, ![1, 10]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x10, .f32⟩
  | 16 => ⟨S10, .f32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S1x800000, .i32⟩
  | 29 => ⟨S800000, .i32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x800000, .i32⟩
  | 80 => ⟨S800000, .i32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S1x800000, .i32⟩
  | 91 => ⟨S800000, .i32⟩
  | 92 => ⟨S_, .f32⟩
  | 93 => ⟨S50000x128, .f32⟩
  | 94 => ⟨S800000x1, .i32⟩
  | 95 => ⟨S50000x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S128, .f32⟩
  | 110 => ⟨S_, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S50000x128, .f32⟩
  | 117 => ⟨S_, .f32⟩
  | 118 => ⟨S128, .f32⟩
  | 119 => ⟨S_, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S128x128, .f32⟩
  | 15 => ⟨S50000x1, .i32⟩
  | 16 => ⟨S128x128, .f32⟩
  | 17 => ⟨S128x10, .f32⟩
  | 18 => ⟨S1x10, .f32⟩
  | 19 => ⟨S128x10, .f32⟩
  | 20 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_17 : Ref sig .tc := ⟨.hbm, 138, rfl⟩
abbrev main_v102 : Ref sig .tc := ⟨.hbm, 139, rfl⟩
abbrev main_v103 : Ref sig .tc := ⟨.hbm, 140, rfl⟩
abbrev main_cst_18 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  dot_S128x128_S128x10_S128x10_1_0_0_1_n_n_wf : DotDims.WF S128x128 S128x10 S128x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.Spec.lean ====
/- The network both programs compute, written once over coordinates: a two-layer graph convolution
   (neighbour sum plus self, a two-layer perceptron per row), batch normalisation over the rows with a
   rectifier, the same again, a sum of the rows of each graph, and a last affine map. Tables are
   functions of a row and a column; the extended reals carry every value.

   Two spellings of the normalisation are defined (one centres each entry and scales it, the other
   multiplies by a folded scale and adds a folded shift, its variance taken as the mean of squares
   minus the squared mean), and two of the pooling (a sum over the rows a graph owns, and a product
   with the graph-membership indicator). Which program uses which is said where they are used. -/
import Idealize.ShloMosaic.PureOps.Ideal
import Idealize.ShloMosaic.Lib.ValueIdx
import Mathlib.Algebra.BigOperators.Group.Finset.Basic
import Mathlib.Tactic.NormNum
import proofs.«422006_j8718783611640_1_alg».proof.Proof.LibScatterGather

noncomputable section

namespace Cert.Gin

open Idealize.ShloMosaic Idealize.ShloMosaic.ValueIdx
open scoped BigOperators

/-- A table of `n` rows and `k` columns, by coordinates. -/
abbrev Tab (n k : Nat) : Type := Fin n → Fin k → EReal

/-- The array a table is, over the rank-2 index set. -/
def toMat {n k : Nat} (f : Tab n k) : (⟨2, ![n, k]⟩ : Shape).Idx → EReal := fun i => f (i 0) (i 1)

/-- The table an array is. -/
def ofMat {n k : Nat} (A : (⟨2, ![n, k]⟩ : Shape).Idx → EReal) : Tab n k := fun a b => A (ix2 a b)

theorem toMat_ix2 {n k : Nat} (f : Tab n k) (a : Fin n) (b : Fin k) : toMat f (ix2 a b) = f a b := rfl

theorem toMat_ofMat {n k : Nat} (A : (⟨2, ![n, k]⟩ : Shape).Idx → EReal) : toMat (ofMat A) = A :=
  funext fun i => (congrArg A (eq_ix2 i)).symm

theorem ofMat_toMat {n k : Nat} (f : Tab n k) : ofMat (toMat f) = f := rfl

/-- The number of rows (nodes), as the real the means divide by. -/
def nRows : ℝ := 50000

/-- An affine layer on every row: `s · W + b`. -/
def lin {n : Nat} (s : Tab n 128) (W : Tab 128 128) (b : Fin 128 → EReal) : Tab n 128 :=
  fun r d => (∑ j : Fin 128, s r j * W j d) + b d

/-- The rectifier on every entry. -/
def relu {n k : Nat} (s : Tab n k) : Tab n k := fun r d => max (s r d) 0

/-- The two-layer perceptron on every row. -/
def mlp {n : Nat} (s : Tab n 128) (Wa : Tab 128 128) (ba : Fin 128 → EReal) (Wb : Tab 128 128) (bb : Fin 128 → EReal) : Tab n 128 :=
  lin (relu (lin s Wa ba)) Wb bb

/-- The entrywise sum of two tables. -/
def tadd {n k : Nat} (a b : Tab n k) : Tab n k := fun r d => a r d + b r d

/-- The neighbour sum: row `i` collects the rows `src e` of the edges `e` whose target is `i`
    (an edge with no target contributes nowhere). -/
def agg {n E : Nat} (x : Tab n 128) (tgt : Fin E → Option (Fin n)) (src : Fin E → Fin n) : Tab n 128 :=
  fun i j => ∑ e ∈ Finset.univ.filter (fun e : Fin E => tgt e = some i), x (src e) j

/-- The column sums of a table. -/
def colSum {n k : Nat} (h : Tab n k) : Fin k → EReal := fun d => ∑ r : Fin n, h r d

/-- The column means: the column sum divided by the number of rows. -/
def mean (h : Tab 50000 128) : Fin 128 → EReal := fun d => Ideal.div (colSum h d) (nRows : EReal)

/-- The variance as the mean of the squared deviations from the mean. -/
def varDev (h : Tab 50000 128) : Fin 128 → EReal :=
  fun d => Ideal.div (∑ r : Fin 50000, (h r d - mean h d) * (h r d - mean h d)) (nRows : EReal)

/-- The variance as the mean of the squares minus the squared mean. -/
def varSq (h : Tab 50000 128) : Fin 128 → EReal :=
  fun d => Ideal.div (∑ r : Fin 50000, h r d * h r d) (nRows : EReal) - mean h d * mean h d

/-- Normalisation, centred spelling: `max ((h − μ) · rsqrt (var + ε) · γ + β) 0`, the variance the mean squared deviation. -/
def bnDev (eps : EReal) (h : Tab 50000 128) (g be : Fin 128 → EReal) : Tab 50000 128 :=
  fun r d => max ((h r d - mean h d) * Ideal.rsqrt (varDev h d + eps) * g d + be d) 0

/-- The folded scale `γ · rsqrt (var + ε)`, the variance the mean of squares minus the squared mean. -/
def scaleOf (eps : EReal) (h : Tab 50000 128) (g : Fin 128 → EReal) : Fin 128 → EReal :=
  fun d => g d * Ideal.rsqrt (varSq h d + eps)

/-- The folded shift `β − μ · scale`. -/
def shiftOf (eps : EReal) (h : Tab 50000 128) (g be : Fin 128 → EReal) : Fin 128 → EReal :=
  fun d => be d - mean h d * scaleOf eps h g d

/-- Normalisation, folded spelling: `max (h · scale + shift) 0`. -/
def bnFold (eps : EReal) (h : Tab 50000 128) (g be : Fin 128 → EReal) : Tab 50000 128 :=
  fun r d => max (h r d * scaleOf eps h g d + shiftOf eps h g be d) 0

/-- Pooling as a sum over the rows a graph owns. -/
def poolSeg {n G : Nat} (h : Tab n 128) (own : Fin n → Option (Fin G)) : Tab G 128 :=
  fun g d => ∑ r ∈ Finset.univ.filter (fun r : Fin n => own r = some g), h r d

/-- Pooling as the product with a membership indicator `ind r g`. -/
def poolInd {n G : Nat} (h : Tab n 128) (ind : Fin n → Fin G → EReal) : Tab G 128 :=
  fun g d => ∑ r : Fin n, ind r g * h r d

/-- The last affine map, to ten classes. -/
def head (p : Tab 128 128) (Wo : Tab 128 10) (bo : Fin 10 → EReal) : Tab 128 10 :=
  fun g o => (∑ k : Fin 128, p g k * Wo k o) + bo o

/-! ## The integer inputs, read as rows -/

/-- A source word as the host normalises it before the row lookup: a negative word has the row count added. -/
def normWord (w : BitVec 32) : BitVec 32 := Scalar.select (IntOp.cmpi .slt w 0#32) (IntOp.addi w 50000#32) w

/-- The row edge `e` reads: its source word, normalised, read signed and clamped into the table. -/
def srcRow (ei : IVec ⟨2, ![2, 800000]⟩ 32) (e : Fin 800000) : Fin 50000 :=
  Cert.ScatterGather.rowW 50000 (by decide) (normWord (ei (ix2 0 e)))

/-- The row edge `e` adds into: its target word read signed, when that is a row. -/
def tgtRow (ei : IVec ⟨2, ![2, 800000]⟩ 32) (e : Fin 800000) : Option (Fin 50000) :=
  Cert.ScatterGather.tgtW 50000 (ei (ix2 1 e))

/-- The graph that owns row `r`: its word read signed, when that is one of the 128 graphs. -/
def ownGraph (batch : IVec ⟨1, ![50000]⟩ 32) (r : Fin 50000) : Option (Fin 128) :=
  Cert.ScatterGather.tgtW 128 (batch (ix1 r))

/-- The membership indicator the kernel's program builds: the comparison of row `r`'s word with the
    word of `g`, converted to a float (one or zero). -/
def indGraph (batch : IVec ⟨1, ![50000]⟩ 32) (r : Fin 50000) (g : Fin 128) : EReal :=
  FloatOps.uitofp (F := Ideal) .f32 (IntOp.cmpi .eq (batch (ix1 r)) (BitVec.ofNat 32 g.val))

/-! ## The network, in the two spellings -/

/-- One convolution block with the folded normalisation. -/
def blockFold (eps : EReal) (x : Tab 50000 128) (tgt : Fin 800000 → Option (Fin 50000)) (src : Fin 800000 → Fin 50000)
    (Wa : Tab 128 128) (ba : Fin 128 → EReal) (Wb : Tab 128 128) (bb g be : Fin 128 → EReal) : Tab 50000 128 :=
  bnFold eps (mlp (tadd (agg x tgt src) x) Wa ba Wb bb) g be

/-- One convolution block with the centred normalisation. -/
def blockDev (eps : EReal) (x : Tab 50000 128) (tgt : Fin 800000 → Option (Fin 50000)) (src : Fin 800000 → Fin 50000)
    (Wa : Tab 128 128) (ba : Fin 128 → EReal) (Wb : Tab 128 128) (bb g be : Fin 128 → EReal) : Tab 50000 128 :=
  bnDev eps (mlp (tadd (agg x tgt src) x) Wa ba Wb bb) g be

/-- The network with folded normalisations and indicator pooling. -/
def netFold (eps : EReal) (x : Tab 50000 128) (ei : IVec ⟨2, ![2, 800000]⟩ 32) (batch : IVec ⟨1, ![50000]⟩ 32)
    (W1a : Tab 128 128) (b1a : Fin 128 → EReal) (W1b : Tab 128 128) (b1b g1 be1 : Fin 128 → EReal)
    (W2a : Tab 128 128) (b2a : Fin 128 → EReal) (W2b : Tab 128 128) (b2b g2 be2 : Fin 128 → EReal)
    (Wo : Tab 128 10) (bo : Fin 10 → EReal) : Tab 128 10 :=
  head (poolInd (blockFold eps (blockFold eps x (tgtRow ei) (srcRow ei) W1a b1a W1b b1b g1 be1) (tgtRow ei) (srcRow ei) W2a b2a W2b b2b g2 be2)
    (indGraph batch)) Wo bo

/-- The network with centred normalisations and segment pooling. -/
def netDev (eps : EReal) (x : Tab 50000 128) (ei : IVec ⟨2, ![2, 800000]⟩ 32) (batch : IVec ⟨1, ![50000]⟩ 32)
    (W1a : Tab 128 128) (b1a : Fin 128 → EReal) (W1b : Tab 128 128) (b1b g1 be1 : Fin 128 → EReal)
    (W2a : Tab 128 128) (b2a : Fin 128 → EReal) (W2b : Tab 128 128) (b2b g2 be2 : Fin 128 → EReal)
    (Wo : Tab 128 10) (bo : Fin 10 → EReal) : Tab 128 10 :=
  head (poolSeg (blockDev eps (blockDev eps x (tgtRow ei) (srcRow ei) W1a b1a W1b b1b g1 be1) (tgtRow ei) (srcRow ei) W2a b2a W2b b2b g2 be2)
    (ownGraph batch)) Wo bo

/-! ## The constants, and the networks over the seventeen argument arrays -/

/-- The normalisations' epsilon: the float nearest `1e-5`. -/
def epsBN : EReal := Ideal.ofBits .f32 0x3727C5AC#32

/-- The row of a rank-1 array. -/
def ofVec {k : Nat} (v : (⟨1, ![k]⟩ : Shape).Idx → EReal) : Fin k → EReal := fun d => v (ix1 d)

/-- The float `50000.0` is the real number of rows. -/
theorem ofBits_nRows : Ideal.ofBits .f32 0x47435000#32 = ((nRows : ℝ) : EReal) := by
  unfold nRows
  simp [Ideal.ofBits, Ideal.ieee, -EReal.coe_mul]; norm_num

/-- The folded network over the argument arrays. -/
def netFoldOf (a0 : (⟨2, ![50000, 128]⟩ : Shape).Idx → EReal) (a1 : IVec ⟨2, ![2, 800000]⟩ 32) (a2 : IVec ⟨1, ![50000]⟩ 32)
    (a3 : (⟨2, ![128, 128]⟩ : Shape).Idx → EReal) (a4 : (⟨1, ![128]⟩ : Shape).Idx → EReal)
    (a5 : (⟨2, ![128, 128]⟩ : Shape).Idx → EReal) (a6 a7 a8 : (⟨1, ![128]⟩ : Shape).Idx → EReal)
    (a9 : (⟨2, ![128, 128]⟩ : Shape).Idx → EReal) (a10 : (⟨1, ![128]⟩ : Shape).Idx → EReal)
    (a11 : (⟨2, ![128, 128]⟩ : Shape).Idx → EReal) (a12 a13 a14 : (⟨1, ![128]⟩ : Shape).Idx → EReal)
    (a15 : (⟨2, ![128, 10]⟩ : Shape).Idx → EReal) (a16 : (⟨1, ![10]⟩ : Shape).Idx → EReal) : Tab 128 10 :=
  netFold epsBN (ofMat a0) a1 a2 (ofMat a3) (ofVec a4) (ofMat a5) (ofVec a6) (ofVec a7) (ofVec a8)
    (ofMat a9) (ofVec a10) (ofMat a11) (ofVec a12) (ofVec a13) (ofVec a14) (ofMat a15) (ofVec a16)

/-- The centred network over the argument arrays. -/
def netDevOf (a0 : (⟨2, ![50000, 128]⟩ : Shape).Idx → EReal) (a1 : IVec ⟨2, ![2, 800000]⟩ 32) (a2 : IVec ⟨1, ![50000]⟩ 32)
    (a3 : (⟨2, ![128, 128]⟩ : Shape).Idx → EReal) (a4 : (⟨1, ![128]⟩ : Shape).Idx → EReal)
    (a5 : (⟨2, ![128, 128]⟩ : Shape).Idx → EReal) (a6 a7 a8 : (⟨1, ![128]⟩ : Shape).Idx → EReal)
    (a9 : (⟨2, ![128, 128]⟩ : Shape).Idx → EReal) (a10 : (⟨1, ![128]⟩ : Shape).Idx → EReal)
    (a11 : (⟨2, ![128, 128]⟩ : Shape).Idx → EReal) (a12 a13 a14 : (⟨1, ![128]⟩ : Shape).Idx → EReal)
    (a15 : (⟨2, ![128, 10]⟩ : Shape).Idx → EReal) (a16 : (⟨1, ![10]⟩ : Shape).Idx → EReal) : Tab 128 10 :=
  netDev epsBN (ofMat a0) a1 a2 (ofMat a3) (ofVec a4) (ofMat a5) (ofVec a6) (ofVec a7) (ofVec a8)
    (ofMat a9) (ofVec a10) (ofMat a11) (ofVec a12) (ofVec a13) (ofVec a14) (ofMat a15) (ofVec a16)

end Cert.Gin

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.KReg0.lean ====
/- The perceptron-and-statistics call of the first block, read as values: whatever the buffers hold when the call is
   entered, its three result arrays end holding the perceptron of (neighbour sums + self) row by row, that table's
   column sums, and the column sums of its squares. Each of the ten grid points handles 5000 consecutive rows and
   writes its block of the table back; the two statistics rows stay in place across the points — reset before the
   first point's contribution, each point adding its block's column sums — and are written back after the last. -/
import proofs.«422006_j8718783611640_1_alg».proof.Proof.Gen.KernelIdeal.Frame
import proofs.«422006_j8718783611640_1_alg».proof.Proof.Spec
import proofs.«422006_j8718783611640_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg0

open Cert.KernelIdeal Cert.KernelIdeal.Gen

variable (V : (c : Dev nD) → (b : Ref sig .tc) → Buf (Elt Ideal) ((c : Thread nD τ).loc b))

/-- The neighbour sums, as the call finds them. -/
abbrev aggArr (c : Dev nD) : Vec Ideal S50000x128 .f32 := V c main_v13
/-- The features, as the call finds them. -/
abbrev featArr (c : Dev nD) : Vec Ideal S50000x128 .f32 := V c main_arg0
/-- The first layer's weights. -/
abbrev waArr (c : Dev nD) : Vec Ideal S128x128 .f32 := V c main_arg3
/-- The first layer's bias, as a one-row array. -/
abbrev baArr (c : Dev nD) : Vec Ideal S1x128 .f32 := V c main_v14
/-- The second layer's weights. -/
abbrev wbArr (c : Dev nD) : Vec Ideal S128x128 .f32 := V c main_arg5
/-- The second layer's bias, as a one-row array. -/
abbrev bbArr (c : Dev nD) : Vec Ideal S1x128 .f32 := V c main_v15

/-- The perceptron's table: of neighbour sums plus self, row by row. -/
def hTab (c : Dev nD) : Cert.Gin.Tab 50000 128 :=
  Cert.Gin.mlp (Cert.Gin.tadd (Cert.Gin.ofMat (aggArr V c)) (Cert.Gin.ofMat (featArr V c))) (Cert.Gin.ofMat (waArr V c))
    (fun k => baArr V c (ix2 0 k)) (Cert.Gin.ofMat (wbArr V c)) (fun k => bbArr V c (ix2 0 k))

section Pieces
variable {F : FTy → Type} [FloatOps F]

/-- The zero offsets of a whole-block access, however spelt. -/
theorem hz : (![0, 0] : Fin 2 → Nat) = fun _ => 0 := funext fun a => by fin_cases a <;> rfl

/-- First point, table block: the one covering store leaves the perceptron of the loaded blocks. -/
theorem piece_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz]

/-- First point, column-sum row: the row is reset to zero, read back, and the block's column sums added. -/
theorem piece_A_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay5 x0 x1 x2 x3 x4 x5 (k0_pay2 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz, View.readCov_unit_zero (S := S1x128) _ hz]

/-- First point, sum-of-squares row: reset to zero, read back, and the block's column sums of squares added. -/
theorem piece_A_8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) (k0_pay3 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz, View.readCov_unit_zero (S := S1x128) _ hz]

/-- Later points, table block: as at the first point. -/
theorem piece_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz, h8.read_unread, h9.read_unread]

/-- Later points, column-sum row: the row carried from the point before plus the block's column sums. -/
theorem piece_B_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz, h8.read_unread, h9.read_unread]

/-- Later points, sum-of-squares row: the carried row plus the block's column sums of squares. -/
theorem piece_B_8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S5000x128) hz, View.ld_unit_zero (S := S128x128) hz, View.ld_unit_zero (S := S1x128) hz, h8.read_unread, h9.read_unread]

end Pieces

section Payloads

/-- A column index of the block with a row put back on the reduced axis is (row, column). -/
theorem lift_row (h : S5000x128.Reduces [0] S128) (d : Fin 128) (k : Fin 5000) :
    h.lift (ix1 d) k = ix2 k d := by
  funext a; apply Fin.ext; fin_cases a <;> rfl

/-- The sum over the block's rows, laid out as one row, read at a column. -/
theorem colsum_apply (src : FVec Ideal S5000x128 .f32) (hφ : FKind.Formats .f32)
    (hacc : (0x00000000#32 : BitVec FTy.f32.bits) = FKind.add.neutral .f32 hφ) (d : Fin 128) :
    shapeCast S1x128 (multiReduction (F := Ideal) .add [0] S128 src 0x00000000#32 reduces_S5000x128_S128 hφ hacc)
        shapeCasts_S128_S1x128 (ix2 (0 : Fin 1) d) = ∑ r : Fin 5000, src (ix2 r d) := by
  refine (shapeCast_a_1a_apply _ shapeCasts_S128_S1x128 (0 : Fin 1) d).trans ?_
  refine (Ideal.multiReduction_add_single src 0x00000000#32 reduces_S5000x128_S128 hφ hacc (ix1 d)).trans ?_
  show ∑ k : Fin 5000, src (reduces_S5000x128_S128.lift (ix1 d) k) = _
  exact Finset.sum_congr rfl fun k _ => congrArg src (lift_row reduces_S5000x128_S128 d k)

/-- The reset rows are zero. -/
theorem pay2_apply (j : S1x128.Idx) : k0_pay2 (F := Ideal) j = 0 := by
  unfold k0_pay2
  exact Ideal.ofBits_zero_f32

theorem pay3_apply (j : S1x128.Idx) : k0_pay3 (F := Ideal) j = 0 := by
  unfold k0_pay3
  exact Ideal.ofBits_zero_f32

/-- The sum-of-squares update at a column: the row read plus the column's sum of squares over the block. -/
theorem pay1_apply (v24 : FVec Ideal S5000x128 .f32) (v32 : Vec Ideal S1x128 .f32) (d : Fin 128) :
    k0_pay1 (F := Ideal) v24 v32 (ix2 (0 : Fin 1) d)
      = v32 (ix2 (0 : Fin 1) d) + ∑ r : Fin 5000, v24 (ix2 r d) * v24 (ix2 r d) := by
  unfold k0_pay1
  show shapeCast S1x128 v32 shapeCasts_S1x128_S1x128 (ix2 (0 : Fin 1) d)
      + shapeCast S1x128 (multiReduction (F := Ideal) .add [0] S128 (mulf v24 v24) 0x00000000#32 reduces_S5000x128_S128 _ _)
          shapeCasts_S128_S1x128 (ix2 (0 : Fin 1) d) = _
  rw [shapeCast_self]
  exact congrArg (v32 (ix2 (0 : Fin 1) d) + ·) (colsum_apply (mulf v24 v24) _ _ d)

/-- One affine layer of the block at an entry: the product into the zero accumulator plus the broadcast bias row. -/
theorem lin_apply (s : FVec Ideal S5000x128 .f32) (W : Vec Ideal S128x128 .f32) (b : Vec Ideal S1x128 .f32)
    (hs : FTy.bf16.bits < FTy.f32.bits) (r : Fin 5000) (d : Fin 128) :
    addf (matmul dot_S5000x128_S128x128_S5000x128_1_0_0_1_n_n none (truncf .bf16 s hs) (truncf .bf16 W hs)
          (constant (F := Ideal) S5000x128 .f32 0x00000000#32))
        (broadcastTo S5000x128 (shapeCast S1x128 b shapeCasts_S1x128_S1x128) broadcasts_S1x128_S5000x128) (ix2 r d)
      = (∑ k : Fin 128, s (ix2 r k) * W (ix2 k d)) + b (ix2 (0 : Fin 1) d) := by
  rw [shapeCast_self]
  show matmul dot_S5000x128_S128x128_S5000x128_1_0_0_1_n_n none (truncf .bf16 s hs) (truncf .bf16 W hs)
          (constant (F := Ideal) S5000x128 .f32 0x00000000#32) (ix2 r d)
        + broadcastTo S5000x128 b broadcasts_S1x128_S5000x128 (ix2 r d) = _
  rw [broadcastTo_1b_ab_apply b broadcasts_S1x128_S5000x128 r d]
  exact congrArg (· + b (ix2 (0 : Fin 1) d))
    (Cert.DotPlain.matmul_zero_rows_cols dot_S5000x128_S128x128_S5000x128_1_0_0_1_n_n rfl rfl rfl rfl rfl rfl none
      (truncf .bf16 s hs) (truncf .bf16 W hs) r d)

/-- The block's perceptron at an entry is the two-layer perceptron of the block's tables. -/
theorem pay4_apply (x0 x1 : Vec Ideal S5000x128 .f32) (x2 : Vec Ideal S128x128 .f32) (x3 : Vec Ideal S1x128 .f32)
    (x4 : Vec Ideal S128x128 .f32) (x5 : Vec Ideal S1x128 .f32) (r : Fin 5000) (d : Fin 128) :
    k0_pay4 (F := Ideal) x0 x1 x2 x3 x4 x5 (ix2 r d)
      = Cert.Gin.mlp (Cert.Gin.tadd (Cert.Gin.ofMat x0) (Cert.Gin.ofMat x1)) (Cert.Gin.ofMat x2) (fun k => x3 (ix2 (0 : Fin 1) k))
          (Cert.Gin.ofMat x4) (fun k => x5 (ix2 (0 : Fin 1) k)) r d := by
  unfold k0_pay4
  refine (lin_apply _ x4 x5 _ r d).trans ?_
  unfold Cert.Gin.mlp
  show _ = (∑ j : Fin 128, Cert.Gin.relu (Cert.Gin.lin (Cert.Gin.tadd (Cert.Gin.ofMat x0) (Cert.Gin.ofMat x1)) (Cert.Gin.ofMat x2)
      (fun k => x3 (ix2 (0 : Fin 1) k))) r j * Cert.Gin.ofMat x4 j d) + x5 (ix2 (0 : Fin 1) d)
  refine congrArg (· + x5 (ix2 (0 : Fin 1) d)) (Finset.sum_congr rfl fun j _ => congrArg (· * x4 (ix2 j d)) ?_)
  show max (addf _ _ (ix2 r j)) (Ideal.ofBits .f32 0x00000000#32) = max _ 0
  rw [Ideal.ofBits_zero_f32, shapeCast_self]
  exact congrArg (max · 0) (lin_apply (addf x0 x1) x2 x3 _ r j)

/-- The column-sum update at a column: the row read plus the column's sum of the block's perceptron. -/
theorem pay5_apply (x0 x1 : Vec Ideal S5000x128 .f32) (x2 : Vec Ideal S128x128 .f32) (x3 : Vec Ideal S1x128 .f32)
    (x4 : Vec Ideal S128x128 .f32) (x5 : Vec Ideal S1x128 .f32) (v26 : Vec Ideal S1x128 .f32) (d : Fin 128) :
    k0_pay5 (F := Ideal) x0 x1 x2 x3 x4 x5 v26 (ix2 (0 : Fin 1) d)
      = v26 (ix2 (0 : Fin 1) d) + ∑ r : Fin 5000, k0_pay4 (F := Ideal) x0 x1 x2 x3 x4 x5 (ix2 r d) := by
  unfold k0_pay5
  show shapeCast S1x128 v26 shapeCasts_S1x128_S1x128 (ix2 (0 : Fin 1) d)
      + shapeCast S1x128 (multiReduction (F := Ideal) .add [0] S128 (k0_pay4 (F := Ideal) x0 x1 x2 x3 x4 x5) 0x00000000#32 reduces_S5000x128_S128 _ _)
          shapeCasts_S128_S1x128 (ix2 (0 : Fin 1) d) = _
  rw [shapeCast_self]
  exact congrArg (v26 (ix2 (0 : Fin 1) d) + ·) (colsum_apply (k0_pay4 (F := Ideal) x0 x1 x2 x3 x4 x5) _ _ d)

end Payloads

section Blocks

/-- The six input blocks a point reads, each at its literal type. -/
abbrev aggBlk (c : Dev nD) (t : Fin cfg0.N) : Vec Ideal S5000x128 .f32 := iblk0 V c 0 t
abbrev featBlk (c : Dev nD) (t : Fin cfg0.N) : Vec Ideal S5000x128 .f32 := iblk0 V c 1 t
abbrev waBlk (c : Dev nD) (t : Fin cfg0.N) : Vec Ideal S128x128 .f32 := iblk0 V c 2 t
abbrev baBlk (c : Dev nD) (t : Fin cfg0.N) : Vec Ideal S1x128 .f32 := iblk0 V c 3 t
abbrev wbBlk (c : Dev nD) (t : Fin cfg0.N) : Vec Ideal S128x128 .f32 := iblk0 V c 4 t
abbrev bbBlk (c : Dev nD) (t : Fin cfg0.N) : Vec Ideal S1x128 .f32 := iblk0 V c 5 t

/-- Row `r` of point `t`'s block is row `5000 t + r` of the table. -/
def rowOf (t : Fin cfg0.N) (r : Fin 5000) : Fin 50000 :=
  ⟨5000 * t.val + r.val, by have hN : cfg0.N = 10 := N_0; have := t.isLt; have := r.isLt; omega⟩

/-- The row-blocked windows sit at block (t, 0) at point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0 :=
  (by decide +kernel : ∀ t : Fin grid0.N, _)

/-- The other windows' one block is block (0, 0) at every point. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem aggBlk_apply (c : Dev nD) (t : Fin cfg0.N) (r : Fin 5000) (d : Fin 128) :
    aggBlk V c t (ix2 r d) = aggArr V c (ix2 (rowOf t r) d) := by
  obtain ⟨e0, e1, -⟩ := idx_rows t
  unfold aggBlk iblk0
  rw [View.read_apply]
  show V c main_v13 _ = V c main_v13 _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * d.val = d.val; rw [e1]; omega

theorem featBlk_apply (c : Dev nD) (t : Fin cfg0.N) (r : Fin 5000) (d : Fin 128) :
    featBlk V c t (ix2 r d) = featArr V c (ix2 (rowOf t r) d) := by
  obtain ⟨-, -, e0, e1, -⟩ := idx_rows t
  unfold featBlk iblk0
  rw [View.read_apply]
  show V c main_arg0 _ = V c main_arg0 _
  congr 1
  funext a
  apply Fin.ext
  match a with
  | ⟨0, _⟩ => show win0_1.index t (0 : Fin 2) * 5000 + 1 * r.val = 5000 * t.val + r.val; rw [e0]; omega
  | ⟨1, _⟩ => show win0_1.index t (1 : Fin 2) * 128 + 1 * d.val = d.val; rw [e1]; omega

theorem waBlk_eq (c : Dev nD) (t : Fin cfg0.N) : waBlk V c t = waArr V c := by
  obtain ⟨⟨e0, e1⟩, -⟩ := idx_whole t
  funext j
  unfold waBlk iblk0
  rw [View.read_apply]
  show V c main_arg3 _ = V c main_arg3 j
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

theorem baBlk_eq (c : Dev nD) (t : Fin cfg0.N) : baBlk V c t = baArr V c := by
  obtain ⟨-, ⟨e0, e1⟩, -⟩ := idx_whole t
  funext j
  unfold baBlk iblk0
  rw [View.read_apply]
  show V c main_v14 _ = V c main_v14 j
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

theorem wbBlk_eq (c : Dev nD) (t : Fin cfg0.N) : wbBlk V c t = wbArr V c := by
  obtain ⟨-, -, ⟨e0, e1⟩, -⟩ := idx_whole t
  funext j
  unfold wbBlk iblk0
  rw [View.read_apply]
  show V c main_arg5 _ = V c main_arg5 j
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem bbBlk_eq (c : Dev nD) (t : Fin cfg0.N) : bbBlk V c t = bbArr V c := by
  obtain ⟨-, -, -, ⟨e0, e1⟩, -⟩ := idx_whole t
  funext j
  unfold bbBlk iblk0
  rw [View.read_apply]
  show V c main_v15 _ = V c main_v15 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

end Blocks

section Sums

/-- A column of the table continued by zero past its last row: a sum over the first rows is then a sum over a range. -/
def ext (f : Fin 50000 → EReal) (i : ℕ) : EReal := if h : i < 50000 then f ⟨i, h⟩ else 0

theorem ext_val (f : Fin 50000 → EReal) (i : Fin 50000) : ext f i.val = f i := by
  unfold ext; rw [dif_pos i.isLt]

/-- Over all 50000 rows the continued column sums to the column's sum. -/
theorem sum_ext_all (f : Fin 50000 → EReal) : ∑ i ∈ Finset.range 50000, ext f i = ∑ i : Fin 50000, f i := by
  rw [Finset.sum_range]; exact Finset.sum_congr rfl fun i _ => ext_val f i

/-- Over the 5000 rows of point `t`'s block it sums to the block's sum. -/
theorem sum_ext_block (f : Fin 50000 → EReal) (t : Fin cfg0.N) :
    ∑ r ∈ Finset.range 5000, ext f (5000 * t.val + r) = ∑ r : Fin 5000, f (rowOf t r) := by
  rw [Finset.sum_range]; exact Finset.sum_congr rfl fun r _ => ext_val f (rowOf t r)

/-- The rows below the first block's end are the first block's rows. -/
theorem range_first (g : ℕ → EReal) :
    ∑ i ∈ Finset.range (5000 * (0 + 1)), g i = 0 + ∑ r ∈ Finset.range 5000, g (5000 * 0 + r) := by
  refine Eq.trans ?_ (zero_add _).symm
  exact Finset.sum_congr rfl fun r _ => by rw [Nat.mul_zero, Nat.zero_add]

/-- The rows below the next block's end are the rows below this block's end and then the next block's rows. -/
theorem range_step (g : ℕ → EReal) (n : ℕ) :
    ∑ i ∈ Finset.range (5000 * (n + 1 + 1)), g i
      = ∑ i ∈ Finset.range (5000 * (n + 1)), g i + ∑ r ∈ Finset.range 5000, g (5000 * (n + 1) + r) := by
  rw [show 5000 * (n + 1 + 1) = 5000 * (n + 1) + 5000 by omega, Finset.sum_range_add]

/-- A row of the perceptron's table depends on that row of its input only. -/
theorem mlp_row {n m : ℕ} (s : Cert.Gin.Tab n 128) (s' : Cert.Gin.Tab m 128) (Wa : Cert.Gin.Tab 128 128) (ba : Fin 128 → EReal)
    (Wb : Cert.Gin.Tab 128 128) (bb : Fin 128 → EReal) (r : Fin n) (r' : Fin m) (h : ∀ k, s r k = s' r' k) (d : Fin 128) :
    Cert.Gin.mlp s Wa ba Wb bb r d = Cert.Gin.mlp s' Wa ba Wb bb r' d := by
  unfold Cert.Gin.mlp Cert.Gin.lin Cert.Gin.relu
  simp only [h]

end Sums

section Points

/-- Column `d` of the table, and of its squares, continued by zero. -/
abbrev col (c : Dev nD) (d : Fin 128) : ℕ → EReal := ext fun i => hTab V c i d
abbrev colSq (c : Dev nD) (d : Fin 128) : ℕ → EReal := ext fun i => hTab V c i d * hTab V c i d

/-- Point `t`'s block of the perceptron is rows `5000 t …` of the table. -/
theorem hblk_apply (c : Dev nD) (t : Fin cfg0.N) (r : Fin 5000) (d : Fin 128) :
    k0_pay4 (F := Ideal) (aggBlk V c t) (featBlk V c t) (waBlk V c t) (baBlk V c t) (wbBlk V c t) (bbBlk V c t) (ix2 r d) = hTab V c (rowOf t r) d := by
  refine (pay4_apply (aggBlk V c t) (featBlk V c t) (waBlk V c t) (baBlk V c t) (wbBlk V c t) (bbBlk V c t) r d).trans ?_
  rw [waBlk_eq V c t, baBlk_eq V c t, wbBlk_eq V c t, bbBlk_eq V c t]
  unfold hTab
  exact mlp_row _ _ _ _ _ _ r (rowOf t r) (fun k => by
    show aggBlk V c t (ix2 r k) + featBlk V c t (ix2 r k) = aggArr V c (ix2 (rowOf t r) k) + featArr V c (ix2 (rowOf t r) k)
    rw [aggBlk_apply, featBlk_apply]) d

/-- The block's column sums are the table's column sums over the block's rows. -/
theorem blk_colsum (c : Dev nD) (t : Fin cfg0.N) (d : Fin 128) :
    ∑ r : Fin 5000, k0_pay4 (F := Ideal) (aggBlk V c t) (featBlk V c t) (waBlk V c t) (baBlk V c t) (wbBlk V c t) (bbBlk V c t) (ix2 r d) = ∑ r ∈ Finset.range 5000, col V c d (5000 * t.val + r) := by
  rw [sum_ext_block]; exact Finset.sum_congr rfl fun r _ => hblk_apply V c t r d

theorem blk_colsumSq (c : Dev nD) (t : Fin cfg0.N) (d : Fin 128) :
    ∑ r : Fin 5000, k0_pay4 (F := Ideal) (aggBlk V c t) (featBlk V c t) (waBlk V c t) (baBlk V c t) (wbBlk V c t) (bbBlk V c t) (ix2 r d) * k0_pay4 (F := Ideal) (aggBlk V c t) (featBlk V c t) (waBlk V c t) (baBlk V c t) (wbBlk V c t) (bbBlk V c t) (ix2 r d)
      = ∑ r ∈ Finset.range 5000, colSq V c d (5000 * t.val + r) := by
  rw [sum_ext_block]; exact Finset.sum_congr rfl fun r _ => by rw [hblk_apply V c t r d]

/-! What the body leaves at point `t`, by case. -/

theorem at_A_6 (c : Dev nD) (t : Fin cfg0.N) (hc : cond0_0 (grid0.coords t)) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t) = k0_pay4 (F := Ideal) (aggBlk V c t) (featBlk V c t) (waBlk V c t) (baBlk V c t) (wbBlk V c t) (bbBlk V c t) :=
  piece_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t)

theorem at_A_7 (c : Dev nD) (t : Fin cfg0.N) (hc : cond0_0 (grid0.coords t)) (d : Fin 128) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t) (ix2 (0 : Fin 1) d) = 0 + ∑ r ∈ Finset.range 5000, col V c d (5000 * t.val + r) := by
  refine (congrFun (piece_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t)) (ix2 (0 : Fin 1) d)).trans ?_
  refine (pay5_apply (aggBlk V c t) (featBlk V c t) (waBlk V c t) (baBlk V c t) (wbBlk V c t) (bbBlk V c t) (k0_pay2 (F := Ideal)) d).trans ?_
  rw [pay2_apply, blk_colsum V c t d]

theorem at_A_8 (c : Dev nD) (t : Fin cfg0.N) (hc : cond0_0 (grid0.coords t)) (d : Fin 128) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t) (ix2 (0 : Fin 1) d) = 0 + ∑ r ∈ Finset.range 5000, colSq V c d (5000 * t.val + r) := by
  refine (congrFun (piece_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t)) (ix2 (0 : Fin 1) d)).trans ?_
  refine (pay1_apply (k0_pay4 (F := Ideal) (aggBlk V c t) (featBlk V c t) (waBlk V c t) (baBlk V c t) (wbBlk V c t) (bbBlk V c t)) (k0_pay3 (F := Ideal)) d).trans ?_
  rw [pay3_apply, blk_colsumSq V c t d]

theorem at_B_6 (c : Dev nD) (t : Fin cfg0.N) (hc : ¬cond0_0 (grid0.coords t)) (xo7 xo8 : Vec Ideal S1x128 .f32) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t) xo7 xo8 = k0_pay4 (F := Ideal) (aggBlk V c t) (featBlk V c t) (waBlk V c t) (baBlk V c t) (wbBlk V c t) (bbBlk V c t) :=
  piece_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t) xo7 xo8

theorem at_B_7 (c : Dev nD) (t : Fin cfg0.N) (hc : ¬cond0_0 (grid0.coords t)) (xo7 xo8 : Vec Ideal S1x128 .f32) (d : Fin 128) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t) xo7 xo8 (ix2 (0 : Fin 1) d)
      = xo7 (ix2 (0 : Fin 1) d) + ∑ r ∈ Finset.range 5000, col V c d (5000 * t.val + r) := by
  refine (congrFun (piece_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t) xo7 xo8) (ix2 (0 : Fin 1) d)).trans ?_
  refine (pay5_apply (aggBlk V c t) (featBlk V c t) (waBlk V c t) (baBlk V c t) (wbBlk V c t) (bbBlk V c t) xo7 d).trans ?_
  rw [blk_colsum V c t d]

theorem at_B_8 (c : Dev nD) (t : Fin cfg0.N) (hc : ¬cond0_0 (grid0.coords t)) (xo7 xo8 : Vec Ideal S1x128 .f32) (d : Fin 128) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t) xo7 xo8 (ix2 (0 : Fin 1) d)
      = xo8 (ix2 (0 : Fin 1) d) + ∑ r ∈ Finset.range 5000, colSq V c d (5000 * t.val + r) := by
  refine (congrFun (piece_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk0 V c 0 t) (iblk0 V c 1 t) (iblk0 V c 2 t) (iblk0 V c 3 t) (iblk0 V c 4 t) (iblk0 V c 5 t) xo7 xo8) (ix2 (0 : Fin 1) d)).trans ?_
  refine (pay1_apply (k0_pay4 (F := Ideal) (aggBlk V c t) (featBlk V c t) (waBlk V c t) (baBlk V c t) (wbBlk V c t) (bbBlk V c t)) xo8 d).trans ?_
  rw [blk_colsumSq V c t d]

/-- After point `n`: the table's buffer holds that point's block of the perceptron; the two statistics rows hold the
    table's column sums, and column sums of squares, over the rows of the points so far. By induction on the point. -/
theorem outsAt_eq (c : Dev nD) : ∀ (n : ℕ) (h : n < cfg0.N),
    (outsAt0 V c n h).1 = k0_pay4 (F := Ideal) (aggBlk V c ⟨n, h⟩) (featBlk V c ⟨n, h⟩) (waBlk V c ⟨n, h⟩) (baBlk V c ⟨n, h⟩) (wbBlk V c ⟨n, h⟩) (bbBlk V c ⟨n, h⟩)
    ∧ (∀ d : Fin 128, (outsAt0 V c n h).2.1 (ix2 (0 : Fin 1) d) = ∑ i ∈ Finset.range (5000 * (n + 1)), col V c d i)
    ∧ (∀ d : Fin 128, (outsAt0 V c n h).2.2 (ix2 (0 : Fin 1) d) = ∑ i ∈ Finset.range (5000 * (n + 1)), colSq V c d i)
  | 0, h => by
    rw [outsAt0_A V c ⟨0, h⟩ rfl]
    dsimp only
    exact ⟨at_A_6 V c ⟨0, h⟩ _, fun d => (at_A_7 V c ⟨0, h⟩ _ d).trans (range_first _).symm,
      fun d => (at_A_8 V c ⟨0, h⟩ _ d).trans (range_first _).symm⟩
  | n + 1, h => by
    have hN : cfg0.N = 10 := N_0
    have hB : ¬(⟨n + 1, h⟩ : Fin cfg0.N).val % 10 = 0 := by dsimp only; omega
    obtain ⟨-, ih7, ih8⟩ := outsAt_eq c n (Nat.lt_of_succ_lt h)
    rw [outsAt0_B V c ⟨n + 1, h⟩ hB]
    dsimp only
    refine ⟨at_B_6 V c ⟨n + 1, h⟩ _ _ _, fun d => ?_, fun d => ?_⟩
    · refine (at_B_7 V c ⟨n + 1, h⟩ _ _ _ d).trans ?_
      rw [range_step]
      exact congrArg (· + _) (ih7 d)
    · refine (at_B_8 V c ⟨n + 1, h⟩ _ _ _ d).trans ?_
      rw [range_step]
      exact congrArg (· + _) (ih8 d)

end Points

section Final

/-- A row of 128 entries as a one-row array. -/
def rowMat (v : Fin 128 → EReal) : S1x128.Idx → EReal := fun i => v (i 1)

theorem rowMat_ix2 (v : Fin 128 → EReal) (u : Fin 1) (d : Fin 128) : rowMat v (ix2 u d) = v d := rfl

/-! The table: every point writes its block back, and block `t` holds rows `5000 t …`. -/

/-- A block that agrees, entry by entry, with rows `5000 t …` of an array is that array read through point `t`'s
    window. -/
theorem read_blk6 (t : Fin cfg0.N) (X : Vec Ideal S5000x128 .f32) (G : Vec Ideal S50000x128 .f32)
    (h : ∀ (r : Fin 5000) (d : Fin 128), X (ix2 r d) = G (ix2 (rowOf t r) d)) :
    (cfg0.win 6).cut (grid0.coords t) X = ((cfg0.win 6).blk t).view.read (Elt Ideal) G := by
  obtain ⟨-, -, -, -, e0, e1⟩ := idx_rows t
  funext j
  obtain ⟨r, d, rfl⟩ : ∃ (r : Fin 5000) (d : Fin 128), j = ix2 r d := ⟨j 0, j 1, eq_ix2 j⟩
  show X (ix2 r d) = G (((cfg0.win 6).blk t).view.emb (ix2 r d))
  have he : ((cfg0.win 6).blk t).view.emb (ix2 r d) = ix2 (rowOf t r) d := by
    funext a
    apply Fin.ext
    match a with
    | ⟨0, _⟩ => show win0_6.index t (0 : Fin 2) * 5000 + 1 * r.val = 5000 * t.val + r.val; rw [e0]; omega
    | ⟨1, _⟩ => show win0_6.index t (1 : Fin 2) * 128 + 1 * d.val = d.val; rw [e1]; omega
  rw [he]
  exact h r d

/-- What point `t` writes back is block `t` of the perceptron's table. -/
theorem flushed6_eq (c : Dev nD) (t : Fin cfg0.N) :
    (dat0 V c).flushed 6 t = ((cfg0.win 6).blk t).view.read (Elt Ideal) (Cert.Gin.toMat (hTab V c)) := by
  show (cfg0.win 6).cut (grid0.coords t) ((dat0 V c).after 6 t) = _
  rw [after0_6]
  refine read_blk6 t _ _ fun r d => ?_
  rw [(outsAt_eq V c t.val t.isLt).1, Cert.Gin.toMat_ix2]
  exact hblk_apply V c t r d

/-- An index of the table array is in point `t`'s block iff each coordinate is in the block's range. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16_0).slice (win0_6.rect t)).set ↔ _
  rw [View.set_slice_whole, Rect.mem_set_unit]
  exact Iff.rfl

/-- Row `n` is written by point `n / 5000`. -/
theorem cover6 (i : S50000x128.Idx) :
    ∃ t : Fin cfg0.N, (cfg0.win 6).flush t = true ∧ i ∈ ((cfg0.win 6).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, e0, e1⟩ := idx_rows t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- The table array after the call. -/
theorem out6 (c : Dev nD) : (dat0 (F := Ideal) V c).arrAt 6 cfg0.N = Cert.Gin.toMat (hTab V c) :=
  (dat0 V c).arrAt_eq_of_cover 6 (Cert.Gin.toMat (hTab V c)) (fun t _ => flushed6_eq V c t) cover6

/-! The statistics rows: one write-back, after the last point, of the sums over all the rows. -/

/-- A one-row block that agrees with a one-row array entry by entry is that array read through the window: the
    window's one block is the whole array at every point. -/
theorem read_row7 (t : Fin cfg0.N) (X G : Vec Ideal S1x128 .f32) (h : ∀ d : Fin 128, X (ix2 (0 : Fin 1) d) = G (ix2 (0 : Fin 1) d)) :
    (cfg0.win 7).cut (grid0.coords t) X = ((cfg0.win 7).blk t).view.read (Elt Ideal) G := by
  obtain ⟨-, -, -, -, ⟨e0, e1⟩, -⟩ := idx_whole t
  funext j
  obtain ⟨u, d, rfl⟩ : ∃ (u : Fin 1) (d : Fin 128), j = ix2 u d := ⟨j 0, j 1, eq_ix2 j⟩
  obtain rfl : u = 0 := Subsingleton.elim _ _
  show X (ix2 (0 : Fin 1) d) = G (((cfg0.win 7).blk t).view.emb (ix2 (0 : Fin 1) d))
  have he : ((cfg0.win 7).blk t).view.emb (ix2 (0 : Fin 1) d) = ix2 (0 : Fin 1) d := by
    funext a
    apply Fin.ext
    match a with
    | ⟨0, _⟩ => show win0_7.index t (0 : Fin 2) * 1 + 1 * 0 = 0; rw [e0]
    | ⟨1, _⟩ => show win0_7.index t (1 : Fin 2) * 128 + 1 * d.val = d.val; rw [e1]; omega
  rw [he]
  exact h d

theorem read_row8 (t : Fin cfg0.N) (X G : Vec Ideal S1x128 .f32) (h : ∀ d : Fin 128, X (ix2 (0 : Fin 1) d) = G (ix2 (0 : Fin 1) d)) :
    (cfg0.win 8).cut (grid0.coords t) X = ((cfg0.win 8).blk t).view.read (Elt Ideal) G := by
  obtain ⟨-, -, -, -, -, ⟨e0, e1⟩⟩ := idx_whole t
  funext j
  obtain ⟨u, d, rfl⟩ : ∃ (u : Fin 1) (d : Fin 128), j = ix2 u d := ⟨j 0, j 1, eq_ix2 j⟩
  obtain rfl : u = 0 := Subsingleton.elim _ _
  show X (ix2 (0 : Fin 1) d) = G (((cfg0.win 8).blk t).view.emb (ix2 (0 : Fin 1) d))
  have he : ((cfg0.win 8).blk t).view.emb (ix2 (0 : Fin 1) d) = ix2 (0 : Fin 1) d := by
    funext a
    apply Fin.ext
    match a with
    | ⟨0, _⟩ => show win0_8.index t (0 : Fin 2) * 1 + 1 * 0 = 0; rw [e0]
    | ⟨1, _⟩ => show win0_8.index t (1 : Fin 2) * 128 + 1 * d.val = d.val; rw [e1]; omega
  rw [he]
  exact h d

/-- The one write-back of the column-sum row writes the table's column sums. -/
theorem flushed7_eq (c : Dev nD) (t : Fin cfg0.N) (hf : (cfg0.win 7).flush t = true) :
    (dat0 V c).flushed 7 t = ((cfg0.win 7).blk t).view.read (Elt Ideal) (rowMat (Cert.Gin.colSum (hTab V c))) := by
  have hN : cfg0.N = 10 := N_0
  have h9 : 5000 * (t.val + 1) = 50000 := by have := (flush0_7 t).mp hf; have := t.isLt; omega
  show (cfg0.win 7).cut (grid0.coords t) ((dat0 V c).after 7 t) = _
  rw [after0_7]
  refine read_row7 t _ _ fun d => ?_
  rw [(outsAt_eq V c t.val t.isLt).2.1 d, h9, rowMat_ix2]
  unfold Cert.Gin.colSum
  exact sum_ext_all _

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v16_1).slice (win0_7.rect t)).set ↔ _
  rw [View.set_slice_whole, Rect.mem_set_unit]
  exact Iff.rfl

/-- The last point's block is the whole one-row array. -/
theorem cover7 (i : S1x128.Idx) :
    ∃ t : Fin cfg0.N, (cfg0.win 7).flush t = true ∧ i ∈ ((cfg0.win 7).blk t).view.set := by
  have hi0 : (i 0).val < 1 := (i 0).isLt
  have hi1 : (i 1).val < 128 := (i 1).isLt
  obtain ⟨-, -, -, -, ⟨e0, e1⟩, -⟩ := idx_whole t0_9
  refine ⟨t0_9, (flush0_7 t0_9).mpr rfl, ?_⟩
  rw [mem_blk7]
  intro a
  match a with
  | ⟨0, _⟩ => show win0_7.index t0_9 (0 : Fin 2) * 1 ≤ (i 0).val ∧ (i 0).val < win0_7.index t0_9 (0 : Fin 2) * 1 + 1; rw [e0]; omega
  | ⟨1, _⟩ => show win0_7.index t0_9 (1 : Fin 2) * 128 ≤ (i 1).val ∧ (i 1).val < win0_7.index t0_9 (1 : Fin 2) * 128 + 128; rw [e1]; omega

/-- The column-sum row after the call. -/
theorem out7 (c : Dev nD) (d : Fin 128) : (dat0 (F := Ideal) V c).arrAt 7 cfg0.N (ix2 0 d) = Cert.Gin.colSum (hTab V c) d :=
  (congrFun ((dat0 V c).arrAt_eq_of_cover 7 (rowMat (Cert.Gin.colSum (hTab V c))) (flushed7_eq V c) cover7) (ix2 0 d)).trans
    (rowMat_ix2 _ 0 d)

/-- The one write-back of the sum-of-squares row writes the table's column sums of squares. -/
theorem flushed8_eq (c : Dev nD) (t : Fin cfg0.N) (hf : (cfg0.win 8).flush t = true) :
    (dat0 V c).flushed 8 t
      = ((cfg0.win 8).blk t).view.read (Elt Ideal) (rowMat fun d => ∑ r : Fin 50000, hTab V c r d * hTab V c r d) := by
  have hN : cfg0.N = 10 := N_0
  have h9 : 5000 * (t.val + 1) = 50000 := by have := (flush0_8 t).mp hf; have := t.isLt; omega
  show (cfg0.win 8).cut (grid0.coords t) ((dat0 V c).after 8 t) = _
  rw [after0_8]
  refine read_row8 t _ _ fun d => ?_
  rw [(outsAt_eq V c t.val t.isLt).2.2 d, h9, rowMat_ix2]
  exact sum_ext_all _

theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v16_2).slice (win0_8.rect t)).set ↔ _
  rw [View.set_slice_whole, Rect.mem_set_unit]
  exact Iff.rfl

theorem cover8 (i : S1x128.Idx) :
    ∃ t : Fin cfg0.N, (cfg0.win 8).flush t = true ∧ i ∈ ((cfg0.win 8).blk t).view.set := by
  have hi0 : (i 0).val < 1 := (i 0).isLt
  have hi1 : (i 1).val < 128 := (i 1).isLt
  obtain ⟨-, -, -, -, -, ⟨e0, e1⟩⟩ := idx_whole t0_9
  refine ⟨t0_9, (flush0_8 t0_9).mpr rfl, ?_⟩
  rw [mem_blk8]
  intro a
  match a with
  | ⟨0, _⟩ => show win0_8.index t0_9 (0 : Fin 2) * 1 ≤ (i 0).val ∧ (i 0).val < win0_8.index t0_9 (0 : Fin 2) * 1 + 1; rw [e0]; omega
  | ⟨1, _⟩ => show win0_8.index t0_9 (1 : Fin 2) * 128 ≤ (i 1).val ∧ (i 1).val < win0_8.index t0_9 (1 : Fin 2) * 128 + 128; rw [e1]; omega

/-- The column-sum-of-squares row after the call. -/
theorem out8 (c : Dev nD) (d : Fin 128) :
    (dat0 (F := Ideal) V c).arrAt 8 cfg0.N (ix2 0 d) = ∑ r : Fin 50000, hTab V c r d * hTab V c r d :=
  (congrFun ((dat0 V c).arrAt_eq_of_cover 8 (rowMat fun d => ∑ r : Fin 50000, hTab V c r d * hTab V c r d)
    (flushed8_eq V c) cover8) (ix2 0 d)).trans (rowMat_ix2 _ 0 d)

end Final

end Cert.KernelIdeal.Reg0

end
-- ==== Proof.KReg1.lean ====
/- The normalise-and-rectify call of the first block, read as a value: whatever the buffers hold when the call is
   entered, its result array ends holding, at row n and column d, `max (h n d · scale d + shift d) 0` of the
   table `h` and the two rows it is given. Each grid point handles 5000 consecutive rows; the ten points tile the
   50000 rows, and every point writes its block back. -/
import proofs.«422006_j8718783611640_1_alg».proof.Proof.Gen.KernelIdeal.Frame
import proofs.«422006_j8718783611640_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg1

open Cert.KernelIdeal Cert.KernelIdeal.Gen

variable (V : (c : Dev nD) → (b : Ref sig .tc) → Buf (Elt Ideal) ((c : Thread nD τ).loc b))

/-- The table the call normalises, as the call finds it. -/
abbrev hArr (c : Dev nD) : Vec Ideal S50000x128 .f32 := V c main_v16_0
/-- The scale row, as the call finds it. -/
abbrev scArr (c : Dev nD) : Vec Ideal S1x128 .f32 := V c main_v27
/-- The shift row, as the call finds it. -/
abbrev shArr (c : Dev nD) : Vec Ideal S1x128 .f32 := V c main_v30

/-- The call's result as a table. -/
def outTab (c : Dev nD) : Cert.Gin.Tab 50000 128 :=
  fun n d => max (hArr V c (ix2 n d) * scArr V c (ix2 0 d) + shArr V c (ix2 0 d)) 0

/-! ## One point's arithmetic, entry by entry -/

/-- The two zero offsets, as the constant function. -/
theorem hz : (![0, 0] : Fin 2 → Nat) = fun _ => 0 := funext fun a => by fin_cases a <;> rfl

/-- What a point computes from a block of 5000 rows and the two rows: at row r and column d, the block's entry
    times the scale at d, plus the shift at d, cut below at zero. -/
theorem pay_apply (x0 : Vec Ideal S5000x128 .f32) (x1 x2 : Vec Ideal S1x128 .f32) (r : Fin 5000) (d : Fin 128) :
    k1_pay1 (F := Ideal) x0 x1 x2 (ix2 r d) = max (x0 (ix2 r d) * x1 (ix2 0 d) + x2 (ix2 0 d)) 0 := by
  unfold k1_pay1
  simp only [shapeCast_self]
  show max (x0 (ix2 r d) * broadcastTo S5000x128 x1 broadcasts_S1x128_S5000x128 (ix2 r d)
      + broadcastTo S5000x128 x2 broadcasts_S1x128_S5000x128 (ix2 r d)) (Ideal.ofBits .f32 0x00000000#32) = _
  rw [broadcastTo_1b_ab_apply x1 broadcasts_S1x128_S5000x128 r d, broadcastTo_1b_ab_apply x2 broadcasts_S1x128_S5000x128 r d,
    Ideal.ofBits_zero_f32]

/-! ## The blocks a point reads, as parts of the arrays -/

/-- The ten points. -/
theorem hN : cfg1.N = 10 := N_1

/-- Where each window's block sits at point t: the table's and the result's blocks at block row t, the two rows
    whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The table's block at a point. -/
abbrev hBlk (c : Dev nD) (t : Fin cfg1.N) : Vec Ideal S5000x128 .f32 := iblk1 (F := Ideal) V c 0 t
/-- The scale row's block at a point. -/
abbrev scBlk (c : Dev nD) (t : Fin cfg1.N) : Vec Ideal S1x128 .f32 := iblk1 (F := Ideal) V c 1 t
/-- The shift row's block at a point. -/
abbrev shBlk (c : Dev nD) (t : Fin cfg1.N) : Vec Ideal S1x128 .f32 := iblk1 (F := Ideal) V c 2 t

/-- Row r of the table's block at point t is row 5000 · t + r of the table. -/
theorem hBlk_apply (c : Dev nD) (t : Fin cfg1.N) (r : Fin 5000) (d : Fin 128) (hlt : 5000 * t.val + r.val < 50000) :
    hBlk V c t (ix2 r d) = hArr V c (ix2 ⟨5000 * t.val + r.val, hlt⟩ d) := by
  obtain ⟨e0, e1, -⟩ := idx_facts t
  show hArr V c (((cfg1.win 0).blk t).view.emb (ix2 r d)) = hArr V c (ix2 ⟨5000 * t.val + r.val, hlt⟩ d)
  refine congrArg (hArr V c) ?_
  funext a; apply Fin.ext
  match a with
  | ⟨0, _⟩ => show win1_0.index t (0 : Fin 2) * 5000 + 1 * r.val = 5000 * t.val + r.val; omega
  | ⟨1, _⟩ => show win1_0.index t (1 : Fin 2) * 128 + 1 * d.val = d.val; omega

/-- The scale row's block is the scale row. -/
theorem scBlk_apply (c : Dev nD) (t : Fin cfg1.N) (d : Fin 128) : scBlk V c t (ix2 0 d) = scArr V c (ix2 0 d) := by
  obtain ⟨-, -, e0, e1, -⟩ := idx_facts t
  show scArr V c (((cfg1.win 1).blk t).view.emb (ix2 0 d)) = scArr V c (ix2 0 d)
  refine congrArg (scArr V c) ?_
  funext a; apply Fin.ext
  match a with
  | ⟨0, _⟩ => show win1_1.index t (0 : Fin 2) * 1 + 1 * 0 = 0; omega
  | ⟨1, _⟩ => show win1_1.index t (1 : Fin 2) * 128 + 1 * d.val = d.val; omega

/-- The shift row's block is the shift row. -/
theorem shBlk_apply (c : Dev nD) (t : Fin cfg1.N) (d : Fin 128) : shBlk V c t (ix2 0 d) = shArr V c (ix2 0 d) := by
  obtain ⟨-, -, -, -, e0, e1, -⟩ := idx_facts t
  show shArr V c (((cfg1.win 2).blk t).view.emb (ix2 0 d)) = shArr V c (ix2 0 d)
  refine congrArg (shArr V c) ?_
  funext a; apply Fin.ext
  match a with
  | ⟨0, _⟩ => show win1_2.index t (0 : Fin 2) * 1 + 1 * 0 = 0; omega
  | ⟨1, _⟩ => show win1_2.index t (1 : Fin 2) * 128 + 1 * d.val = d.val; omega

/-! ## What a point writes back, and the whole array -/

/-- Point t writes back rows 5000 · t … 5000 · t + 4999 of the result table. -/
theorem flushed3_eq (c : Dev nD) (t : Fin cfg1.N) :
    (dat1 (F := Ideal) V c).flushed 3 t = ((cfg1.win 3).blk t).view.read (Elt Ideal) (Cert.Gin.toMat (outTab V c)) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S1x128) hz]
  have ht : t.val < 10 := hN ▸ t.isLt
  obtain ⟨-, -, -, -, -, -, e0, e1⟩ := idx_facts t
  funext j
  obtain ⟨r, d, rfl⟩ : ∃ (r : Fin 5000) (d : Fin 128), j = ix2 r d := ⟨j 0, j 1, eq_ix2 j⟩
  have hlt : 5000 * t.val + r.val < 50000 := by have := r.isLt; omega
  have hemb : ((cfg1.win 3).blk t).view.emb (ix2 r d) = ix2 ⟨5000 * t.val + r.val, hlt⟩ d := by
    funext a; apply Fin.ext
    match a with
    | ⟨0, _⟩ => show win1_3.index t (0 : Fin 2) * 5000 + 1 * r.val = 5000 * t.val + r.val; omega
    | ⟨1, _⟩ => show win1_3.index t (1 : Fin 2) * 128 + 1 * d.val = d.val; omega
  show k1_pay1 (F := Ideal) (hBlk V c t) (scBlk V c t) (shBlk V c t) (ix2 r d)
    = Cert.Gin.toMat (outTab V c) (((cfg1.win 3).blk t).view.emb (ix2 r d))
  rw [hemb, pay_apply (hBlk V c t) (scBlk V c t) (shBlk V c t) r d, hBlk_apply V c t r d hlt, scBlk_apply V c t d,
    shBlk_apply V c t d]
  rfl

/-- An index of the result array is in point t's block when its row is among that point's 5000. -/
theorem mem_blk3 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v31).slice (win1_3.rect t)).set ↔ _
  rw [View.set_slice_whole, Rect.mem_set_unit]
  exact Iff.rfl

/-- Every row belongs to the point numbered by its quotient by 5000, and every point writes back. -/
theorem cover3 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hq : (i 0).val / 5000 < cfg1.N := by rw [hN]; omega
  refine ⟨⟨(i 0).val / 5000, hq⟩, flush1_3 _, ?_⟩
  obtain ⟨-, -, -, -, -, -, e0, e1⟩ := idx_facts ⟨(i 0).val / 5000, hq⟩
  rw [mem_blk3]
  intro a
  match a with
  | ⟨0, _⟩ =>
    show win1_3.index ⟨(i 0).val / 5000, hq⟩ (0 : Fin 2) * 5000 ≤ (i 0).val
      ∧ (i 0).val < win1_3.index ⟨(i 0).val / 5000, hq⟩ (0 : Fin 2) * 5000 + 5000
    rw [e0]; dsimp only; omega
  | ⟨1, _⟩ =>
    show win1_3.index ⟨(i 0).val / 5000, hq⟩ (1 : Fin 2) * 128 ≤ (i 1).val
      ∧ (i 1).val < win1_3.index ⟨(i 0).val / 5000, hq⟩ (1 : Fin 2) * 128 + 128
    rw [e1]; omega

/-- The result array after the call. -/
theorem out3 (c : Dev nD) : (dat1 (F := Ideal) V c).arrAt 3 cfg1.N = Cert.Gin.toMat (outTab V c) :=
  (dat1 (F := Ideal) V c).arrAt_eq_of_cover 3 (Cert.Gin.toMat (outTab V c)) (fun t _ => flushed3_eq V c t) cover3

end Cert.KernelIdeal.Reg1

end
-- ==== Proof.KReg2.lean ====
/- The perceptron-and-statistics call of the second block, read as values: whatever the buffers hold when the call is
   entered, its three result arrays end holding the perceptron of (neighbour sums + self) row by row, that table's
   column sums, and the column sums of its squares. Each of the ten grid points handles 5000 consecutive rows and
   writes its block of the table back; the two statistics rows stay in place across the points — reset before the
   first point's contribution, each point adding its block's column sums — and are written back after the last. -/
import proofs.«422006_j8718783611640_1_alg».proof.Proof.Gen.KernelIdeal.Frame
import proofs.«422006_j8718783611640_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«422006_j8718783611640_1_alg».proof.Proof.LibDotPlain
import Mathlib.Algebra.BigOperators.Fin
import Mathlib.Logic.Equiv.Fin.Basic
import Mathlib.Tactic.NormNum

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg2

open Cert.KernelIdeal Cert.KernelIdeal.Gen

/-! ## Ten blocks of 5000 rows are the 50000 rows -/

/-- The sum over all rows is the sum over the ten blocks of the sums inside each block: row `5000·t + r` is row `r`
    of block `t`. Addition of extended reals is commutative and associative, so no finiteness is asked. -/
theorem sum_rows_eq_sum_blocks {M : Type*} [AddCommMonoid M] (f : Fin 50000 → M) :
    ∑ r : Fin 50000, f r
      = ∑ t : Fin 10, ∑ r : Fin 5000, f ⟨5000 * t.val + r.val, by have := t.isLt; have := r.isLt; omega⟩ := by
  let e : Fin 10 × Fin 5000 ≃ Fin 50000 := finProdFinEquiv.trans (finCongr (by norm_num))
  rw [← Equiv.sum_comp e f, Fintype.sum_prod_type]
  refine Finset.sum_congr rfl fun t _ => Finset.sum_congr rfl fun r _ => ?_
  congr 1
  apply Fin.ext
  show r.val + 5000 * t.val = 5000 * t.val + r.val
  omega

/-- Block `i`'s share of a sum over the rows: the sum over its 5000 rows (nothing past the tenth block). -/
def blockPart {M : Type*} [AddCommMonoid M] (f : Fin 50000 → M) (i : ℕ) : M :=
  if h : i < 10 then ∑ r : Fin 5000, f ⟨5000 * i + r.val, by have := r.isLt; omega⟩ else 0

theorem blockPart_of_lt {M : Type*} [AddCommMonoid M] (f : Fin 50000 → M) (i : ℕ) (h : i < 10) :
    blockPart f i = ∑ r : Fin 5000, f ⟨5000 * i + r.val, by have := r.isLt; omega⟩ := dif_pos h

/-- The ten shares add up to the whole sum. -/
theorem sum_blockPart {M : Type*} [AddCommMonoid M] (f : Fin 50000 → M) :
    ∑ i ∈ Finset.range 10, blockPart f i = ∑ r : Fin 50000, f r := by
  rw [Finset.sum_range, sum_rows_eq_sum_blocks]
  exact Finset.sum_congr rfl fun t _ => blockPart_of_lt f t.val t.isLt

section Pieces

variable {F : FTy → Type} [FloatOps F]

/-- The all-zero offsets, as the stores and loads of whole blocks spell them. -/
theorem hz : (![0, 0] : Fin 2 → Nat) = fun _ => 0 := funext fun a => by fin_cases a <;> rfl

/-! ## What one grid point leaves in the three result blocks

At the first point the two statistics rows are zeroed before they are read; at the later points they hold what the
point before left. In both cases the table block is the perceptron of the loaded blocks, the first row is what it held
plus the block's column sums, the second what it held plus the column sums of the squares. -/

/-- First point: the table block. -/
theorem piece_A_6 (c : Dev nD) (i : grid2.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S5000x128 .f32) (h7 : a7.IsWhole) (a8 : Memref sig .tc .vmem S1x128 .f32) (h8 : a8.IsWhole)
    (a9 : Memref sig .tc .vmem S1x128 .f32) (h9 : a9.IsWhole) (hc : cond2_0 i)
    (x0 x1 : Vec F S5000x128 .f32) (x2 : Vec F S128x128 .f32) (x3 : Vec F S1x128 .f32) (x4 : Vec F S128x128 .f32) (x5 : Vec F S1x128 .f32) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz]

/-- First point: the column-sum row, the zero row read back and the block's column sums added. -/
theorem piece_A_7 (c : Dev nD) (i : grid2.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S5000x128 .f32) (h7 : a7.IsWhole) (a8 : Memref sig .tc .vmem S1x128 .f32) (h8 : a8.IsWhole)
    (a9 : Memref sig .tc .vmem S1x128 .f32) (h9 : a9.IsWhole) (hc : cond2_0 i)
    (x0 x1 : Vec F S5000x128 .f32) (x2 : Vec F S128x128 .f32) (x3 : Vec F S1x128 .f32) (x4 : Vec F S128x128 .f32) (x5 : Vec F S1x128 .f32) :
    out2_A_7 c i a1 h1 a2 h2 a3 h3 a4 h4 a5 h5 a6 h6 a7 h7 a8 h8 a9 h9 hc x0 x1 x2 x3 x4 x5 = k2_pay5 x0 x1 x2 x3 x4 x5 (k2_pay2 (F := F)) := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz, View.readCov_unit_zero (S := S1x128) _ hz]

/-- First point: the row of column sums of squares, the zero row read back and the block's added. -/
theorem piece_A_8 (c : Dev nD) (i : grid2.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S5000x128 .f32) (h7 : a7.IsWhole) (a8 : Memref sig .tc .vmem S1x128 .f32) (h8 : a8.IsWhole)
    (a9 : Memref sig .tc .vmem S1x128 .f32) (h9 : a9.IsWhole) (hc : cond2_0 i)
    (x0 x1 : Vec F S5000x128 .f32) (x2 : Vec F S128x128 .f32) (x3 : Vec F S1x128 .f32) (x4 : Vec F S128x128 .f32) (x5 : Vec F S1x128 .f32) :
    out2_A_8 c i a1 h1 a2 h2 a3 h3 a4 h4 a5 h5 a6 h6 a7 h7 a8 h8 a9 h9 hc x0 x1 x2 x3 x4 x5 = k2_pay1 (k2_pay4 x0 x1 x2 x3 x4 x5) (k2_pay3 (F := F)) := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz, View.readCov_unit_zero (S := S1x128) _ hz]

/-- A later point: the table block. -/
theorem piece_B_6 (c : Dev nD) (i : grid2.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S5000x128 .f32) (h7 : a7.IsWhole) (a8 : Memref sig .tc .vmem S1x128 .f32) (h8 : a8.IsWhole)
    (a9 : Memref sig .tc .vmem S1x128 .f32) (h9 : a9.IsWhole) (hc : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz, h8.read_unread, h9.read_unread]

/-- A later point: the column-sum row, what it held plus the block's column sums. -/
theorem piece_B_7 (c : Dev nD) (i : grid2.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S5000x128 .f32) (h7 : a7.IsWhole) (a8 : Memref sig .tc .vmem S1x128 .f32) (h8 : a8.IsWhole)
    (a9 : Memref sig .tc .vmem S1x128 .f32) (h9 : a9.IsWhole) (hc : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz, h8.read_unread, h9.read_unread]

/-- A later point: the row of column sums of squares, what it held plus the block's. -/
theorem piece_B_8 (c : Dev nD) (i : grid2.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S1x128 .f32) (h4 : a4.IsWhole)
    (a5 : Memref sig .tc .vmem S128x128 .f32) (h5 : a5.IsWhole) (a6 : Memref sig .tc .vmem S1x128 .f32) (h6 : a6.IsWhole)
    (a7 : Memref sig .tc .vmem S5000x128 .f32) (h7 : a7.IsWhole) (a8 : Memref sig .tc .vmem S1x128 .f32) (h8 : a8.IsWhole)
    (a9 : Memref sig .tc .vmem S1x128 .f32) (h9 : a9.IsWhole) (hc : ¬cond2_0 i)
    (x0 x1 : Vec F S5000x128 .f32) (x2 : Vec F S128x128 .f32) (x3 : Vec F S1x128 .f32) (x4 : Vec F S128x128 .f32) (x5 : Vec F S1x128 .f32) (xo7 xo8 : Vec F S1x128 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S128x128) hz, View.ld_unit_zero (S := S1x128) hz, h8.read_unread, h9.read_unread]

end Pieces

/-! ## The block's arithmetic, by coordinates

With every value an extended real the casts to the narrow format are the identity, the product into a zero
accumulator is the plain sum of products, and the reduction over the rows is the plain sum. -/

/-- The hidden layer at row `r` of a block, unit `k`: the first affine layer of (neighbour sums + self), rectified. -/
def hid (x0 x1 : FVec Ideal S5000x128 .f32) (x2 : FVec Ideal S128x128 .f32) (x3 : FVec Ideal S1x128 .f32) (r : Fin 5000) (k : Fin 128) : EReal :=
  max ((∑ j : Fin 128, (x0 (ix2 r j) + x1 (ix2 r j)) * x2 (ix2 j k)) + x3 (ix2 0 k)) 0

/-- The perceptron's output at row `r` of a block, column `d`: the second affine layer of the hidden layer. -/
def hOf (x0 x1 : FVec Ideal S5000x128 .f32) (x2 : FVec Ideal S128x128 .f32) (x3 : FVec Ideal S1x128 .f32) (x4 : FVec Ideal S128x128 .f32) (x5 : FVec Ideal S1x128 .f32) (r : Fin 5000) (d : Fin 128) : EReal :=
  (∑ k : Fin 128, hid x0 x1 x2 x3 r k * x4 (ix2 k d)) + x5 (ix2 0 d)

/-- The stored table block, entry by entry. -/
theorem pay4_apply (x0 x1 : FVec Ideal S5000x128 .f32) (x2 : FVec Ideal S128x128 .f32) (x3 : FVec Ideal S1x128 .f32) (x4 : FVec Ideal S128x128 .f32) (x5 : FVec Ideal S1x128 .f32) (r : Fin 5000) (d : Fin 128) :
    k2_pay4 (F := Ideal) x0 x1 x2 x3 x4 x5 (ix2 r d) = hOf x0 x1 x2 x3 x4 x5 r d := by
  unfold k2_pay4 hOf
  simp only [shapeCast_self]
  rw [addf_apply, broadcastTo_1b_ab_apply]
  congr 1
  refine (Cert.DotPlain.matmul_zero_rows_cols dot_S5000x128_S128x128_S5000x128_1_0_0_1_n_n rfl rfl rfl rfl rfl rfl none _ _ r d).trans ?_
  refine Finset.sum_congr rfl fun k _ => ?_
  rw [truncf_apply, truncf_apply, maximumf_apply, addf_apply, broadcastTo_1b_ab_apply, broadcast_apply]
  unfold hid
  refine congrArg₂ (· * ·) (congrArg₂ max (congrArg₂ (· + ·) ?_ rfl) Ideal.ofBits_zero_f32) rfl
  refine (Cert.DotPlain.matmul_zero_rows_cols dot_S5000x128_S128x128_S5000x128_1_0_0_1_n_n rfl rfl rfl rfl rfl rfl none _ _ r k).trans ?_
  refine Finset.sum_congr rfl fun j _ => ?_
  rw [truncf_apply, truncf_apply, addf_apply]

/-- Inserting row `r` above column `d` gives the entry `(r, d)`. -/
theorem lift_row (d : Fin 128) (r : Fin 5000) : reduces_S5000x128_S128.lift (ix1 d) r = ix2 r d := by
  funext a
  match a with
  | ⟨0, _⟩ => rfl
  | ⟨1, _⟩ => rfl

/-- The stored column-sum row: what the row held plus the block's column sums. -/
theorem pay5_apply (x0 x1 : FVec Ideal S5000x128 .f32) (x2 : FVec Ideal S128x128 .f32) (x3 : FVec Ideal S1x128 .f32) (x4 : FVec Ideal S128x128 .f32) (x5 : FVec Ideal S1x128 .f32) (v : FVec Ideal S1x128 .f32) (d : Fin 128) :
    k2_pay5 (F := Ideal) x0 x1 x2 x3 x4 x5 v (ix2 0 d) = v (ix2 0 d) + ∑ r : Fin 5000, hOf x0 x1 x2 x3 x4 x5 r d := by
  unfold k2_pay5
  simp only [shapeCast_self]
  rw [addf_apply, shapeCast_a_1a_apply]
  congr 1
  refine (Ideal.multiReduction_add_single (k2_pay4 (F := Ideal) x0 x1 x2 x3 x4 x5) 0x00000000#32 reduces_S5000x128_S128 (.inl rfl) rfl (ix1 d)).trans ?_
  refine Finset.sum_congr rfl fun r _ => ?_
  exact (congrArg (k2_pay4 (F := Ideal) x0 x1 x2 x3 x4 x5) (lift_row d r)).trans (pay4_apply x0 x1 x2 x3 x4 x5 r d)

/-- The stored row of column sums of squares: what the row held plus the block's. -/
theorem pay1_apply (h : FVec Ideal S5000x128 .f32) (v : FVec Ideal S1x128 .f32) (d : Fin 128) :
    k2_pay1 (F := Ideal) h v (ix2 0 d) = v (ix2 0 d) + ∑ r : Fin 5000, h (ix2 r d) * h (ix2 r d) := by
  unfold k2_pay1
  simp only [shapeCast_self]
  rw [addf_apply, shapeCast_a_1a_apply]
  congr 1
  refine (Ideal.multiReduction_add_single (mulf h h) 0x00000000#32 reduces_S5000x128_S128 (.inl rfl) rfl (ix1 d)).trans ?_
  refine Finset.sum_congr rfl fun r _ => ?_
  exact (congrArg (mulf h h) (lift_row d r)).trans (mulf_apply h h (ix2 r d))

/-- The first reset row is zero. -/
theorem pay2_apply (d : Fin 128) : k2_pay2 (F := Ideal) (ix2 0 d) = 0 := by
  unfold k2_pay2
  rw [broadcast_apply]
  exact Ideal.ofBits_zero_f32

/-- The second reset row is zero. -/
theorem pay3_apply (d : Fin 128) : k2_pay3 (F := Ideal) (ix2 0 d) = 0 := by
  unfold k2_pay3
  rw [broadcast_apply]
  exact Ideal.ofBits_zero_f32

variable (V : (c : Dev nD) → (b : Ref sig .tc) → Buf (Elt Ideal) ((c : Thread nD τ).loc b))

/-- The neighbour sums, as the call finds them. -/
abbrev aggArr (c : Dev nD) : Vec Ideal S50000x128 .f32 := V c main_v41
/-- The first block's normalised table (this block's self term), as the call finds it. -/
abbrev featArr (c : Dev nD) : Vec Ideal S50000x128 .f32 := V c main_v31
/-- The first layer's weights. -/
abbrev waArr (c : Dev nD) : Vec Ideal S128x128 .f32 := V c main_arg9
/-- The first layer's bias, as a one-row array. -/
abbrev baArr (c : Dev nD) : Vec Ideal S1x128 .f32 := V c main_v42
/-- The second layer's weights. -/
abbrev wbArr (c : Dev nD) : Vec Ideal S128x128 .f32 := V c main_arg11
/-- The second layer's bias, as a one-row array. -/
abbrev bbArr (c : Dev nD) : Vec Ideal S1x128 .f32 := V c main_v43

/-- The perceptron's table: of neighbour sums plus self, row by row. -/
def hTab (c : Dev nD) : Cert.Gin.Tab 50000 128 :=
  Cert.Gin.mlp (Cert.Gin.tadd (Cert.Gin.ofMat (aggArr V c)) (Cert.Gin.ofMat (featArr V c))) (Cert.Gin.ofMat (waArr V c))
    (fun k => baArr V c (ix2 0 k)) (Cert.Gin.ofMat (wbArr V c)) (fun k => bbArr V c (ix2 0 k))

/-! ## The blocks a grid point loads

Point `t` loads rows `5000·t … 5000·t + 4999` of the two tables, and the weights and biases whole. -/

/-- There are ten grid points. -/
theorem lt_ten (t : Fin cfg2.N) : t.val < 10 := lt_of_lt_of_eq t.isLt (show cfg2.N = 10 from N_2)

/-- Row `r` of point `t`'s block, as a row of the whole table. -/
def rowOf (t : Fin cfg2.N) (r : Fin 5000) : Fin 50000 :=
  ⟨5000 * t.val + r.val, by have := lt_ten t; have := r.isLt; omega⟩

/-- The neighbour-sum rows point `t` loads. -/
abbrev aggBlk (c : Dev nD) (t : Fin cfg2.N) : FVec Ideal S5000x128 .f32 := iblk2 V c 0 t
/-- The self-term rows point `t` loads. -/
abbrev featBlk (c : Dev nD) (t : Fin cfg2.N) : FVec Ideal S5000x128 .f32 := iblk2 V c 1 t
/-- The first layer's weights as point `t` loads them. -/
abbrev waBlk (c : Dev nD) (t : Fin cfg2.N) : FVec Ideal S128x128 .f32 := iblk2 V c 2 t
/-- The first layer's bias row as point `t` loads it. -/
abbrev baBlk (c : Dev nD) (t : Fin cfg2.N) : FVec Ideal S1x128 .f32 := iblk2 V c 3 t
/-- The second layer's weights as point `t` loads them. -/
abbrev wbBlk (c : Dev nD) (t : Fin cfg2.N) : FVec Ideal S128x128 .f32 := iblk2 V c 4 t
/-- The second layer's bias row as point `t` loads it. -/
abbrev bbBlk (c : Dev nD) (t : Fin cfg2.N) : FVec Ideal S1x128 .f32 := iblk2 V c 5 t

/-- The windows' block indices at every point, decided over the grid: the two tables' and the result table's row block
    is the point's number, every other index is zero. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

theorem aggBlk_apply (c : Dev nD) (t : Fin cfg2.N) (r : Fin 5000) (d : Fin 128) :
    aggBlk V c t (ix2 r d) = aggArr V c (ix2 (rowOf t r) d) := by
  obtain ⟨⟨e0, e1⟩, -⟩ := idx_facts t
  unfold aggBlk iblk2
  rw [View.read_apply]
  show V c main_v41 _ = V c main_v41 _
  congr 1
  funext a
  apply Fin.ext
  match a with
  | ⟨0, _⟩ => show win2_0.index t (0 : Fin 2) * 5000 + 1 * r.val = 5000 * t.val + r.val; rw [e0]; omega
  | ⟨1, _⟩ => show win2_0.index t (1 : Fin 2) * 128 + 1 * d.val = d.val; rw [e1]; omega

theorem featBlk_apply (c : Dev nD) (t : Fin cfg2.N) (r : Fin 5000) (d : Fin 128) :
    featBlk V c t (ix2 r d) = featArr V c (ix2 (rowOf t r) d) := by
  obtain ⟨-, ⟨e0, e1⟩, -⟩ := idx_facts t
  unfold featBlk iblk2
  rw [View.read_apply]
  show V c main_v31 _ = V c main_v31 _
  congr 1
  funext a
  apply Fin.ext
  match a with
  | ⟨0, _⟩ => show win2_1.index t (0 : Fin 2) * 5000 + 1 * r.val = 5000 * t.val + r.val; rw [e0]; omega
  | ⟨1, _⟩ => show win2_1.index t (1 : Fin 2) * 128 + 1 * d.val = d.val; rw [e1]; omega

theorem waBlk_apply (c : Dev nD) (t : Fin cfg2.N) (a b : Fin 128) :
    waBlk V c t (ix2 a b) = waArr V c (ix2 a b) := by
  obtain ⟨-, -, ⟨e0, e1⟩, -⟩ := idx_facts t
  unfold waBlk iblk2
  rw [View.read_apply]
  show V c main_arg9 _ = V c main_arg9 _
  congr 1
  funext ax
  apply Fin.ext
  match ax with
  | ⟨0, _⟩ => show win2_2.index t (0 : Fin 2) * 128 + 1 * a.val = a.val; rw [e0]; omega
  | ⟨1, _⟩ => show win2_2.index t (1 : Fin 2) * 128 + 1 * b.val = b.val; rw [e1]; omega

theorem baBlk_apply (c : Dev nD) (t : Fin cfg2.N) (b : Fin 128) :
    baBlk V c t (ix2 0 b) = baArr V c (ix2 0 b) := by
  obtain ⟨-, -, -, ⟨e0, e1⟩, -⟩ := idx_facts t
  unfold baBlk iblk2
  rw [View.read_apply]
  show V c main_v42 _ = V c main_v42 _
  congr 1
  funext ax
  apply Fin.ext
  match ax with
  | ⟨0, _⟩ => show win2_3.index t (0 : Fin 2) * 1 + 1 * 0 = 0; rw [e0]
  | ⟨1, _⟩ => show win2_3.index t (1 : Fin 2) * 128 + 1 * b.val = b.val; rw [e1]; omega

theorem wbBlk_apply (c : Dev nD) (t : Fin cfg2.N) (a b : Fin 128) :
    wbBlk V c t (ix2 a b) = wbArr V c (ix2 a b) := by
  obtain ⟨-, -, -, -, ⟨e0, e1⟩, -⟩ := idx_facts t
  unfold wbBlk iblk2
  rw [View.read_apply]
  show V c main_arg11 _ = V c main_arg11 _
  congr 1
  funext ax
  apply Fin.ext
  match ax with
  | ⟨0, _⟩ => show win2_4.index t (0 : Fin 2) * 128 + 1 * a.val = a.val; rw [e0]; omega
  | ⟨1, _⟩ => show win2_4.index t (1 : Fin 2) * 128 + 1 * b.val = b.val; rw [e1]; omega

theorem bbBlk_apply (c : Dev nD) (t : Fin cfg2.N) (b : Fin 128) :
    bbBlk V c t (ix2 0 b) = bbArr V c (ix2 0 b) := by
  obtain ⟨-, -, -, -, -, ⟨e0, e1⟩, -⟩ := idx_facts t
  unfold bbBlk iblk2
  rw [View.read_apply]
  show V c main_v43 _ = V c main_v43 _
  congr 1
  funext ax
  apply Fin.ext
  match ax with
  | ⟨0, _⟩ => show win2_5.index t (0 : Fin 2) * 1 + 1 * 0 = 0; rw [e0]
  | ⟨1, _⟩ => show win2_5.index t (1 : Fin 2) * 128 + 1 * b.val = b.val; rw [e1]; omega

/-! ## The perceptron of a block is the block of the perceptron's table -/

/-- The perceptron of the rows point `t` loads. -/
def hBlk (c : Dev nD) (t : Fin cfg2.N) (r : Fin 5000) (d : Fin 128) : EReal :=
  hOf (aggBlk V c t) (featBlk V c t) (waBlk V c t) (baBlk V c t) (wbBlk V c t) (bbBlk V c t) r d

/-- Row `r` of point `t`'s perceptron block is row `5000·t + r` of the table: the perceptron works row by row, and
    the weights and biases are the same at every point. -/
theorem hBlk_eq (c : Dev nD) (t : Fin cfg2.N) (r : Fin 5000) (d : Fin 128) :
    hBlk V c t r d = hTab V c (rowOf t r) d := by
  show _ = (∑ k : Fin 128, max ((∑ j : Fin 128, (aggArr V c (ix2 (rowOf t r) j) + featArr V c (ix2 (rowOf t r) j)) * waArr V c (ix2 j k))
      + baArr V c (ix2 0 k)) 0 * wbArr V c (ix2 k d)) + bbArr V c (ix2 0 d)
  unfold hBlk hOf hid
  rw [bbBlk_apply]
  refine congrArg₂ (· + ·) (Finset.sum_congr rfl fun k _ => ?_) rfl
  rw [baBlk_apply, wbBlk_apply]
  refine congrArg₂ (· * ·) (congrArg₂ max (congrArg₂ (· + ·) (Finset.sum_congr rfl fun j _ => ?_) rfl) rfl) rfl
  rw [aggBlk_apply, featBlk_apply, waBlk_apply]

/-! ## What the three result blocks hold after each point

By induction on the point, never by listing the ten: the table block is the perceptron of the point's rows; each
statistics row is the sum of the shares of the blocks handled so far. -/

/-- After point `t` the table block is the perceptron payload of that point's loaded blocks (at the first point and at
    the later ones alike). -/
theorem tab_after (c : Dev nD) (t : Fin cfg2.N) :
    (outsAt2 V c t.val t.isLt).1 = k2_pay4 (F := Ideal) (aggBlk V c t) (featBlk V c t) (waBlk V c t) (baBlk V c t) (wbBlk V c t) (bbBlk V c t) := by
  by_cases h0 : t.val % 10 = 0
  · rw [outsAt2_A V c t h0]
    dsimp only
    exact piece_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0)
      (aggBlk V c t) (featBlk V c t) (waBlk V c t) (baBlk V c t) (wbBlk V c t) (bbBlk V c t)
  · rw [outsAt2_B V c t h0]
    dsimp only
    exact piece_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h' => h0 ((hcond2_0 t).mp h'))
      (aggBlk V c t) (featBlk V c t) (waBlk V c t) (baBlk V c t) (wbBlk V c t) (bbBlk V c t)
      (outsAt2 V c (t.val - 1) (Nat.lt_of_le_of_lt (Nat.sub_le _ _) t.isLt)).2.1 (outsAt2 V c (t.val - 1) (Nat.lt_of_le_of_lt (Nat.sub_le _ _) t.isLt)).2.2

/-- After point `n` the column-sum row holds, at column `d`, the shares of blocks `0 … n`. -/
theorem sum_after (c : Dev nD) (d : Fin 128) : ∀ (n : ℕ) (h : n < cfg2.N),
    (outsAt2 V c n h).2.1 (ix2 0 d) = ∑ i ∈ Finset.range (n + 1), blockPart (fun R => hTab V c R d) i
  | 0, h => by
    rw [outsAt2_A V c ⟨0, h⟩ rfl]
    dsimp only
    refine (congrFun (piece_A_7 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) ((hcond2_0 ⟨0, h⟩).mpr rfl)
      (aggBlk V c ⟨0, h⟩) (featBlk V c ⟨0, h⟩) (waBlk V c ⟨0, h⟩) (baBlk V c ⟨0, h⟩) (wbBlk V c ⟨0, h⟩) (bbBlk V c ⟨0, h⟩)) (ix2 0 d)).trans ?_
    refine (pay5_apply (aggBlk V c ⟨0, h⟩) (featBlk V c ⟨0, h⟩) (waBlk V c ⟨0, h⟩) (baBlk V c ⟨0, h⟩) (wbBlk V c ⟨0, h⟩) (bbBlk V c ⟨0, h⟩) (k2_pay2 (F := Ideal)) d).trans ?_
    rw [pay2_apply, zero_add, Finset.sum_range_one, blockPart_of_lt _ 0 (by norm_num)]
    exact Finset.sum_congr rfl fun r _ => hBlk_eq V c ⟨0, h⟩ r d
  | n + 1, h => by
    have hN : cfg2.N = 10 := N_2
    have hB : ¬(n + 1) % 10 = 0 := by omega
    rw [outsAt2_B V c ⟨n + 1, h⟩ hB]
    dsimp only
    refine (congrFun (piece_B_7 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) (fun h' => hB ((hcond2_0 ⟨n + 1, h⟩).mp h'))
      (aggBlk V c ⟨n + 1, h⟩) (featBlk V c ⟨n + 1, h⟩) (waBlk V c ⟨n + 1, h⟩) (baBlk V c ⟨n + 1, h⟩) (wbBlk V c ⟨n + 1, h⟩) (bbBlk V c ⟨n + 1, h⟩)
      (outsAt2 V c (n + 1 - 1) (Nat.lt_of_le_of_lt (Nat.sub_le _ _) h)).2.1 (outsAt2 V c (n + 1 - 1) (Nat.lt_of_le_of_lt (Nat.sub_le _ _) h)).2.2) (ix2 0 d)).trans ?_
    refine (pay5_apply (aggBlk V c ⟨n + 1, h⟩) (featBlk V c ⟨n + 1, h⟩) (waBlk V c ⟨n + 1, h⟩) (baBlk V c ⟨n + 1, h⟩) (wbBlk V c ⟨n + 1, h⟩) (bbBlk V c ⟨n + 1, h⟩)
      (outsAt2 V c (n + 1 - 1) (Nat.lt_of_le_of_lt (Nat.sub_le _ _) h)).2.1 d).trans ?_
    rw [Finset.sum_range_succ _ (n + 1), blockPart_of_lt _ (n + 1) (by omega)]
    refine congrArg₂ (· + ·) (sum_after c d n (Nat.lt_of_succ_lt h)) ?_
    exact Finset.sum_congr rfl fun r _ => hBlk_eq V c ⟨n + 1, h⟩ r d

/-- After point `n` the second statistics row holds, at column `d`, the shares of blocks `0 … n` of the squares. -/
theorem sq_after (c : Dev nD) (d : Fin 128) : ∀ (n : ℕ) (h : n < cfg2.N),
    (outsAt2 V c n h).2.2 (ix2 0 d) = ∑ i ∈ Finset.range (n + 1), blockPart (fun R => hTab V c R d * hTab V c R d) i
  | 0, h => by
    rw [outsAt2_A V c ⟨0, h⟩ rfl]
    dsimp only
    refine (congrFun (piece_A_8 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) ((hcond2_0 ⟨0, h⟩).mpr rfl)
      (aggBlk V c ⟨0, h⟩) (featBlk V c ⟨0, h⟩) (waBlk V c ⟨0, h⟩) (baBlk V c ⟨0, h⟩) (wbBlk V c ⟨0, h⟩) (bbBlk V c ⟨0, h⟩)) (ix2 0 d)).trans ?_
    refine (pay1_apply (k2_pay4 (F := Ideal) (aggBlk V c ⟨0, h⟩) (featBlk V c ⟨0, h⟩) (waBlk V c ⟨0, h⟩) (baBlk V c ⟨0, h⟩) (wbBlk V c ⟨0, h⟩) (bbBlk V c ⟨0, h⟩)) (k2_pay3 (F := Ideal)) d).trans ?_
    rw [pay3_apply, zero_add, Finset.sum_range_one, blockPart_of_lt _ 0 (by norm_num)]
    refine Finset.sum_congr rfl fun r _ => ?_
    have e := (pay4_apply (aggBlk V c ⟨0, h⟩) (featBlk V c ⟨0, h⟩) (waBlk V c ⟨0, h⟩) (baBlk V c ⟨0, h⟩) (wbBlk V c ⟨0, h⟩) (bbBlk V c ⟨0, h⟩) r d).trans (hBlk_eq V c ⟨0, h⟩ r d)
    exact congrArg₂ (· * ·) e e
  | n + 1, h => by
    have hN : cfg2.N = 10 := N_2
    have hB : ¬(n + 1) % 10 = 0 := by omega
    rw [outsAt2_B V c ⟨n + 1, h⟩ hB]
    dsimp only
    refine (congrFun (piece_B_8 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) (fun h' => hB ((hcond2_0 ⟨n + 1, h⟩).mp h'))
      (aggBlk V c ⟨n + 1, h⟩) (featBlk V c ⟨n + 1, h⟩) (waBlk V c ⟨n + 1, h⟩) (baBlk V c ⟨n + 1, h⟩) (wbBlk V c ⟨n + 1, h⟩) (bbBlk V c ⟨n + 1, h⟩)
      (outsAt2 V c (n + 1 - 1) (Nat.lt_of_le_of_lt (Nat.sub_le _ _) h)).2.1 (outsAt2 V c (n + 1 - 1) (Nat.lt_of_le_of_lt (Nat.sub_le _ _) h)).2.2) (ix2 0 d)).trans ?_
    refine (pay1_apply (k2_pay4 (F := Ideal) (aggBlk V c ⟨n + 1, h⟩) (featBlk V c ⟨n + 1, h⟩) (waBlk V c ⟨n + 1, h⟩) (baBlk V c ⟨n + 1, h⟩) (wbBlk V c ⟨n + 1, h⟩) (bbBlk V c ⟨n + 1, h⟩))
      (outsAt2 V c (n + 1 - 1) (Nat.lt_of_le_of_lt (Nat.sub_le _ _) h)).2.2 d).trans ?_
    rw [Finset.sum_range_succ _ (n + 1), blockPart_of_lt _ (n + 1) (by omega)]
    refine congrArg₂ (· + ·) (sq_after c d n (Nat.lt_of_succ_lt h)) ?_
    refine Finset.sum_congr rfl fun r _ => ?_
    have e := (pay4_apply (aggBlk V c ⟨n + 1, h⟩) (featBlk V c ⟨n + 1, h⟩) (waBlk V c ⟨n + 1, h⟩) (baBlk V c ⟨n + 1, h⟩) (wbBlk V c ⟨n + 1, h⟩) (bbBlk V c ⟨n + 1, h⟩) r d).trans (hBlk_eq V c ⟨n + 1, h⟩ r d)
    exact congrArg₂ (· * ·) e e

/-! ## The three arrays after the call

The table array is written back block by block, every point its own 5000 rows, and the ten blocks tile it. Each
statistics row is written back once, after the last point, when it holds all ten shares. -/

/-- Point `t`'s block of any table of 50000 rows is its rows `5000·t … 5000·t + 4999`. -/
theorem read_blk6 (t : Fin cfg2.N) (G : S50000x128.Idx → EReal) (r : Fin 5000) (d : Fin 128) :
    ((cfg2.win 6).blk t).view.read (Elt Ideal) G (ix2 r d) = G (ix2 (rowOf t r) d) := by
  obtain ⟨-, -, -, -, -, -, ⟨e0, e1⟩, -⟩ := idx_facts t
  rw [View.read_apply]
  show G _ = G _
  congr 1
  funext ax
  apply Fin.ext
  match ax with
  | ⟨0, _⟩ => show win2_6.index t (0 : Fin 2) * 5000 + 1 * r.val = 5000 * t.val + r.val; rw [e0]; omega
  | ⟨1, _⟩ => show win2_6.index t (1 : Fin 2) * 128 + 1 * d.val = d.val; rw [e1]; omega

/-- The one block of a statistics row is the row itself. -/
theorem read_blk7 (t : Fin cfg2.N) (G : S1x128.Idx → EReal) (d : Fin 128) :
    ((cfg2.win 7).blk t).view.read (Elt Ideal) G (ix2 (0 : Fin 1) d) = G (ix2 (0 : Fin 1) d) := by
  obtain ⟨-, -, -, -, -, -, -, ⟨e0, e1⟩, -⟩ := idx_facts t
  rw [View.read_apply]
  show G _ = G _
  congr 1
  funext ax
  apply Fin.ext
  match ax with
  | ⟨0, _⟩ => show win2_7.index t (0 : Fin 2) * 1 + 1 * 0 = 0; rw [e0]
  | ⟨1, _⟩ => show win2_7.index t (1 : Fin 2) * 128 + 1 * d.val = d.val; rw [e1]; omega

/-- The same for the second statistics row. -/
theorem read_blk8 (t : Fin cfg2.N) (G : S1x128.Idx → EReal) (d : Fin 128) :
    ((cfg2.win 8).blk t).view.read (Elt Ideal) G (ix2 (0 : Fin 1) d) = G (ix2 (0 : Fin 1) d) := by
  obtain ⟨-, -, -, -, -, -, -, -, ⟨e0, e1⟩⟩ := idx_facts t
  rw [View.read_apply]
  show G _ = G _
  congr 1
  funext ax
  apply Fin.ext
  match ax with
  | ⟨0, _⟩ => show win2_8.index t (0 : Fin 2) * 1 + 1 * 0 = 0; rw [e0]
  | ⟨1, _⟩ => show win2_8.index t (1 : Fin 2) * 128 + 1 * d.val = d.val; rw [e1]; omega

/-- What point `t` writes back to the table array: its 5000 rows of the perceptron's table. -/
theorem tab_flushed (c : Dev nD) (t : Fin cfg2.N) :
    (dat2 V c).flushed 6 t = ((cfg2.win 6).blk t).view.read (Elt Ideal) (Cert.Gin.toMat (hTab V c)) := by
  show (cfg2.win 6).cut (grid2.coords t) ((dat2 V c).after 6 t) = _
  rw [after2_6, tab_after V c t]
  have key : ∀ (r : Fin 5000) (d : Fin 128), k2_pay4 (F := Ideal) (aggBlk V c t) (featBlk V c t) (waBlk V c t) (baBlk V c t) (wbBlk V c t) (bbBlk V c t) (ix2 r d)
      = ((cfg2.win 6).blk t).view.read (Elt Ideal) (Cert.Gin.toMat (hTab V c)) (ix2 r d) := fun r d =>
    ((pay4_apply (aggBlk V c t) (featBlk V c t) (waBlk V c t) (baBlk V c t) (wbBlk V c t) (bbBlk V c t) r d).trans (hBlk_eq V c t r d)).trans
      (read_blk6 t (Cert.Gin.toMat (hTab V c)) r d).symm
  refine funext fun (j : S5000x128.Idx) => ?_
  rw [eq_ix2 j]
  exact key (j 0) (j 1)

/-- Every row of the table array lies in the block of the point its number divided by 5000 names. -/
theorem tab_cover (i : S50000x128.Idx) :
    ∃ t : Fin cfg2.N, (cfg2.win 6).flush t = true ∧ i ∈ ((cfg2.win 6).blk t).view.set := by
  have hN : cfg2.N = 10 := N_2
  have hN' : grid2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by omega⟩, rfl⟩
  obtain ⟨-, -, -, -, -, -, ⟨e0, e1⟩, -⟩ := idx_facts t
  refine ⟨t, flush2_6 t, ?_⟩
  show i ∈ ((View.whole main_v44_0).slice (win2_6.rect t)).set
  rw [View.set_slice_whole, Rect.mem_set_unit]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 128 ≤ (i 1).val ∧ (i 1).val < win2_6.index t (1 : Fin 2) * 128 + 128
    rw [e1]; omega

/-- The row of column sums of the perceptron's table, as a one-row array. -/
def sumRow (c : Dev nD) : S1x128.Idx → EReal := fun j => Cert.Gin.colSum (hTab V c) (j 1)

/-- The row of column sums of squares of the perceptron's table, as a one-row array. -/
def sqRow (c : Dev nD) : S1x128.Idx → EReal := fun j => ∑ R : Fin 50000, hTab V c R (j 1) * hTab V c R (j 1)

/-- The one write-back of the column-sum row, after the last point, writes the column sums: all ten shares. -/
theorem sum_flushed (c : Dev nD) (t : Fin cfg2.N) (hf : (cfg2.win 7).flush t = true) :
    (dat2 V c).flushed 7 t = ((cfg2.win 7).blk t).view.read (Elt Ideal) (sumRow V c) := by
  have h9 : t.val = 9 := by have := (flush2_7 t).mp hf; have := lt_ten t; omega
  show (cfg2.win 7).cut (grid2.coords t) ((dat2 V c).after 7 t) = _
  rw [after2_7]
  have key : ∀ (u : Fin 1) (d : Fin 128), (outsAt2 V c t.val t.isLt).2.1 (ix2 u d)
      = ((cfg2.win 7).blk t).view.read (Elt Ideal) (sumRow V c) (ix2 u d) := by
    intro u d
    obtain rfl : u = 0 := Subsingleton.elim _ _
    refine ((sum_after V c d t.val t.isLt).trans ?_).trans (read_blk7 t (sumRow V c) d).symm
    show ∑ i ∈ Finset.range (t.val + 1), blockPart (fun R => hTab V c R d) i = ∑ R : Fin 50000, hTab V c R d
    rw [h9]
    exact sum_blockPart (fun R => hTab V c R d)
  refine funext fun (j : S1x128.Idx) => ?_
  rw [eq_ix2 j]
  exact key (j 0) (j 1)

/-- The one write-back of the second statistics row writes the column sums of the squares. -/
theorem sq_flushed (c : Dev nD) (t : Fin cfg2.N) (hf : (cfg2.win 8).flush t = true) :
    (dat2 V c).flushed 8 t = ((cfg2.win 8).blk t).view.read (Elt Ideal) (sqRow V c) := by
  have h9 : t.val = 9 := by have := (flush2_8 t).mp hf; have := lt_ten t; omega
  show (cfg2.win 8).cut (grid2.coords t) ((dat2 V c).after 8 t) = _
  rw [after2_8]
  have key : ∀ (u : Fin 1) (d : Fin 128), (outsAt2 V c t.val t.isLt).2.2 (ix2 u d)
      = ((cfg2.win 8).blk t).view.read (Elt Ideal) (sqRow V c) (ix2 u d) := by
    intro u d
    obtain rfl : u = 0 := Subsingleton.elim _ _
    refine ((sq_after V c d t.val t.isLt).trans ?_).trans (read_blk8 t (sqRow V c) d).symm
    show ∑ i ∈ Finset.range (t.val + 1), blockPart (fun R => hTab V c R d * hTab V c R d) i
      = ∑ R : Fin 50000, hTab V c R d * hTab V c R d
    rw [h9]
    exact sum_blockPart (fun R => hTab V c R d * hTab V c R d)
  refine funext fun (j : S1x128.Idx) => ?_
  rw [eq_ix2 j]
  exact key (j 0) (j 1)

/-- The last point's block of a statistics row is the whole row. -/
theorem row_cover7 (i : S1x128.Idx) :
    ∃ t : Fin cfg2.N, (cfg2.win 7).flush t = true ∧ i ∈ ((cfg2.win 7).blk t).view.set := by
  have hN : cfg2.N = 10 := N_2
  have hN' : grid2.N = 10 := N_2
  have hi0 : (i 0).val < 1 := (i 0).isLt
  have hi1 : (i 1).val < 128 := (i 1).isLt
  obtain ⟨t, ht⟩ : ∃ t : Fin cfg2.N, t.val = 9 := ⟨⟨9, by omega⟩, rfl⟩
  obtain ⟨-, -, -, -, -, -, -, ⟨e0, e1⟩, -⟩ := idx_facts t
  refine ⟨t, (flush2_7 t).mpr (by rw [ht]), ?_⟩
  show i ∈ ((View.whole main_v44_1).slice (win2_7.rect t)).set
  rw [View.set_slice_whole, Rect.mem_set_unit]
  intro a
  match a with
  | ⟨0, _⟩ =>
    show win2_7.index t (0 : Fin 2) * 1 ≤ (i 0).val ∧ (i 0).val < win2_7.index t (0 : Fin 2) * 1 + 1
    rw [e0]; omega
  | ⟨1, _⟩ =>
    show win2_7.index t (1 : Fin 2) * 128 ≤ (i 1).val ∧ (i 1).val < win2_7.index t (1 : Fin 2) * 128 + 128
    rw [e1]; omega

/-- The same for the second statistics row. -/
theorem row_cover8 (i : S1x128.Idx) :
    ∃ t : Fin cfg2.N, (cfg2.win 8).flush t = true ∧ i ∈ ((cfg2.win 8).blk t).view.set := by
  have hN : cfg2.N = 10 := N_2
  have hN' : grid2.N = 10 := N_2
  have hi0 : (i 0).val < 1 := (i 0).isLt
  have hi1 : (i 1).val < 128 := (i 1).isLt
  obtain ⟨t, ht⟩ : ∃ t : Fin cfg2.N, t.val = 9 := ⟨⟨9, by omega⟩, rfl⟩
  obtain ⟨-, -, -, -, -, -, -, -, ⟨e0, e1⟩⟩ := idx_facts t
  refine ⟨t, (flush2_8 t).mpr (by rw [ht]), ?_⟩
  show i ∈ ((View.whole main_v44_2).slice (win2_8.rect t)).set
  rw [View.set_slice_whole, Rect.mem_set_unit]
  intro a
  match a with
  | ⟨0, _⟩ =>
    show win2_8.index t (0 : Fin 2) * 1 ≤ (i 0).val ∧ (i 0).val < win2_8.index t (0 : Fin 2) * 1 + 1
    rw [e0]; omega
  | ⟨1, _⟩ =>
    show win2_8.index t (1 : Fin 2) * 128 ≤ (i 1).val ∧ (i 1).val < win2_8.index t (1 : Fin 2) * 128 + 128
    rw [e1]; omega

/-- The table array after the call. -/
theorem out6 (c : Dev nD) : (dat2 (F := Ideal) V c).arrAt 6 cfg2.N = Cert.Gin.toMat (hTab V c) :=
  (dat2 V c).arrAt_eq_of_cover 6 (Cert.Gin.toMat (hTab V c)) (fun t _ => tab_flushed V c t) (fun i => tab_cover i)

/-- The column-sum row after the call. -/
theorem out7 (c : Dev nD) (d : Fin 128) : (dat2 (F := Ideal) V c).arrAt 7 cfg2.N (ix2 0 d) = Cert.Gin.colSum (hTab V c) d :=
  congrFun ((dat2 V c).arrAt_eq_of_cover 7 (sumRow V c) (sum_flushed V c) (fun i => row_cover7 i)) (ix2 0 d)

/-- The column-sum-of-squares row after the call. -/
theorem out8 (c : Dev nD) (d : Fin 128) :
    (dat2 (F := Ideal) V c).arrAt 8 cfg2.N (ix2 0 d) = ∑ r : Fin 50000, hTab V c r d * hTab V c r d :=
  congrFun ((dat2 V c).arrAt_eq_of_cover 8 (sqRow V c) (sq_flushed V c) (fun i => row_cover8 i)) (ix2 0 d)

end Cert.KernelIdeal.Reg2

end
-- ==== Proof.KReg3.lean ====
/- The normalise-and-rectify call of the second block, read as a value: whatever the buffers hold when the call is
   entered, its result array ends holding, at row n and column d, `max (h n d · scale d + shift d) 0` of the
   table `h` and the two rows it is given. Each grid point handles 5000 consecutive rows; the ten points tile the
   50000 rows, and every point writes its block back. -/
import proofs.«422006_j8718783611640_1_alg».proof.Proof.Gen.KernelIdeal.Frame
import proofs.«422006_j8718783611640_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg3

open Cert.KernelIdeal Cert.KernelIdeal.Gen

variable (V : (c : Dev nD) → (b : Ref sig .tc) → Buf (Elt Ideal) ((c : Thread nD τ).loc b))

/-- The table the call normalises, as the call finds it. -/
abbrev hArr (c : Dev nD) : Vec Ideal S50000x128 .f32 := V c main_v44_0
/-- The scale row, as the call finds it. -/
abbrev scArr (c : Dev nD) : Vec Ideal S1x128 .f32 := V c main_v55
/-- The shift row, as the call finds it. -/
abbrev shArr (c : Dev nD) : Vec Ideal S1x128 .f32 := V c main_v58

/-- The call's result as a table. -/
def outTab (c : Dev nD) : Cert.Gin.Tab 50000 128 :=
  fun n d => max (hArr V c (ix2 n d) * scArr V c (ix2 0 d) + shArr V c (ix2 0 d)) 0

/-! ## One point's arithmetic, entry by entry -/

/-- The two zero offsets, as the constant function. -/
theorem hz : (![0, 0] : Fin 2 → Nat) = fun _ => 0 := funext fun a => by fin_cases a <;> rfl

/-- What a point computes from a block of 5000 rows and the two rows: at row r and column d, the block's entry
    times the scale at d, plus the shift at d, cut below at zero. -/
theorem pay_apply (x0 : Vec Ideal S5000x128 .f32) (x1 x2 : Vec Ideal S1x128 .f32) (r : Fin 5000) (d : Fin 128) :
    k3_pay1 (F := Ideal) x0 x1 x2 (ix2 r d) = max (x0 (ix2 r d) * x1 (ix2 0 d) + x2 (ix2 0 d)) 0 := by
  unfold k3_pay1
  simp only [shapeCast_self]
  show max (x0 (ix2 r d) * broadcastTo S5000x128 x1 broadcasts_S1x128_S5000x128 (ix2 r d)
      + broadcastTo S5000x128 x2 broadcasts_S1x128_S5000x128 (ix2 r d)) (Ideal.ofBits .f32 0x00000000#32) = _
  rw [broadcastTo_1b_ab_apply x1 broadcasts_S1x128_S5000x128 r d, broadcastTo_1b_ab_apply x2 broadcasts_S1x128_S5000x128 r d,
    Ideal.ofBits_zero_f32]

/-! ## The blocks a point reads, as parts of the arrays -/

/-- The ten points. -/
theorem hN : cfg3.N = 10 := N_3

/-- Where each window's block sits at point t: the table's and the result's blocks at block row t, the two rows
    whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The table's block at a point. -/
abbrev hBlk (c : Dev nD) (t : Fin cfg3.N) : Vec Ideal S5000x128 .f32 := iblk3 (F := Ideal) V c 0 t
/-- The scale row's block at a point. -/
abbrev scBlk (c : Dev nD) (t : Fin cfg3.N) : Vec Ideal S1x128 .f32 := iblk3 (F := Ideal) V c 1 t
/-- The shift row's block at a point. -/
abbrev shBlk (c : Dev nD) (t : Fin cfg3.N) : Vec Ideal S1x128 .f32 := iblk3 (F := Ideal) V c 2 t

/-- Row r of the table's block at point t is row 5000 · t + r of the table. -/
theorem hBlk_apply (c : Dev nD) (t : Fin cfg3.N) (r : Fin 5000) (d : Fin 128) (hlt : 5000 * t.val + r.val < 50000) :
    hBlk V c t (ix2 r d) = hArr V c (ix2 ⟨5000 * t.val + r.val, hlt⟩ d) := by
  obtain ⟨e0, e1, -⟩ := idx_facts t
  show hArr V c (((cfg3.win 0).blk t).view.emb (ix2 r d)) = hArr V c (ix2 ⟨5000 * t.val + r.val, hlt⟩ d)
  refine congrArg (hArr V c) ?_
  funext a; apply Fin.ext
  match a with
  | ⟨0, _⟩ => show win3_0.index t (0 : Fin 2) * 5000 + 1 * r.val = 5000 * t.val + r.val; omega
  | ⟨1, _⟩ => show win3_0.index t (1 : Fin 2) * 128 + 1 * d.val = d.val; omega

/-- The scale row's block is the scale row. -/
theorem scBlk_apply (c : Dev nD) (t : Fin cfg3.N) (d : Fin 128) : scBlk V c t (ix2 0 d) = scArr V c (ix2 0 d) := by
  obtain ⟨-, -, e0, e1, -⟩ := idx_facts t
  show scArr V c (((cfg3.win 1).blk t).view.emb (ix2 0 d)) = scArr V c (ix2 0 d)
  refine congrArg (scArr V c) ?_
  funext a; apply Fin.ext
  match a with
  | ⟨0, _⟩ => show win3_1.index t (0 : Fin 2) * 1 + 1 * 0 = 0; omega
  | ⟨1, _⟩ => show win3_1.index t (1 : Fin 2) * 128 + 1 * d.val = d.val; omega

/-- The shift row's block is the shift row. -/
theorem shBlk_apply (c : Dev nD) (t : Fin cfg3.N) (d : Fin 128) : shBlk V c t (ix2 0 d) = shArr V c (ix2 0 d) := by
  obtain ⟨-, -, -, -, e0, e1, -⟩ := idx_facts t
  show shArr V c (((cfg3.win 2).blk t).view.emb (ix2 0 d)) = shArr V c (ix2 0 d)
  refine congrArg (shArr V c) ?_
  funext a; apply Fin.ext
  match a with
  | ⟨0, _⟩ => show win3_2.index t (0 : Fin 2) * 1 + 1 * 0 = 0; omega
  | ⟨1, _⟩ => show win3_2.index t (1 : Fin 2) * 128 + 1 * d.val = d.val; omega

/-! ## What a point writes back, and the whole array -/

/-- Point t writes back rows 5000 · t … 5000 · t + 4999 of the result table. -/
theorem flushed3_eq (c : Dev nD) (t : Fin cfg3.N) :
    (dat3 (F := Ideal) V c).flushed 3 t = ((cfg3.win 3).blk t).view.read (Elt Ideal) (Cert.Gin.toMat (outTab V c)) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S1x128) hz]
  have ht : t.val < 10 := hN ▸ t.isLt
  obtain ⟨-, -, -, -, -, -, e0, e1⟩ := idx_facts t
  funext j
  obtain ⟨r, d, rfl⟩ : ∃ (r : Fin 5000) (d : Fin 128), j = ix2 r d := ⟨j 0, j 1, eq_ix2 j⟩
  have hlt : 5000 * t.val + r.val < 50000 := by have := r.isLt; omega
  have hemb : ((cfg3.win 3).blk t).view.emb (ix2 r d) = ix2 ⟨5000 * t.val + r.val, hlt⟩ d := by
    funext a; apply Fin.ext
    match a with
    | ⟨0, _⟩ => show win3_3.index t (0 : Fin 2) * 5000 + 1 * r.val = 5000 * t.val + r.val; omega
    | ⟨1, _⟩ => show win3_3.index t (1 : Fin 2) * 128 + 1 * d.val = d.val; omega
  show k3_pay1 (F := Ideal) (hBlk V c t) (scBlk V c t) (shBlk V c t) (ix2 r d)
    = Cert.Gin.toMat (outTab V c) (((cfg3.win 3).blk t).view.emb (ix2 r d))
  rw [hemb, pay_apply (hBlk V c t) (scBlk V c t) (shBlk V c t) r d, hBlk_apply V c t r d hlt, scBlk_apply V c t d,
    shBlk_apply V c t d]
  rfl

/-- An index of the result array is in point t's block when its row is among that point's 5000. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v59).slice (win3_3.rect t)).set ↔ _
  rw [View.set_slice_whole, Rect.mem_set_unit]
  exact Iff.rfl

/-- Every row belongs to the point numbered by its quotient by 5000, and every point writes back. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hq : (i 0).val / 5000 < cfg3.N := by rw [hN]; omega
  refine ⟨⟨(i 0).val / 5000, hq⟩, flush3_3 _, ?_⟩
  obtain ⟨-, -, -, -, -, -, e0, e1⟩ := idx_facts ⟨(i 0).val / 5000, hq⟩
  rw [mem_blk3]
  intro a
  match a with
  | ⟨0, _⟩ =>
    show win3_3.index ⟨(i 0).val / 5000, hq⟩ (0 : Fin 2) * 5000 ≤ (i 0).val
      ∧ (i 0).val < win3_3.index ⟨(i 0).val / 5000, hq⟩ (0 : Fin 2) * 5000 + 5000
    rw [e0]; dsimp only; omega
  | ⟨1, _⟩ =>
    show win3_3.index ⟨(i 0).val / 5000, hq⟩ (1 : Fin 2) * 128 ≤ (i 1).val
      ∧ (i 1).val < win3_3.index ⟨(i 0).val / 5000, hq⟩ (1 : Fin 2) * 128 + 128
    rw [e1]; omega

/-- The result array after the call. -/
theorem out3 (c : Dev nD) : (dat3 (F := Ideal) V c).arrAt 3 cfg3.N = Cert.Gin.toMat (outTab V c) :=
  (dat3 (F := Ideal) V c).arrAt_eq_of_cover 3 (Cert.Gin.toMat (outTab V c)) (fun t _ => flushed3_eq V c t) cover3

end Cert.KernelIdeal.Reg3

end
-- ==== Proof.KReg4.lean ====
/- The pooling call, read as a value: whatever the buffers hold when the call is entered, its result array ends
   holding, at graph g and column d, the sum over all 50000 rows of indicator(r, g) · table(r, d). Each of the ten grid
   points contracts its 5000 rows of the two operands over the row axis and adds the product into the one result
   block, which stays in place across the points (reset before the first point's contribution) and is written back
   after the last. -/
import proofs.«422006_j8718783611640_1_alg».proof.Proof.Gen.KernelIdeal.Frame
import proofs.«422006_j8718783611640_1_alg».proof.Proof.Spec
import proofs.«422006_j8718783611640_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg4

open Cert.KernelIdeal Cert.KernelIdeal.Gen

variable (V : (c : Dev nD) → (b : Ref sig .tc) → Buf (Elt Ideal) ((c : Thread nD τ).loc b))

/-- The normalised table, as the call finds it. -/
abbrev hArr (c : Dev nD) : Vec Ideal S50000x128 .f32 := V c main_v59
/-- The membership indicator, as the call finds it. -/
abbrev indArr (c : Dev nD) : Vec Ideal S50000x128 .f32 := V c main_v66

theorem hz : (![0, 0] : Fin 2 → Nat) = fun _ => 0 := funext fun a => by fin_cases a <;> rfl

/-! ## What one grid point leaves in the result block -/

/-- A later point: the block that held `xo` ends holding `xo` plus the product of the point's two operand blocks. -/
theorem piece_B (c : Dev nD) (i : grid4.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (hc : ¬cond4_0 i) (x0 x1 : Vec Ideal S5000x128 .f32) (xo : Vec Ideal S128x128 .f32) :
    out4_B_2 (F := Ideal) c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero hz]
  simp only [View.readAt_eq_ld, h1.read_unread, h2.read_unread, h3.read_unread,
    View.ld_unit_zero (S := S5000x128) hz, View.ld_unit_zero (S := S128x128) hz]

/-- The first point: the block is reset to zero, read back, and ends holding zero plus the product. -/
theorem piece_A (c : Dev nD) (i : grid4.Coords) (a1 : Memref sig .tc .vmem S5000x128 .f32) (h1 : a1.IsWhole)
    (a2 : Memref sig .tc .vmem S5000x128 .f32) (h2 : a2.IsWhole) (a3 : Memref sig .tc .vmem S128x128 .f32) (h3 : a3.IsWhole)
    (hc : cond4_0 i) (x0 x1 : Vec Ideal S5000x128 .f32) :
    out4_A_2 (F := Ideal) c i a1 h1 a2 h2 a3 h3 hc x0 x1 = k4_pay2 x0 x1 (k4_pay1 (F := Ideal)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S128x128) hz, View.readCov_unit_zero (S := S128x128) _ hz]
  simp only [View.readAt_eq_ld, h1.read_unread, h2.read_unread,
    View.ld_unit_zero (S := S5000x128) hz]

/-! ## The body's arithmetic at an entry -/

/-- The reset block is zero everywhere. -/
theorem pay1_apply (g d : Fin 128) : (k4_pay1 (F := Ideal)) (ix2 g d) = 0 := by
  unfold k4_pay1
  exact Ideal.ofBits_zero_f32

/-- The update at entry (g, d): the old entry plus the sum over the block's rows of indicator (r, g) · table (r, d). -/
theorem pay2_apply (x0 x1 : Vec Ideal S5000x128 .f32) (xo : Vec Ideal S128x128 .f32) (g d : Fin 128) :
    k4_pay2 x0 x1 xo (ix2 g d) = xo (ix2 g d) + ∑ r : Fin 5000, x1 (ix2 r g) * x0 (ix2 r d) := by
  unfold k4_pay2
  simp only [shapeCast_self]
  refine (addf_apply _ _ _).trans ?_
  refine congrArg (fun z => xo (ix2 g d) + z) ?_
  exact Cert.DotPlain.matmul_zero_cols_cols dot_S5000x128_S5000x128_S128x128_0_0_1_1_n_n rfl rfl rfl rfl rfl rfl none _ _ g d

/-! ## The operand blocks are rows of the arrays -/

/-- The table's block at a point. -/
abbrev hBlk (c : Dev nD) (t : Fin cfg4.N) : Vec Ideal S5000x128 .f32 := iblk4 V c 0 t
/-- The indicator's block at a point. -/
abbrev indBlk (c : Dev nD) (t : Fin cfg4.N) : Vec Ideal S5000x128 .f32 := iblk4 V c 1 t

/-- Both operand windows step through the row blocks in order and never move along the columns. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, win4_0.index t (0 : Fin 2) = t.val ∧ win4_0.index t (1 : Fin 2) = 0
    ∧ win4_1.index t (0 : Fin 2) = t.val ∧ win4_1.index t (1 : Fin 2) = 0)

/-- Row r of the table's block at point t is row 5000 · t + r of the table. -/
theorem hBlk_apply (c : Dev nD) (t : Fin cfg4.N) (r : Fin 5000) (d : Fin 128) (hr : 5000 * t.val + r.val < 50000) :
    hBlk V c t (ix2 r d) = hArr V c (ix2 ⟨5000 * t.val + r.val, hr⟩ d) := by
  obtain ⟨e0, e1, -, -⟩ := idx_facts t
  show iblk4 V c 0 t (ix2 r d) = V c main_v59 (ix2 ⟨5000 * t.val + r.val, hr⟩ d)
  unfold iblk4
  rw [View.read_apply]
  show V c main_v59 _ = V c main_v59 _
  congr 1
  funext a
  apply Fin.ext
  match a with
  | ⟨0, _⟩ => show win4_0.index t (0 : Fin 2) * 5000 + 1 * r.val = 5000 * t.val + r.val; rw [e0]; omega
  | ⟨1, _⟩ => show win4_0.index t (1 : Fin 2) * 128 + 1 * d.val = d.val; rw [e1]; omega

/-- Row r of the indicator's block at point t is row 5000 · t + r of the indicator. -/
theorem indBlk_apply (c : Dev nD) (t : Fin cfg4.N) (r : Fin 5000) (g : Fin 128) (hr : 5000 * t.val + r.val < 50000) :
    indBlk V c t (ix2 r g) = indArr V c (ix2 ⟨5000 * t.val + r.val, hr⟩ g) := by
  obtain ⟨-, -, e0, e1⟩ := idx_facts t
  show iblk4 V c 1 t (ix2 r g) = V c main_v66 (ix2 ⟨5000 * t.val + r.val, hr⟩ g)
  unfold iblk4
  rw [View.read_apply]
  show V c main_v66 _ = V c main_v66 _
  congr 1
  funext a
  apply Fin.ext
  match a with
  | ⟨0, _⟩ => show win4_1.index t (0 : Fin 2) * 5000 + 1 * r.val = 5000 * t.val + r.val; rw [e0]; omega
  | ⟨1, _⟩ => show win4_1.index t (1 : Fin 2) * 128 + 1 * g.val = g.val; rw [e1]; omega

/-! ## The running sum over the points -/

/-- Row ρ's term of entry (g, d): indicator (ρ, g) · table (ρ, d); nothing past the last row. -/
def rowTerm (c : Dev nD) (g d : Fin 128) (ρ : ℕ) : EReal :=
  if h : ρ < 50000 then (indArr V c (ix2 ⟨ρ, h⟩ g) : EReal) * (hArr V c (ix2 ⟨ρ, h⟩ d) : EReal) else 0

/-- One point's product at (g, d) is the sum of the row terms of the point's 5000 rows. -/
theorem point_sum (c : Dev nD) (t : Fin cfg4.N) (g d : Fin 128) :
    (∑ r : Fin 5000, indBlk V c t (ix2 r g) * hBlk V c t (ix2 r d))
      = ∑ r ∈ Finset.range 5000, rowTerm V c g d (5000 * t.val + r) := by
  have hN : t.val < 10 := lt_of_lt_of_eq t.isLt N_4
  rw [Finset.sum_range]
  refine Finset.sum_congr rfl fun r _ => ?_
  have hr : 5000 * t.val + r.val < 50000 := by have := r.isLt; omega
  rw [indBlk_apply V c t r g hr, hBlk_apply V c t r d hr]
  unfold rowTerm
  rw [dif_pos hr]

/-- At the first point the block ends holding that point's product alone. -/
theorem outs_A (c : Dev nD) (t : Fin cfg4.N) (h0 : t.val % 10 = 0) (g d : Fin 128) :
    outsAt4 V c t.val t.isLt (ix2 g d) = ∑ r : Fin 5000, indBlk V c t (ix2 r g) * hBlk V c t (ix2 r d) := by
  rw [outsAt4_A V c t h0]
  refine (congrFun (piece_A c (grid4.coords t) (ms4_0 t) (hs4_0 t) (ms4_1 t) (hs4_1 t) (ms4_2 t) (hs4_2 t)
    ((hcond4_0 t).mpr h0) (hBlk V c t) (indBlk V c t)) (ix2 g d)).trans ?_
  rw [pay2_apply, pay1_apply, zero_add]

/-- At a later point it ends holding what the point before left plus that point's product. -/
theorem outs_B (c : Dev nD) (t : Fin cfg4.N) (h0 : ¬t.val % 10 = 0) (g d : Fin 128) :
    outsAt4 V c t.val t.isLt (ix2 g d)
      = outsAt4 V c (t.val - 1) (Nat.lt_of_le_of_lt (Nat.sub_le _ _) t.isLt) (ix2 g d)
        + ∑ r : Fin 5000, indBlk V c t (ix2 r g) * hBlk V c t (ix2 r d) := by
  rw [outsAt4_B V c t h0]
  refine (congrFun (piece_B c (grid4.coords t) (ms4_0 t) (hs4_0 t) (ms4_1 t) (hs4_1 t) (ms4_2 t) (hs4_2 t)
    (fun h => h0 ((hcond4_0 t).mp h)) (hBlk V c t) (indBlk V c t)
    (outsAt4 V c (t.val - 1) (Nat.lt_of_le_of_lt (Nat.sub_le _ _) t.isLt))) (ix2 g d)).trans ?_
  rw [pay2_apply]

/-- After point n the block holds, at (g, d), the sum of the row terms of the first 5000 · (n + 1) rows: by
    induction on the point. -/
theorem outs_eq (c : Dev nD) : ∀ (n : ℕ) (h : n < cfg4.N) (g d : Fin 128),
    outsAt4 V c n h (ix2 g d) = ∑ ρ ∈ Finset.range (5000 * (n + 1)), rowTerm V c g d ρ
  | 0, h, g, d => by
    refine (outs_A V c ⟨0, h⟩ rfl g d).trans ?_
    rw [point_sum]
    refine Finset.sum_congr rfl fun r _ => ?_
    show rowTerm V c g d (5000 * 0 + r) = _
    rw [Nat.mul_zero, Nat.zero_add]
  | n + 1, h, g, d => by
    have hN : n + 1 < 10 := lt_of_lt_of_eq h N_4
    have hB : ¬(⟨n + 1, h⟩ : Fin cfg4.N).val % 10 = 0 := by dsimp only; omega
    refine (outs_B V c ⟨n + 1, h⟩ hB g d).trans ?_
    rw [point_sum]
    show outsAt4 V c n _ (ix2 g d) + _ = _
    rw [outs_eq c n _ g d, show 5000 * (n + 1 + 1) = 5000 * (n + 1) + 5000 by omega, Finset.sum_range_add]

/-! ## The array after the call -/

/-- What the result array ends holding. -/
abbrev result (c : Dev nD) : Vec Ideal S128x128 .f32 :=
  Cert.Gin.toMat (Cert.Gin.poolInd (Cert.Gin.ofMat (hArr V c)) (Cert.Gin.ofMat (indArr V c)))

/-- After the last point the block holds the sum over all 50000 rows. -/
theorem last_eq (c : Dev nD) : outsAt4 V c t4_9.val t4_9.isLt = result V c := by
  funext j
  obtain ⟨g, d, rfl⟩ : ∃ (g : Fin 128) (d : Fin 128), j = ix2 g d := ⟨j 0, j 1, eq_ix2 j⟩
  refine (outs_eq V c 9 t4_9.isLt g d).trans ?_
  show ∑ ρ ∈ Finset.range 50000, rowTerm V c g d ρ = ∑ r : Fin 50000, indArr V c (ix2 r g) * hArr V c (ix2 r d)
  rw [Finset.sum_range]
  refine Finset.sum_congr rfl fun r _ => ?_
  unfold rowTerm
  rw [dif_pos r.isLt]

/-- The one write-back, after the last point, writes that block: the window's one block is the whole array. -/
theorem flushed_eq (c : Dev nD) (t : Fin cfg4.N) (hf : (cfg4.win 2).flush t = true) :
    (dat4 (F := Ideal) V c).flushed 2 t = ((cfg4.win 2).blk t).view.read (Elt Ideal) (result V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 (F := Ideal) V c).after 2 t4_9) = _
  rw [after4_2, last_eq]
  have hz' : (fun a => win4_2.index t4_9 a * main_v67.ty.shape.size a) = fun _ => 0 :=
    funext fun a => by fin_cases a <;> decide
  exact (Memref.read_access_unit_zero (Elt Ideal) main_v67 hz' (fun a => by rw [congrFun hz' a]; simp) (result V c)).symm

/-- The pooled array after the call. -/
theorem out2 (c : Dev nD) :
    (dat4 (F := Ideal) V c).arrAt 2 cfg4.N = Cert.Gin.toMat (Cert.Gin.poolInd (Cert.Gin.ofMat (hArr V c)) (Cert.Gin.ofMat (indArr V c))) :=
  (dat4 (F := Ideal) V c).arrAt_eq_of_cover 2 (result V c) (flushed_eq V c) fun i =>
    ⟨t4_9, (flush4_2 t4_9).mpr rfl, by
      show i ∈ ((View.whole main_v67).slice (win4_2.rect t4_9)).set
      rw [View.set_slice_whole, Rect.mem_set_unit]
      intro a
      have h0 : (i 0 : Nat) < 128 := (i 0).isLt
      have h1 : (i 1 : Nat) < 128 := (i 1).isLt
      match a with
      | ⟨0, _⟩ =>
        show win4_2.index t4_9 0 * win4_2.size 0 ≤ (i 0 : Nat)
          ∧ (i 0 : Nat) < win4_2.index t4_9 0 * win4_2.size 0 + win4_2.xsize (grid4.coords t4_9) 0
        rw [show win4_2.index t4_9 0 * win4_2.size 0 = 0 from by decide +kernel,
          show win4_2.xsize (grid4.coords t4_9) 0 = 128 from by decide +kernel]
        omega
      | ⟨1, _⟩ =>
        show win4_2.index t4_9 1 * win4_2.size 1 ≤ (i 1 : Nat)
          ∧ (i 1 : Nat) < win4_2.index t4_9 1 * win4_2.size 1 + win4_2.xsize (grid4.coords t4_9) 1
        rw [show win4_2.index t4_9 1 * win4_2.size 1 = 0 from by decide +kernel,
          show win4_2.xsize (grid4.coords t4_9) 1 = 128 from by decide +kernel]
        omega⟩

end Cert.KernelIdeal.Reg4

end
-- ==== Proof.KKeep.lean ====
/- Buffers no operation and no call has written yet still hold what they held: each argument array read at a
   later boundary is its launch contents, and a call's result read after the host stretch that follows it is what
   the call left. No host operation of this program writes an argument or a call's result, and a call writes only
   its own result arrays. -/
import proofs.«422006_j8718783611640_1_alg».proof.Proof.Gen.KernelIdeal.Frame
import Idealize.ShloMosaic.PureOps.Ideal

set_option maxRecDepth 16384

noncomputable section

namespace Cert.KernelIdeal.Keep

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A stretch of host operations none of which writes a buffer leaves that buffer's contents as they were:
    the buffer differs from every buffer the stretch's operations write. -/
local macro "stretch_keeps " ops:ident buf:ident : tactic => `(tactic| (
  refine StableHlo.after_of_forall_not_mem (b := Proc.devRef .tc $buf) _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## At the first call's entry -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by stretch_keeps hostOps0 main_arg0
    _ = m ((c : Thread nD τ).loc main_arg0) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by stretch_keeps hostOps0 main_arg3
    _ = m ((c : Thread nD τ).loc main_arg3) := rfl

theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by stretch_keeps hostOps0 main_arg5
    _ = m ((c : Thread nD τ).loc main_arg5) := rfl

/-! ## After the first call -/

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by stretch_keeps hostOps0 main_arg7
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by stretch_keeps hostOps0 main_arg8
    _ = m ((c : Thread nD τ).loc main_arg8) := rfl

/-! ## At the second call's entry -/

theorem W3_v16_0 (c : Dev nD) : W3 m ρ c (Proc.devRef .tc main_v16_0) = W2 m ρ c (Proc.devRef .tc main_v16_0) := by
  stretch_keeps hostOps1 main_v16_0

/-! ## After the second call -/

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by stretch_keeps hostOps1 main_arg1
    _ = W1 m ρ c (Proc.devRef .tc main_arg1) := W2_of_ne m ρ c main_arg1 (by decide)
    _ = W0 m ρ c (Proc.devRef .tc main_arg1) := by stretch_keeps hostOps0 main_arg1
    _ = m ((c : Thread nD τ).loc main_arg1) := rfl

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by stretch_keeps hostOps1 main_arg10
    _ = W1 m ρ c (Proc.devRef .tc main_arg10) := W2_of_ne m ρ c main_arg10 (by decide)
    _ = W0 m ρ c (Proc.devRef .tc main_arg10) := by stretch_keeps hostOps0 main_arg10
    _ = m ((c : Thread nD τ).loc main_arg10) := rfl

theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by stretch_keeps hostOps1 main_arg12
    _ = W1 m ρ c (Proc.devRef .tc main_arg12) := W2_of_ne m ρ c main_arg12 (by decide)
    _ = W0 m ρ c (Proc.devRef .tc main_arg12) := by stretch_keeps hostOps0 main_arg12
    _ = m ((c : Thread nD τ).loc main_arg12) := rfl

/-! ## At the third call's entry -/

theorem W5_v31 (c : Dev nD) : W5 m ρ c (Proc.devRef .tc main_v31) = W4 m ρ c (Proc.devRef .tc main_v31) := by
  stretch_keeps hostOps2 main_v31

theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := by stretch_keeps hostOps2 main_arg9
    _ = W3 m ρ c (Proc.devRef .tc main_arg9) := W4_of_ne m ρ c main_arg9 (by decide)
    _ = W2 m ρ c (Proc.devRef .tc main_arg9) := by stretch_keeps hostOps1 main_arg9
    _ = W1 m ρ c (Proc.devRef .tc main_arg9) := W2_of_ne m ρ c main_arg9 (by decide)
    _ = W0 m ρ c (Proc.devRef .tc main_arg9) := by stretch_keeps hostOps0 main_arg9
    _ = m ((c : Thread nD τ).loc main_arg9) := rfl

theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := by stretch_keeps hostOps2 main_arg11
    _ = W3 m ρ c (Proc.devRef .tc main_arg11) := W4_of_ne m ρ c main_arg11 (by decide)
    _ = W2 m ρ c (Proc.devRef .tc main_arg11) := by stretch_keeps hostOps1 main_arg11
    _ = W1 m ρ c (Proc.devRef .tc main_arg11) := W2_of_ne m ρ c main_arg11 (by decide)
    _ = W0 m ρ c (Proc.devRef .tc main_arg11) := by stretch_keeps hostOps0 main_arg11
    _ = m ((c : Thread nD τ).loc main_arg11) := rfl

/-! ## After the third call -/

theorem W6_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := by stretch_keeps hostOps2 main_arg13
    _ = W3 m ρ c (Proc.devRef .tc main_arg13) := W4_of_ne m ρ c main_arg13 (by decide)
    _ = W2 m ρ c (Proc.devRef .tc main_arg13) := by stretch_keeps hostOps1 main_arg13
    _ = W1 m ρ c (Proc.devRef .tc main_arg13) := W2_of_ne m ρ c main_arg13 (by decide)
    _ = W0 m ρ c (Proc.devRef .tc main_arg13) := by stretch_keeps hostOps0 main_arg13
    _ = m ((c : Thread nD τ).loc main_arg13) := rfl

theorem W6_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := by stretch_keeps hostOps2 main_arg14
    _ = W3 m ρ c (Proc.devRef .tc main_arg14) := W4_of_ne m ρ c main_arg14 (by decide)
    _ = W2 m ρ c (Proc.devRef .tc main_arg14) := by stretch_keeps hostOps1 main_arg14
    _ = W1 m ρ c (Proc.devRef .tc main_arg14) := W2_of_ne m ρ c main_arg14 (by decide)
    _ = W0 m ρ c (Proc.devRef .tc main_arg14) := by stretch_keeps hostOps0 main_arg14
    _ = m ((c : Thread nD τ).loc main_arg14) := rfl

/-! ## At the fourth call's entry -/

theorem W7_v44_0 (c : Dev nD) : W7 m ρ c (Proc.devRef .tc main_v44_0) = W6 m ρ c (Proc.devRef .tc main_v44_0) := by
  stretch_keeps hostOps3 main_v44_0

/-! ## After the fourth call -/

theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by stretch_keeps hostOps3 main_arg2
    _ = W5 m ρ c (Proc.devRef .tc main_arg2) := W6_of_ne m ρ c main_arg2 (by decide)
    _ = W4 m ρ c (Proc.devRef .tc main_arg2) := by stretch_keeps hostOps2 main_arg2
    _ = W3 m ρ c (Proc.devRef .tc main_arg2) := W4_of_ne m ρ c main_arg2 (by decide)
    _ = W2 m ρ c (Proc.devRef .tc main_arg2) := by stretch_keeps hostOps1 main_arg2
    _ = W1 m ρ c (Proc.devRef .tc main_arg2) := W2_of_ne m ρ c main_arg2 (by decide)
    _ = W0 m ρ c (Proc.devRef .tc main_arg2) := by stretch_keeps hostOps0 main_arg2
    _ = m ((c : Thread nD τ).loc main_arg2) := rfl

/-! ## At the fifth call's entry -/

theorem W9_v59 (c : Dev nD) : W9 m ρ c (Proc.devRef .tc main_v59) = W8 m ρ c (Proc.devRef .tc main_v59) := by
  stretch_keeps hostOps4 main_v59

/-! ## After the fifth call -/

theorem W10_arg15 (c : Dev nD) : W10 m ρ c (Proc.devRef .tc main_arg15) = m ((c : Thread nD τ).loc main_arg15) :=
  calc W10 m ρ c (Proc.devRef .tc main_arg15)
    _ = W9 m ρ c (Proc.devRef .tc main_arg15) := W10_of_ne m ρ c main_arg15 (by decide)
    _ = W8 m ρ c (Proc.devRef .tc main_arg15) := by stretch_keeps hostOps4 main_arg15
    _ = W7 m ρ c (Proc.devRef .tc main_arg15) := W8_of_ne m ρ c main_arg15 (by decide)
    _ = W6 m ρ c (Proc.devRef .tc main_arg15) := by stretch_keeps hostOps3 main_arg15
    _ = W5 m ρ c (Proc.devRef .tc main_arg15) := W6_of_ne m ρ c main_arg15 (by decide)
    _ = W4 m ρ c (Proc.devRef .tc main_arg15) := by stretch_keeps hostOps2 main_arg15
    _ = W3 m ρ c (Proc.devRef .tc main_arg15) := W4_of_ne m ρ c main_arg15 (by decide)
    _ = W2 m ρ c (Proc.devRef .tc main_arg15) := by stretch_keeps hostOps1 main_arg15
    _ = W1 m ρ c (Proc.devRef .tc main_arg15) := W2_of_ne m ρ c main_arg15 (by decide)
    _ = W0 m ρ c (Proc.devRef .tc main_arg15) := by stretch_keeps hostOps0 main_arg15
    _ = m ((c : Thread nD τ).loc main_arg15) := rfl

theorem W10_arg16 (c : Dev nD) : W10 m ρ c (Proc.devRef .tc main_arg16) = m ((c : Thread nD τ).loc main_arg16) :=
  calc W10 m ρ c (Proc.devRef .tc main_arg16)
    _ = W9 m ρ c (Proc.devRef .tc main_arg16) := W10_of_ne m ρ c main_arg16 (by decide)
    _ = W8 m ρ c (Proc.devRef .tc main_arg16) := by stretch_keeps hostOps4 main_arg16
    _ = W7 m ρ c (Proc.devRef .tc main_arg16) := W8_of_ne m ρ c main_arg16 (by decide)
    _ = W6 m ρ c (Proc.devRef .tc main_arg16) := by stretch_keeps hostOps3 main_arg16
    _ = W5 m ρ c (Proc.devRef .tc main_arg16) := W6_of_ne m ρ c main_arg16 (by decide)
    _ = W4 m ρ c (Proc.devRef .tc main_arg16) := by stretch_keeps hostOps2 main_arg16
    _ = W3 m ρ c (Proc.devRef .tc main_arg16) := W4_of_ne m ρ c main_arg16 (by decide)
    _ = W2 m ρ c (Proc.devRef .tc main_arg16) := by stretch_keeps hostOps1 main_arg16
    _ = W1 m ρ c (Proc.devRef .tc main_arg16) := W2_of_ne m ρ c main_arg16 (by decide)
    _ = W0 m ρ c (Proc.devRef .tc main_arg16) := by stretch_keeps hostOps0 main_arg16
    _ = m ((c : Thread nD τ).loc main_arg16) := rfl

end Cert.KernelIdeal.Keep

end
-- ==== Proof.HostRead.lean ====
/- The host operations both programs spell, read at one index, for the shapes this network uses; each lemma takes
   the shape facts and dimension records as variables, so that it applies to either program's own records.

   The edge list is a [2, 800000] array of words: row 0 the sources, row 1 the targets. A source word is
   normalised (a negative word has the row count added), clamped into the table and looked up; a target word
   that is a row receives the looked-up row, any other drops it. The graph-membership column is a [50000] array
   of words. -/
import proofs.«422006_j8718783611640_1_alg».proof.Proof.Spec
import Idealize.ShloMosaic.Lib.Pipeline.Value
import Idealize.ShloMosaic.Lib.ValueLayout
import Idealize.ShloMosaic.PureOps.Ideal.Laws

noncomputable section

namespace Cert.HostRead

open Idealize.ShloMosaic Idealize.ShloMosaic.ValueIdx Cert.Gin Cert.ScatterGather
open scoped BigOperators

/-! ## Words -/

/-- A vector stood up as a column reads, at (e, 0), the vector at e. -/
private theorem col_read {α : Type} {m : Nat} (hm : m ≠ 1)
    (h : (⟨1, ![m]⟩ : Shape).BroadcastsInDim ⟨2, ![m, 1]⟩ (![0] : Fin 1 → Fin 2))
    (v : (⟨1, ![m]⟩ : Shape).Idx → α) (e : Fin m) :
    broadcastInDim (⟨2, ![m, 1]⟩ : Shape) ![0] h v (ix2 e 0) = v (ix1 e) :=
  broadcastInDim_apply _ h v (ix2 e 0) (ix1 e) fun a => by
    match a with
    | ⟨0, _⟩ =>
      show e.val = if m = 1 then 0 else e.val
      rw [if_neg hm]

/-- Row r of the edge list, sliced out and flattened, read at edge e. -/
private theorem edge_row_read (r : Fin 2) (off : Fin 2 → Nat) (hoff : off = ![r.val, 0])
    (h1 : (⟨2, ![2, 800000]⟩ : Shape).Slices off ⟨2, ![1, 800000]⟩)
    (h2 : (⟨2, ![1, 800000]⟩ : Shape).ShapeCasts ⟨1, ![800000]⟩)
    (ei : IVec ⟨2, ![2, 800000]⟩ 32) (e : Fin 800000) :
    shapeCast (⟨1, ![800000]⟩ : Shape) (extractStridedSlice (⟨2, ![1, 800000]⟩ : Shape) off ei h1) h2 (ix1 e)
      = ei (ix2 r e) := by
  subst hoff
  refine (shapeCast_1a_a_apply _ h2 e).trans ?_
  exact extractStridedSlice_apply _ ei h1 (ix2 (0 : Fin 1) e) (ix2 r e) fun a => by
    match a with
    | ⟨0, _⟩ => show r.val = r.val + 0; omega
    | ⟨1, _⟩ => show e.val = 0 + e.val; omega

/-- Row `r` of the edge list, sliced out, flattened and stood up as a column, read at edge `e`. -/
theorem edge_col_read (r : Fin 2) (off : Fin 2 → Nat) (hoff : off = ![r.val, 0])
    (h1 : (⟨2, ![2, 800000]⟩ : Shape).Slices off ⟨2, ![1, 800000]⟩)
    (h2 : (⟨2, ![1, 800000]⟩ : Shape).ShapeCasts ⟨1, ![800000]⟩)
    (h3 : (⟨1, ![800000]⟩ : Shape).BroadcastsInDim ⟨2, ![800000, 1]⟩ (![0] : Fin 1 → Fin 2))
    (ei : IVec ⟨2, ![2, 800000]⟩ 32) (e : Fin 800000) :
    broadcastInDim (⟨2, ![800000, 1]⟩ : Shape) ![0] h3
        (shapeCast (⟨1, ![800000]⟩ : Shape) (extractStridedSlice (⟨2, ![1, 800000]⟩ : Shape) off ei h1) h2) (ix2 e 0)
      = ei (ix2 r e) := by
  refine (col_read (by decide) h3 _ e).trans ?_
  exact edge_row_read r off hoff h1 h2 ei e

/-- The source column as the host normalises it, read at edge `e`. -/
theorem src_col_read
    (h1 : (⟨2, ![2, 800000]⟩ : Shape).Slices ![0, 0] ⟨2, ![1, 800000]⟩)
    (h2 : (⟨2, ![1, 800000]⟩ : Shape).ShapeCasts ⟨1, ![800000]⟩)
    (h3 : (⟨1, ![800000]⟩ : Shape).BroadcastsInDim ⟨2, ![800000, 1]⟩ (![0] : Fin 1 → Fin 2))
    (h0 : (⟨0, ![]⟩ : Shape).BroadcastsInDim ⟨1, ![800000]⟩ (![] : Fin 0 → Fin 1))
    (ei : IVec ⟨2, ![2, 800000]⟩ 32) (v1 : IVec ⟨1, ![800000]⟩ 32)
    (hv1 : v1 = shapeCast (⟨1, ![800000]⟩ : Shape) (extractStridedSlice (⟨2, ![1, 800000]⟩ : Shape) ![0, 0] ei h1) h2)
    (e : Fin 800000) :
    broadcastInDim (⟨2, ![800000, 1]⟩ : Shape) ![0] h3
        (select (cmpi .slt v1 (broadcastInDim (⟨1, ![800000]⟩ : Shape) ![] h0 (constantI ⟨0, ![]⟩ 32 0#32)))
          (addi v1 (broadcastInDim (⟨1, ![800000]⟩ : Shape) ![] h0 (constantI ⟨0, ![]⟩ 32 50000#32))) v1) (ix2 e 0)
      = normWord (ei (ix2 0 e)) := by
  refine (col_read (by decide) h3 _ e).trans ?_
  have hv : v1 (ix1 e) = ei (ix2 0 e) := by
    rw [hv1]
    exact edge_row_read 0 ![0, 0] rfl h1 h2 ei e
  show Scalar.select (IntOp.cmpi .slt (v1 (ix1 e)) 0#32) (IntOp.addi (v1 (ix1 e)) 50000#32) (v1 (ix1 e)) = _
  rw [hv]
  rfl

/-- The graph-membership words stood up as a column, read at row `r`. -/
theorem batch_col_read (h : (⟨1, ![50000]⟩ : Shape).BroadcastsInDim ⟨2, ![50000, 1]⟩ (![0] : Fin 1 → Fin 2))
    (batch : IVec ⟨1, ![50000]⟩ 32) (r : Fin 50000) :
    broadcastInDim (⟨2, ![50000, 1]⟩ : Shape) ![0] h batch (ix2 r 0) = batch (ix1 r) :=
  col_read (by decide) h batch r

/-- The membership indicator as the kernel's program builds it: the words broadcast along the columns, the graph
    numbers 0 … 127 broadcast along the rows, compared and converted to floats. -/
theorem onehot_read
    (h1 : (⟨1, ![50000]⟩ : Shape).BroadcastsInDim ⟨2, ![50000, 1]⟩ (![0] : Fin 1 → Fin 2))
    (h2 : (⟨2, ![50000, 1]⟩ : Shape).BroadcastsInDim ⟨2, ![50000, 128]⟩ (![0, 1] : Fin 2 → Fin 2))
    (h3 : (⟨1, ![128]⟩ : Shape).BroadcastsInDim ⟨2, ![1, 128]⟩ (![1] : Fin 1 → Fin 2))
    (h4 : (⟨2, ![1, 128]⟩ : Shape).BroadcastsInDim ⟨2, ![50000, 128]⟩ (![0, 1] : Fin 2 → Fin 2))
    (batch : IVec ⟨1, ![50000]⟩ 32) (r : Fin 50000) (g : Fin 128) :
    uitofp (F := Ideal) .f32
        (cmpi .eq (broadcastInDim (⟨2, ![50000, 128]⟩ : Shape) ![0, 1] h2 (broadcastInDim (⟨2, ![50000, 1]⟩ : Shape) ![0] h1 batch))
          (broadcastInDim (⟨2, ![50000, 128]⟩ : Shape) ![0, 1] h4
            (broadcastInDim (⟨2, ![1, 128]⟩ : Shape) ![1] h3 (iotaInDim (⟨1, ![128]⟩ : Shape) 32 0)))) (ix2 r g)
      = indGraph batch r g := by
  have hA : broadcastInDim (⟨2, ![50000, 128]⟩ : Shape) ![0, 1] h2 (broadcastInDim (⟨2, ![50000, 1]⟩ : Shape) ![0] h1 batch) (ix2 r g)
      = batch (ix1 r) := by
    refine (broadcastInDim_apply _ h2 _ (ix2 r g) (ix2 r (0 : Fin 1)) fun a => ?_).trans (batch_col_read h1 batch r)
    match a with
    | ⟨0, _⟩ => show r.val = if (50000 : Nat) = 1 then 0 else r.val; rw [if_neg (by decide)]
    | ⟨1, _⟩ => show (0 : Nat) = if (1 : Nat) = 1 then 0 else g.val; rw [if_pos rfl]
  have hB : broadcastInDim (⟨2, ![50000, 128]⟩ : Shape) ![0, 1] h4
      (broadcastInDim (⟨2, ![1, 128]⟩ : Shape) ![1] h3 (iotaInDim (⟨1, ![128]⟩ : Shape) 32 0)) (ix2 r g)
      = BitVec.ofNat 32 g.val := by
    refine (broadcastInDim_apply _ h4 _ (ix2 r g) (ix2 (0 : Fin 1) g) fun a => ?_).trans ?_
    · match a with
      | ⟨0, _⟩ => show (0 : Nat) = if (1 : Nat) = 1 then 0 else r.val; rw [if_pos rfl]
      | ⟨1, _⟩ => show g.val = if (128 : Nat) = 1 then 0 else g.val; rw [if_neg (by decide)]
    refine (broadcastInDim_apply _ h3 _ (ix2 (0 : Fin 1) g) (ix1 g) fun a => ?_).trans rfl
    match a with
    | ⟨0, _⟩ => show g.val = if (128 : Nat) = 1 then 0 else g.val; rw [if_neg (by decide)]
  show FloatOps.uitofp (F := Ideal) .f32 (IntOp.cmpi .eq
      (broadcastInDim (⟨2, ![50000, 128]⟩ : Shape) ![0, 1] h2 (broadcastInDim (⟨2, ![50000, 1]⟩ : Shape) ![0] h1 batch) (ix2 r g))
      (broadcastInDim (⟨2, ![50000, 128]⟩ : Shape) ![0, 1] h4
        (broadcastInDim (⟨2, ![1, 128]⟩ : Shape) ![1] h3 (iotaInDim (⟨1, ![128]⟩ : Shape) 32 0)) (ix2 r g))) = _
  rw [hA, hB]
  rfl

/-! ## Rows and scalars -/

/-- A row stood up as a one-row array and broadcast over `n` rows, read at (r, d). -/
theorem row_bcast_read {n k : Nat} (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (b : (⟨1, ![k]⟩ : Shape).Idx → EReal) (r : Fin n) (d : Fin k) :
    broadcastInDim (⟨2, ![n, k]⟩ : Shape) ![0, 1] h2 (broadcastInDim (⟨2, ![1, k]⟩ : Shape) ![1] h1 b) (ix2 r d) = b (ix1 d) := by
  have hd : d.val = if k = 1 then 0 else d.val := by
    split
    · have := d.isLt; omega
    · rfl
  refine (broadcastInDim_apply _ h2 _ (ix2 r d) (ix2 (0 : Fin 1) d) fun a => ?_).trans ?_
  · match a with
    | ⟨0, _⟩ => show (0 : Nat) = if (1 : Nat) = 1 then 0 else r.val; rw [if_pos rfl]
    | ⟨1, _⟩ => exact hd
  refine broadcastInDim_apply _ h1 b (ix2 (0 : Fin 1) d) (ix1 d) fun a => ?_
  match a with
  | ⟨0, _⟩ => exact hd

/-- A row reshaped to a one-row array, read at (0, d). -/
theorem row_reshape_read {k : Nat} (h : (⟨1, ![k]⟩ : Shape).ShapeCasts ⟨2, ![1, k]⟩)
    (b : (⟨1, ![k]⟩ : Shape).Idx → EReal) (d : Fin k) :
    shapeCast (⟨2, ![1, k]⟩ : Shape) b h (ix2 0 d) = b (ix1 d) :=
  shapeCast_a_1a_apply b h 0 d

/-- A float scalar constant broadcast to any shape reads its value everywhere. -/
theorem const_bcast_read {t : Shape} (h : (⟨0, ![]⟩ : Shape).BroadcastsInDim t (![] : Fin 0 → Fin t.rank)) (w : BitVec 32) (i : t.Idx) :
    broadcastInDim t ![] h (constant (F := Ideal) ⟨0, ![]⟩ .f32 w) i = Ideal.ofBits .f32 w := by
  rfl

/-- A rank-2 index read on an axis known to be axis 1. -/
private theorem idx2_val_axis1 {n k : Nat} (i : (⟨2, ![n, k]⟩ : Shape).Idx) (X : Fin 2) (hX : X = 1) :
    (i X).val = (i 1).val := by
  subst hX; rfl

/-- Dropping the row axis of a rank-2 index leaves its column. -/
private theorem drop_rows_val {n k : Nat} (h' : (⟨2, ![n, k]⟩ : Shape).ReducesTo [0] ⟨1, ![k]⟩)
    (i : (⟨2, ![n, k]⟩ : Shape).Idx) : (h'.drop i 0).val = (i 1).val := by
  have hall : ∀ X ∈ (⟨2, ![n, k]⟩ : Shape).kept [0], X = 1 := by
    intro X hX
    have hk : (⟨2, ![n, k]⟩ : Shape).kept [0] = [1] :=
      (by decide : (List.finRange 2).filter (fun a : Fin 2 => a ∉ [(0 : Fin 2)]) = [(1 : Fin 2)])
    rw [hk] at hX
    exact List.mem_singleton.mp hX
  unfold Shape.ReducesTo.drop
  rw [Fin.val_cast]
  exact idx2_val_axis1 i _ (hall _ (List.getElem_mem _))

/-- The host's column sum from the zero scalar: the sum over the rows. -/
theorem colsum_read {n k : Nat} (h' : (⟨2, ![n, k]⟩ : Shape).ReducesTo [0] ⟨1, ![k]⟩) (h0 : 0 < (⟨0, ![]⟩ : Shape).numel)
    (x : (⟨2, ![n, k]⟩ : Shape).Idx → EReal) (d : Fin k) :
    Host.reduceAdd (F := Ideal) (φ := .f32) x (constant (F := Ideal) ⟨0, ![]⟩ .f32 0x00000000#32) h' h0 (ix1 d) = ∑ r : Fin n, x (ix2 r d) := by
  show Ideal.ofBits .f32 0x00000000#32
      + ∑ i ∈ Finset.univ.filter (fun i => h'.drop i = ix1 d), x i = _
  rw [Ideal.ofBits_zero_f32, zero_add, Finset.sum_filter, sum_idx2]
  refine Finset.sum_congr rfl fun r _ => ?_
  have hiff : ∀ c : Fin k, (h'.drop (ix2 r c) = ix1 d) ↔ c = d := fun c => by
    constructor
    · intro hc
      have h1 : (h'.drop (ix2 r c) 0).val = d.val := by rw [hc]; rfl
      rw [drop_rows_val] at h1
      exact Fin.ext h1
    · intro hc
      subst hc
      funext a
      match a with
      | ⟨0, _⟩ => exact Fin.ext (drop_rows_val h' (ix2 r c))
  simp only [hiff]
  rw [Finset.sum_ite_eq' Finset.univ d (fun c => x (ix2 r c)), if_pos (Finset.mem_univ d)]

/-! ## The neighbour sum and the segment pooling -/

/-- The looked-up rows scattered into the zero table: the neighbour sum. -/
theorem agg_read (ds : ScatterDims ⟨2, ![50000, 128]⟩ ⟨2, ![800000, 1]⟩ ⟨2, ![800000, 128]⟩)
    (hu : ds.updateWindowDims = [1]) (hi : ds.insertedWindowDims = [0]) (hs : ds.scatterDimsToOperandDims = [0]) (hv : ds.indexVectorDim = 1)
    (dg : GatherDims ⟨2, ![50000, 128]⟩ ⟨2, ![800000, 1]⟩ ⟨2, ![800000, 128]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1) (hss : dg.sliceSizes = ![1, 128])
    (ei : IVec ⟨2, ![2, 800000]⟩ 32) (z : (⟨2, ![50000, 128]⟩ : Shape).Idx → EReal) (hz : ∀ i, z i = 0)
    (idxS idxG : IVec ⟨2, ![800000, 1]⟩ 32) (hS : ∀ e : Fin 800000, idxS (ix2 e 0) = ei (ix2 1 e))
    (hG : ∀ e : Fin 800000, idxG (ix2 e 0) = normWord (ei (ix2 0 e)))
    (x : (⟨2, ![50000, 128]⟩ : Shape).Idx → EReal) :
    Host.scatterAdd (F := Ideal) (φ := .f32) ds z idxS (Host.gather dg x idxG) = toMat (agg (ofMat x) (tgtRow ei) (srcRow ei)) := by
  funext i
  obtain ⟨a, b, rfl⟩ : ∃ a b, i = ix2 a b := ⟨i 0, i 1, eq_ix2 i⟩
  show Ideal.hostScatterAdd ds z idxS (Host.gather dg x idxG) (ix2 a b) = _
  rw [scatterAdd_rows_apply ds hu hi hs hv, hz, zero_add, toMat_ix2]
  unfold agg
  have hfil : (Finset.univ.filter fun e : Fin 800000 => tgtW 50000 (idxS (ix2 e 0)) = some a)
      = Finset.univ.filter fun e : Fin 800000 => tgtRow ei e = some a :=
    Finset.filter_congr fun e _ => by unfold tgtRow; rw [hS e]
  rw [hfil]
  refine Finset.sum_congr rfl fun e _ => ?_
  rw [gather_rows_apply (by decide) dg hoff hcoll hob hsb hsim hivd hss x idxG e b, hG e]
  rfl

/-- The rows scattered into the zero table by their graph words: the segment pooling. -/
theorem pool_read (ds : ScatterDims ⟨2, ![128, 128]⟩ ⟨2, ![50000, 1]⟩ ⟨2, ![50000, 128]⟩)
    (hu : ds.updateWindowDims = [1]) (hi : ds.insertedWindowDims = [0]) (hs : ds.scatterDimsToOperandDims = [0]) (hv : ds.indexVectorDim = 1)
    (batch : IVec ⟨1, ![50000]⟩ 32) (z : (⟨2, ![128, 128]⟩ : Shape).Idx → EReal) (hz : ∀ i, z i = 0)
    (idx : IVec ⟨2, ![50000, 1]⟩ 32) (hidx : ∀ r : Fin 50000, idx (ix2 r 0) = batch (ix1 r))
    (h : (⟨2, ![50000, 128]⟩ : Shape).Idx → EReal) :
    Host.scatterAdd (F := Ideal) (φ := .f32) ds z idx h = toMat (poolSeg (ofMat h) (ownGraph batch)) := by
  funext i
  obtain ⟨g, d, rfl⟩ : ∃ g d, i = ix2 g d := ⟨i 0, i 1, eq_ix2 i⟩
  show Ideal.hostScatterAdd ds z idx h (ix2 g d) = _
  rw [scatterAdd_rows_apply ds hu hi hs hv, hz, zero_add, toMat_ix2]
  unfold poolSeg
  have hfil : (Finset.univ.filter fun r : Fin 50000 => tgtW 128 (idx (ix2 r 0)) = some g)
      = Finset.univ.filter fun r : Fin 50000 => ownGraph batch r = some g :=
    Finset.filter_congr fun r _ => by unfold ownGraph; rw [hidx r]
  rw [hfil]
  rfl

end Cert.HostRead

end
-- ==== Proof.KHostA.lean ====
/- The two host stretches that prepare a perceptron call, read as values: the neighbour sum of the table the block
   starts from (its rows looked up by the edges' source words and added into the rows their target words name), and
   the two bias rows reshaped to one-row arrays. The first stretch reads the features, the second the first block's
   normalised table; the edge list is the same. -/
import proofs.«422006_j8718783611640_1_alg».proof.Proof.Gen.KernelIdeal.Frame
import proofs.«422006_j8718783611640_1_alg».proof.Proof.Spec
import proofs.«422006_j8718783611640_1_alg».proof.Proof.HostRead
import proofs.«422006_j8718783611640_1_alg».proof.Proof.LibDotPlain
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open scoped BigOperators

namespace Cert.KernelIdeal.HostA

open Cert.KernelIdeal Cert.KernelIdeal.Gen Cert.Gin

variable (m : (ℓ : Loc nD τ sig) → Buf (Elt Ideal) ℓ) (ρ : Dev nD → PrngReg)

/-! ## The first stretch, from the launch contents -/

/-- The neighbour-sum buffer holds the scatter-add, into zeros and by the flattened target row stood up as a column,
    of the feature rows gathered by the normalised flattened source row stood up as a column. -/
theorem v13_term (c : Dev nD) :
    (W1 m ρ c (Proc.devRef .tc main_v13) : Vec Ideal S50000x128 .f32)
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0
            (shapeCast S800000
              (extractStridedSlice S1x800000 ![1, 0] (W0 m ρ c (Proc.devRef .tc main_arg1) : IVec S2x800000 32) slices_S2x800000_S1x800000_1_0)
              shapeCasts_S1x800000_S800000))
          (Host.gather gather_S50000x128_S800000x1_S800000x128_1_0_n_n_0_1_1128
            (W0 m ρ c (Proc.devRef .tc main_arg0) : Vec Ideal S50000x128 .f32)
            (broadcastInDim S800000x1 ![0] bcast_S800000_S800000x1_0
              (select
                (cmpi .slt
                  (shapeCast S800000
                    (extractStridedSlice S1x800000 ![0, 0] (W0 m ρ c (Proc.devRef .tc main_arg1) : IVec S2x800000 32) slices_S2x800000_S1x800000_0_0)
                    shapeCasts_S1x800000_S800000)
                  (broadcastInDim S800000 ![] bcast_S_S800000 (constantI S_ 32 0#32)))
                (addi
                  (shapeCast S800000
                    (extractStridedSlice S1x800000 ![0, 0] (W0 m ρ c (Proc.devRef .tc main_arg1) : IVec S2x800000 32) slices_S2x800000_S1x800000_0_0)
                    shapeCasts_S1x800000_S800000)
                  (broadcastInDim S800000 ![] bcast_S_S800000 (constantI S_ 32 50000#32)))
                (shapeCast S800000
                  (extractStridedSlice S1x800000 ![0, 0] (W0 m ρ c (Proc.devRef .tc main_arg1) : IVec S2x800000 32) slices_S2x800000_S1x800000_0_0)
                  shapeCasts_S1x800000_S800000)))) := by
  show StableHlo.after hostOps0 (W0 m ρ c) (Proc.devRef .tc main_v13) = _
  after_results_simp <;> rfl

/-- Before the first call: the neighbour sums of the features. -/
theorem v13 (c : Dev nD) :
    (W1 m ρ c (Proc.devRef .tc main_v13) : Vec Ideal S50000x128 .f32)
      = toMat (agg (ofMat (W0 m ρ c (Proc.devRef .tc main_arg0) : Vec Ideal S50000x128 .f32))
          (tgtRow (W0 m ρ c (Proc.devRef .tc main_arg1) : IVec S2x800000 32)) (srcRow (W0 m ρ c (Proc.devRef .tc main_arg1) : IVec S2x800000 32))) := by
  rw [v13_term m ρ c]
  generalize (W0 m ρ c (Proc.devRef .tc main_arg0) : Vec Ideal S50000x128 .f32) = x
  generalize (W0 m ρ c (Proc.devRef .tc main_arg1) : IVec S2x800000 32) = ei
  exact Cert.HostRead.agg_read scatter_S50000x128_S800000x1_S800000x128_1_0_0_1 rfl rfl rfl rfl
    gather_S50000x128_S800000x1_S800000x128_1_0_n_n_0_1_1128 rfl rfl rfl rfl rfl rfl rfl ei _
    (fun i => (Cert.HostRead.const_bcast_read bcast_S_S50000x128 0x00000000#32 i).trans Ideal.ofBits_zero_f32) _ _
    (fun e => Cert.HostRead.edge_col_read 1 ![1, 0] rfl slices_S2x800000_S1x800000_1_0 shapeCasts_S1x800000_S800000
      bcast_S800000_S800000x1_0 ei e)
    (fun e => Cert.HostRead.src_col_read slices_S2x800000_S1x800000_0_0 shapeCasts_S1x800000_S800000
      bcast_S800000_S800000x1_0 bcast_S_S800000 ei _ rfl e) x

/-- The first reshaped bias buffer holds the bias row recast to one row. -/
theorem v14_term (c : Dev nD) :
    (W1 m ρ c (Proc.devRef .tc main_v14) : Vec Ideal S1x128 .f32)
      = shapeCast S1x128 (W0 m ρ c (Proc.devRef .tc main_arg4) : Vec Ideal S128 .f32) shapeCasts_S128_S1x128 := by
  show StableHlo.after hostOps0 (W0 m ρ c) (Proc.devRef .tc main_v14) = _
  after_results <;> rfl

/-- Before the first call: the first layer's bias as a one-row array. -/
theorem v14 (c : Dev nD) (k : Fin 128) :
    (W1 m ρ c (Proc.devRef .tc main_v14) : Vec Ideal S1x128 .f32) (ix2 0 k) = (W0 m ρ c (Proc.devRef .tc main_arg4) : Vec Ideal S128 .f32) (ix1 k) := by
  rw [v14_term m ρ c]
  generalize (W0 m ρ c (Proc.devRef .tc main_arg4) : Vec Ideal S128 .f32) = b
  exact Cert.HostRead.row_reshape_read shapeCasts_S128_S1x128 b k

/-- The second reshaped bias buffer holds the bias row recast to one row. -/
theorem v15_term (c : Dev nD) :
    (W1 m ρ c (Proc.devRef .tc main_v15) : Vec Ideal S1x128 .f32)
      = shapeCast S1x128 (W0 m ρ c (Proc.devRef .tc main_arg6) : Vec Ideal S128 .f32) shapeCasts_S128_S1x128 := by
  show StableHlo.after hostOps0 (W0 m ρ c) (Proc.devRef .tc main_v15) = _
  after_results <;> rfl

/-- Before the first call: the second layer's bias as a one-row array. -/
theorem v15 (c : Dev nD) (k : Fin 128) :
    (W1 m ρ c (Proc.devRef .tc main_v15) : Vec Ideal S1x128 .f32) (ix2 0 k) = (W0 m ρ c (Proc.devRef .tc main_arg6) : Vec Ideal S128 .f32) (ix1 k) := by
  rw [v15_term m ρ c]
  generalize (W0 m ρ c (Proc.devRef .tc main_arg6) : Vec Ideal S128 .f32) = b
  exact Cert.HostRead.row_reshape_read shapeCasts_S128_S1x128 b k

/-! ## What the third stretch finds: the edge list and its two flattened rows, unchanged since the first stretch -/

/-- No operation of a stretch writes the buffer: each operation's written set is a singleton, and the buffer is
    none of them. -/
local macro "no_op_writes" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The flattened source row after the first stretch. -/
theorem W1_v1 (c : Dev nD) :
    (W1 m ρ c (Proc.devRef .tc main_v1) : IVec S800000 32)
      = shapeCast S800000
          (extractStridedSlice S1x800000 ![0, 0] (W0 m ρ c (Proc.devRef .tc main_arg1) : IVec S2x800000 32) slices_S2x800000_S1x800000_0_0)
          shapeCasts_S1x800000_S800000 := by
  show StableHlo.after hostOps0 (W0 m ρ c) (Proc.devRef .tc main_v1) = _
  after_results <;> rfl

/-- The flattened target row after the first stretch. -/
theorem W1_v3 (c : Dev nD) :
    (W1 m ρ c (Proc.devRef .tc main_v3) : IVec S800000 32)
      = shapeCast S800000
          (extractStridedSlice S1x800000 ![1, 0] (W0 m ρ c (Proc.devRef .tc main_arg1) : IVec S2x800000 32) slices_S2x800000_S1x800000_1_0)
          shapeCasts_S1x800000_S800000 := by
  show StableHlo.after hostOps0 (W0 m ρ c) (Proc.devRef .tc main_v3) = _
  after_results <;> rfl

/-- The flattened source row is, at the third stretch, what the first stretch left: neither the first two calls nor
    the second stretch write it. -/
theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) :=
        StableHlo.after_of_forall_not_mem (b := Proc.devRef .tc main_v1) _ _ (by no_op_writes hostOps1)
    _ = W1 m ρ c (Proc.devRef .tc main_v1) := W2_of_ne m ρ c main_v1 (by decide)

/-- The flattened target row likewise. -/
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) :=
        StableHlo.after_of_forall_not_mem (b := Proc.devRef .tc main_v3) _ _ (by no_op_writes hostOps1)
    _ = W1 m ρ c (Proc.devRef .tc main_v3) := W2_of_ne m ρ c main_v3 (by decide)

/-- The edge list is, at the third stretch, the launch's: nothing writes an argument. -/
theorem W4_arg1 (c : Dev nD) : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) :=
        StableHlo.after_of_forall_not_mem (b := Proc.devRef .tc main_arg1) _ _ (by no_op_writes hostOps1)
    _ = W1 m ρ c (Proc.devRef .tc main_arg1) := W2_of_ne m ρ c main_arg1 (by decide)
    _ = W0 m ρ c (Proc.devRef .tc main_arg1) :=
        StableHlo.after_of_forall_not_mem (b := Proc.devRef .tc main_arg1) _ _ (by no_op_writes hostOps0)

/-! ## The third stretch -/

/-- The neighbour-sum buffer holds the scatter-add, into zeros and by the flattened target row stood up as a column,
    of the table's rows gathered by the normalised flattened source row stood up as a column. -/
theorem v41_term (c : Dev nD) :
    (W5 m ρ c (Proc.devRef .tc main_v41) : Vec Ideal S50000x128 .f32)
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 (W4 m ρ c (Proc.devRef .tc main_v3) : IVec S800000 32))
          (Host.gather gather_S50000x128_S800000x1_S800000x128_1_0_n_n_0_1_1128
            (W4 m ρ c (Proc.devRef .tc main_v31) : Vec Ideal S50000x128 .f32)
            (broadcastInDim S800000x1 ![0] bcast_S800000_S800000x1_0
              (select
                (cmpi .slt (W4 m ρ c (Proc.devRef .tc main_v1) : IVec S800000 32)
                  (broadcastInDim S800000 ![] bcast_S_S800000 (constantI S_ 32 0#32)))
                (addi (W4 m ρ c (Proc.devRef .tc main_v1) : IVec S800000 32)
                  (broadcastInDim S800000 ![] bcast_S_S800000 (constantI S_ 32 50000#32)))
                (W4 m ρ c (Proc.devRef .tc main_v1) : IVec S800000 32)))) := by
  show StableHlo.after hostOps2 (W4 m ρ c) (Proc.devRef .tc main_v41) = _
  after_results_simp <;> rfl

/-- Before the third call: the neighbour sums of the first block's normalised table. -/
theorem v41 (c : Dev nD) :
    (W5 m ρ c (Proc.devRef .tc main_v41) : Vec Ideal S50000x128 .f32)
      = toMat (agg (ofMat (W4 m ρ c (Proc.devRef .tc main_v31) : Vec Ideal S50000x128 .f32))
          (tgtRow (W4 m ρ c (Proc.devRef .tc main_arg1) : IVec S2x800000 32)) (srcRow (W4 m ρ c (Proc.devRef .tc main_arg1) : IVec S2x800000 32))) := by
  rw [v41_term m ρ c, W4_v1 m ρ c, W4_v3 m ρ c, W1_v1 m ρ c, W1_v3 m ρ c, W4_arg1 m ρ c]
  generalize (W4 m ρ c (Proc.devRef .tc main_v31) : Vec Ideal S50000x128 .f32) = x
  generalize (W0 m ρ c (Proc.devRef .tc main_arg1) : IVec S2x800000 32) = ei
  exact Cert.HostRead.agg_read scatter_S50000x128_S800000x1_S800000x128_1_0_0_1 rfl rfl rfl rfl
    gather_S50000x128_S800000x1_S800000x128_1_0_n_n_0_1_1128 rfl rfl rfl rfl rfl rfl rfl ei _
    (fun i => (Cert.HostRead.const_bcast_read bcast_S_S50000x128 0x00000000#32 i).trans Ideal.ofBits_zero_f32) _ _
    (fun e => Cert.HostRead.edge_col_read 1 ![1, 0] rfl slices_S2x800000_S1x800000_1_0 shapeCasts_S1x800000_S800000
      bcast_S800000_S800000x1_0 ei e)
    (fun e => Cert.HostRead.src_col_read slices_S2x800000_S1x800000_0_0 shapeCasts_S1x800000_S800000
      bcast_S800000_S800000x1_0 bcast_S_S800000 ei _ rfl e) x

/-- The first reshaped bias buffer holds the bias row recast to one row. -/
theorem v42_term (c : Dev nD) :
    (W5 m ρ c (Proc.devRef .tc main_v42) : Vec Ideal S1x128 .f32)
      = shapeCast S1x128 (W4 m ρ c (Proc.devRef .tc main_arg10) : Vec Ideal S128 .f32) shapeCasts_S128_S1x128 := by
  show StableHlo.after hostOps2 (W4 m ρ c) (Proc.devRef .tc main_v42) = _
  after_results <;> rfl

/-- Before the third call: the first layer's bias as a one-row array. -/
theorem v42 (c : Dev nD) (k : Fin 128) :
    (W5 m ρ c (Proc.devRef .tc main_v42) : Vec Ideal S1x128 .f32) (ix2 0 k) = (W4 m ρ c (Proc.devRef .tc main_arg10) : Vec Ideal S128 .f32) (ix1 k) := by
  rw [v42_term m ρ c]
  generalize (W4 m ρ c (Proc.devRef .tc main_arg10) : Vec Ideal S128 .f32) = b
  exact Cert.HostRead.row_reshape_read shapeCasts_S128_S1x128 b k

/-- The second reshaped bias buffer holds the bias row recast to one row. -/
theorem v43_term (c : Dev nD) :
    (W5 m ρ c (Proc.devRef .tc main_v43) : Vec Ideal S1x128 .f32)
      = shapeCast S1x128 (W4 m ρ c (Proc.devRef .tc main_arg12) : Vec Ideal S128 .f32) shapeCasts_S128_S1x128 := by
  show StableHlo.after hostOps2 (W4 m ρ c) (Proc.devRef .tc main_v43) = _
  after_results <;> rfl

/-- Before the third call: the second layer's bias as a one-row array. -/
theorem v43 (c : Dev nD) (k : Fin 128) :
    (W5 m ρ c (Proc.devRef .tc main_v43) : Vec Ideal S1x128 .f32) (ix2 0 k) = (W4 m ρ c (Proc.devRef .tc main_arg12) : Vec Ideal S128 .f32) (ix1 k) := by
  rw [v43_term m ρ c]
  generalize (W4 m ρ c (Proc.devRef .tc main_arg12) : Vec Ideal S128 .f32) = b
  exact Cert.HostRead.row_reshape_read shapeCasts_S128_S1x128 b k

end Cert.KernelIdeal.HostA

end
-- ==== Proof.KHostB.lean ====
/- The two host stretches between a statistics call and its normalise call, read as values: from the column sums
   and the column sums of squares the call left, the folded scale `γ · rsqrt (sumsq / N − (sum / N)² + ε)` and the
   folded shift `β − (sum / N) · scale`, column by column. -/
import proofs.«422006_j8718783611640_1_alg».proof.Proof.Gen.KernelIdeal.Frame
import proofs.«422006_j8718783611640_1_alg».proof.Proof.Spec
import proofs.«422006_j8718783611640_1_alg».proof.Proof.HostRead
import proofs.«422006_j8718783611640_1_alg».proof.Proof.LibDotPlain
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open scoped BigOperators

namespace Cert.KernelIdeal.HostB

open Cert.KernelIdeal Cert.KernelIdeal.Gen Cert.Gin

variable (m : (ℓ : Loc nD τ sig) → Buf (Elt Ideal) ℓ) (ρ : Dev nD → PrngReg)

/-- The scale a column gets from its sum `s`, its sum of squares `q` and its `γ`. -/
def scaleAt (s q g : EReal) : EReal :=
  g * Ideal.rsqrt (Ideal.div q (nRows : EReal) - Ideal.div s (nRows : EReal) * Ideal.div s (nRows : EReal) + epsBN)

/-- The shift a column gets from its sum, its sum of squares, its `γ` and its `β`. -/
def shiftAt (s q g be : EReal) : EReal := be - Ideal.div s (nRows : EReal) * scaleAt s q g

/-! ## The rows as terms of a sum row, a sum-of-squares row, `γ` and `β`, and each read at a column -/

/-- The mean row: the sum row divided, entry by entry, by the row count. -/
abbrev meanRow (s : Vec Ideal S1x128 .f32) : Vec Ideal S1x128 .f32 :=
  Host.divf (F := Ideal) s (broadcastInDim S1x128 ![] bcast_S_S1x128 (constant (F := Ideal) S_ .f32 0x47435000#32))

/-- The scale row: `γ` laid out as one row, times the reciprocal square root of the variance row plus `ε`; the
    variance row is the mean of squares minus the squared mean. -/
abbrev scaleRow (s q : Vec Ideal S1x128 .f32) (g : Vec Ideal S128 .f32) : Vec Ideal S1x128 .f32 :=
  mulf (shapeCast S1x128 g shapeCasts_S128_S1x128)
    (Host.rsqrt (F := Ideal)
      (addf (subf (meanRow q) (mulf (meanRow s) (meanRow s)))
        (broadcastInDim S1x128 ![] bcast_S_S1x128 (constant (F := Ideal) S_ .f32 0x3727C5AC#32))))

/-- The shift row: `β` laid out as one row, minus the mean row times the scale row. -/
abbrev shiftRow (s q : Vec Ideal S1x128 .f32) (g be : Vec Ideal S128 .f32) : Vec Ideal S1x128 .f32 :=
  subf (F := Ideal) (φ := .f32) (shapeCast S1x128 be shapeCasts_S128_S1x128) (mulf (meanRow s) (scaleRow s q g))

/-- The mean row at column `d`: the sum there over the row count (the divisor's word is the float 50000). -/
theorem meanRow_read (s : Vec Ideal S1x128 .f32) (d : Fin 128) :
    meanRow s (ix2 0 d) = Ideal.div (s (ix2 0 d)) (nRows : EReal) := by
  show Ideal.div (s (ix2 0 d))
      (broadcastInDim S1x128 ![] bcast_S_S1x128 (constant (F := Ideal) S_ .f32 0x47435000#32) (ix2 0 d)) = _
  rw [Cert.HostRead.const_bcast_read, ofBits_nRows]

/-- The scale row at column `d` is the column formula of the three entries it reads. -/
theorem scaleRow_read (s q : Vec Ideal S1x128 .f32) (g : Vec Ideal S128 .f32) (d : Fin 128) :
    scaleRow s q g (ix2 0 d) = scaleAt (s (ix2 0 d)) (q (ix2 0 d)) (g (ix1 d)) := by
  show shapeCast S1x128 g shapeCasts_S128_S1x128 (ix2 0 d)
      * Ideal.rsqrt (meanRow q (ix2 0 d) - meanRow s (ix2 0 d) * meanRow s (ix2 0 d)
          + broadcastInDim S1x128 ![] bcast_S_S1x128 (constant (F := Ideal) S_ .f32 0x3727C5AC#32) (ix2 0 d)) = _
  rw [Cert.HostRead.row_reshape_read, meanRow_read, meanRow_read, Cert.HostRead.const_bcast_read]
  rfl

/-- The shift row at column `d` is the column formula of the four entries it reads. -/
theorem shiftRow_read (s q : Vec Ideal S1x128 .f32) (g be : Vec Ideal S128 .f32) (d : Fin 128) :
    shiftRow s q g be (ix2 0 d) = shiftAt (s (ix2 0 d)) (q (ix2 0 d)) (g (ix1 d)) (be (ix1 d)) := by
  show shapeCast S1x128 be shapeCasts_S128_S1x128 (ix2 0 d) - meanRow s (ix2 0 d) * scaleRow s q g (ix2 0 d) = _
  rw [Cert.HostRead.row_reshape_read, meanRow_read, scaleRow_read]
  rfl

/-! ## The two stretches: each written row is the row term of the buffers the call before it left -/

/-- Before the second call the scale buffer holds the scale row of the first call's sums and `γ`. -/
theorem v27_term (c : Dev nD) :
    (W3 m ρ c (Proc.devRef .tc main_v27) : Vec Ideal S1x128 .f32)
      = scaleRow (W2 m ρ c (Proc.devRef .tc main_v16_1) : Vec Ideal S1x128 .f32)
          (W2 m ρ c (Proc.devRef .tc main_v16_2) : Vec Ideal S1x128 .f32)
          (W2 m ρ c (Proc.devRef .tc main_arg7) : Vec Ideal S128 .f32) := by
  show StableHlo.after hostOps1 (W2 m ρ c) (Proc.devRef .tc main_v27) = _
  after_results_simp
  rfl

/-- Before the second call the shift buffer holds the shift row of the first call's sums, `γ` and `β`. -/
theorem v30_term (c : Dev nD) :
    (W3 m ρ c (Proc.devRef .tc main_v30) : Vec Ideal S1x128 .f32)
      = shiftRow (W2 m ρ c (Proc.devRef .tc main_v16_1) : Vec Ideal S1x128 .f32)
          (W2 m ρ c (Proc.devRef .tc main_v16_2) : Vec Ideal S1x128 .f32)
          (W2 m ρ c (Proc.devRef .tc main_arg7) : Vec Ideal S128 .f32)
          (W2 m ρ c (Proc.devRef .tc main_arg8) : Vec Ideal S128 .f32) := by
  show StableHlo.after hostOps1 (W2 m ρ c) (Proc.devRef .tc main_v30) = _
  after_results_simp
  rfl

/-- Before the fourth call the scale buffer holds the scale row of the third call's sums and the second `γ`. -/
theorem v55_term (c : Dev nD) :
    (W7 m ρ c (Proc.devRef .tc main_v55) : Vec Ideal S1x128 .f32)
      = scaleRow (W6 m ρ c (Proc.devRef .tc main_v44_1) : Vec Ideal S1x128 .f32)
          (W6 m ρ c (Proc.devRef .tc main_v44_2) : Vec Ideal S1x128 .f32)
          (W6 m ρ c (Proc.devRef .tc main_arg13) : Vec Ideal S128 .f32) := by
  show StableHlo.after hostOps3 (W6 m ρ c) (Proc.devRef .tc main_v55) = _
  after_results_simp
  rfl

/-- Before the fourth call the shift buffer holds the shift row of the third call's sums, the second `γ` and `β`. -/
theorem v58_term (c : Dev nD) :
    (W7 m ρ c (Proc.devRef .tc main_v58) : Vec Ideal S1x128 .f32)
      = shiftRow (W6 m ρ c (Proc.devRef .tc main_v44_1) : Vec Ideal S1x128 .f32)
          (W6 m ρ c (Proc.devRef .tc main_v44_2) : Vec Ideal S1x128 .f32)
          (W6 m ρ c (Proc.devRef .tc main_arg13) : Vec Ideal S128 .f32)
          (W6 m ρ c (Proc.devRef .tc main_arg14) : Vec Ideal S128 .f32) := by
  show StableHlo.after hostOps3 (W6 m ρ c) (Proc.devRef .tc main_v58) = _
  after_results_simp
  rfl

/-- Before the second call: the scale row. -/
theorem v27 (c : Dev nD) (d : Fin 128) :
    (W3 m ρ c (Proc.devRef .tc main_v27) : Vec Ideal S1x128 .f32) (ix2 0 d)
      = scaleAt ((W2 m ρ c (Proc.devRef .tc main_v16_1) : Vec Ideal S1x128 .f32) (ix2 0 d))
          ((W2 m ρ c (Proc.devRef .tc main_v16_2) : Vec Ideal S1x128 .f32) (ix2 0 d))
          ((W2 m ρ c (Proc.devRef .tc main_arg7) : Vec Ideal S128 .f32) (ix1 d)) := by
  exact (congrFun (v27_term m ρ c) (ix2 0 d)).trans (scaleRow_read _ _ _ d)

/-- Before the second call: the shift row. -/
theorem v30 (c : Dev nD) (d : Fin 128) :
    (W3 m ρ c (Proc.devRef .tc main_v30) : Vec Ideal S1x128 .f32) (ix2 0 d)
      = shiftAt ((W2 m ρ c (Proc.devRef .tc main_v16_1) : Vec Ideal S1x128 .f32) (ix2 0 d))
          ((W2 m ρ c (Proc.devRef .tc main_v16_2) : Vec Ideal S1x128 .f32) (ix2 0 d))
          ((W2 m ρ c (Proc.devRef .tc main_arg7) : Vec Ideal S128 .f32) (ix1 d))
          ((W2 m ρ c (Proc.devRef .tc main_arg8) : Vec Ideal S128 .f32) (ix1 d)) := by
  exact (congrFun (v30_term m ρ c) (ix2 0 d)).trans (shiftRow_read _ _ _ _ d)

/-- Before the fourth call: the scale row. -/
theorem v55 (c : Dev nD) (d : Fin 128) :
    (W7 m ρ c (Proc.devRef .tc main_v55) : Vec Ideal S1x128 .f32) (ix2 0 d)
      = scaleAt ((W6 m ρ c (Proc.devRef .tc main_v44_1) : Vec Ideal S1x128 .f32) (ix2 0 d))
          ((W6 m ρ c (Proc.devRef .tc main_v44_2) : Vec Ideal S1x128 .f32) (ix2 0 d))
          ((W6 m ρ c (Proc.devRef .tc main_arg13) : Vec Ideal S128 .f32) (ix1 d)) := by
  exact (congrFun (v55_term m ρ c) (ix2 0 d)).trans (scaleRow_read _ _ _ d)

/-- Before the fourth call: the shift row. -/
theorem v58 (c : Dev nD) (d : Fin 128) :
    (W7 m ρ c (Proc.devRef .tc main_v58) : Vec Ideal S1x128 .f32) (ix2 0 d)
      = shiftAt ((W6 m ρ c (Proc.devRef .tc main_v44_1) : Vec Ideal S1x128 .f32) (ix2 0 d))
          ((W6 m ρ c (Proc.devRef .tc main_v44_2) : Vec Ideal S1x128 .f32) (ix2 0 d))
          ((W6 m ρ c (Proc.devRef .tc main_arg13) : Vec Ideal S128 .f32) (ix1 d))
          ((W6 m ρ c (Proc.devRef .tc main_arg14) : Vec Ideal S128 .f32) (ix1 d)) := by
  exact (congrFun (v58_term m ρ c) (ix2 0 d)).trans (shiftRow_read _ _ _ _ d)

end Cert.KernelIdeal.HostB

end
-- ==== Proof.KHostC.lean ====
/- The last two host stretches, read as values: the graph-membership indicator built from the membership words
   (each word compared with each graph number and converted to a float), and the last affine map of the pooled
   table. -/
import proofs.«422006_j8718783611640_1_alg».proof.Proof.Gen.KernelIdeal.Frame
import proofs.«422006_j8718783611640_1_alg».proof.Proof.Spec
import proofs.«422006_j8718783611640_1_alg».proof.Proof.HostRead
import proofs.«422006_j8718783611640_1_alg».proof.Proof.LibDotPlain
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open scoped BigOperators

namespace Cert.KernelIdeal.HostC

open Cert.KernelIdeal Cert.KernelIdeal.Gen Cert.Gin

variable (m : (ℓ : Loc nD τ sig) → Buf (Elt Ideal) ℓ) (ρ : Dev nD → PrngReg)

/-- Comparing each membership word with each graph number and converting to a float gives the indicator table. -/
theorem ind_read (batch : IVec S50000 32) :
    uitofp (F := Ideal) .f32
        (cmpi .eq
          (broadcastInDim S50000x128 ![0, 1] bcast_S50000x1_S50000x128_0_1
            (broadcastInDim S50000x1 ![0] bcast_S50000_S50000x1_0 batch))
          (broadcastInDim S50000x128 ![0, 1] bcast_S1x128_S50000x128_0_1
            (broadcastInDim S1x128 ![1] bcast_S128_S1x128_1 (iotaInDim S128 32 0))))
      = toMat (indGraph batch) := by
  funext i
  obtain ⟨r, g, rfl⟩ : ∃ (r : Fin 50000) (g : Fin 128), i = ix2 r g := ⟨i 0, i 1, eq_ix2 i⟩
  rw [toMat_ix2]
  exact Cert.HostRead.onehot_read bcast_S50000_S50000x1_0 bcast_S50000x1_S50000x128_0_1 bcast_S128_S1x128_1
    bcast_S1x128_S50000x128_0_1 batch r g

/-- The indicator buffer holds the comparison of the two broadcasts, converted to floats. -/
theorem v66_term (c : Dev nD) :
    (W9 m ρ c (Proc.devRef .tc main_v66) : Vec Ideal S50000x128 .f32)
      = uitofp (F := Ideal) .f32
          (cmpi .eq
            (broadcastInDim S50000x128 ![0, 1] bcast_S50000x1_S50000x128_0_1
              (broadcastInDim S50000x1 ![0] bcast_S50000_S50000x1_0
                (W8 m ρ c (Proc.devRef .tc main_arg2) : IVec S50000 32)))
            (broadcastInDim S50000x128 ![0, 1] bcast_S1x128_S50000x128_0_1
              (broadcastInDim S1x128 ![1] bcast_S128_S1x128_1 (iotaInDim S128 32 0)))) := by
  show StableHlo.after hostOps4 (W8 m ρ c) (Proc.devRef .tc main_v66) = _
  after_results

/-- Before the fifth call: the membership indicator. -/
theorem v66 (c : Dev nD) :
    (W9 m ρ c (Proc.devRef .tc main_v66) : Vec Ideal S50000x128 .f32)
      = toMat (indGraph (W8 m ρ c (Proc.devRef .tc main_arg2) : IVec S50000 32)) :=
  (v66_term m ρ c).trans (ind_read _)

/-- The product of a table with the last weights, plus the bias row broadcast over the rows, is the last affine map. -/
theorem head_read (p : FVec Ideal S128x128 .f32) (Wo : FVec Ideal S128x10 .f32) (bo : FVec Ideal S10 .f32) :
    addf (Host.dotGeneral (F := Ideal) (φ₁ := .f32) (φ₂ := .f32) dot_S128x128_S128x10_S128x10_1_0_0_1_n_n none p Wo)
        (broadcastInDim S128x10 ![0, 1] bcast_S1x10_S128x10_0_1 (broadcastInDim S1x10 ![1] bcast_S10_S1x10_1 bo))
      = toMat (head (ofMat p) (ofMat Wo) (ofVec bo)) := by
  funext i
  obtain ⟨g, o, rfl⟩ : ∃ (g : Fin 128) (o : Fin 10), i = ix2 g o := ⟨i 0, i 1, eq_ix2 i⟩
  rw [toMat_ix2, addf_apply,
    Cert.HostRead.row_bcast_read bcast_S10_S1x10_1 bcast_S1x10_S128x10_0_1 bo g o]
  show FloatOps.dotGeneral dot_S128x128_S128x10_S128x10_1_0_0_1_n_n none .single p Wo (ix2 g o) + bo (ix1 o) = _
  rw [Cert.DotPlain.dotGeneral_rows_cols dot_S128x128_S128x10_S128x10_1_0_0_1_n_n rfl rfl rfl rfl rfl rfl none .single p Wo g o]
  rfl

/-- The result buffer holds the product with the last weights plus the broadcast bias row. -/
theorem v71_term (c : Dev nD) :
    (W11 m ρ c (Proc.devRef .tc main_v71) : Vec Ideal S128x10 .f32)
      = addf
          (Host.dotGeneral (F := Ideal) (φ₁ := .f32) (φ₂ := .f32) dot_S128x128_S128x10_S128x10_1_0_0_1_n_n none
            (W10 m ρ c (Proc.devRef .tc main_v67) : Vec Ideal S128x128 .f32)
            (W10 m ρ c (Proc.devRef .tc main_arg15) : Vec Ideal S128x10 .f32))
          (broadcastInDim S128x10 ![0, 1] bcast_S1x10_S128x10_0_1
            (broadcastInDim S1x10 ![1] bcast_S10_S1x10_1
              (W10 m ρ c (Proc.devRef .tc main_arg16) : Vec Ideal S10 .f32))) := by
  show StableHlo.after hostOps5 (W10 m ρ c) (Proc.devRef .tc main_v71) = _
  after_results

/-- After the fifth call: the result. -/
theorem v71 (c : Dev nD) :
    (W11 m ρ c (Proc.devRef .tc main_v71) : Vec Ideal S128x10 .f32)
      = toMat (head (ofMat (W10 m ρ c (Proc.devRef .tc main_v67) : Vec Ideal S128x128 .f32))
          (ofMat (W10 m ρ c (Proc.devRef .tc main_arg15) : Vec Ideal S128x10 .f32)) (ofVec (W10 m ρ c (Proc.devRef .tc main_arg16) : Vec Ideal S10 .f32))) :=
  (v71_term m ρ c).trans (head_read _ _ _)

end Cert.KernelIdeal.HostC

end
-- ==== Proof.KChain.lean ====
/- The kernel's program, read as the network with folded normalisations and indicator pooling: boundary by boundary
   through @main, each call's result arrays are tables of the specification — the first perceptron call leaves the
   perceptron of (neighbour sums + features) and its column sums and sums of squares; the host folds them into a scale
   and a shift; the normalise call applies them; the second block repeats this on the normalised table; the pooling
   call contracts the rows against the membership indicator; the last host stretch applies the affine map. -/
import proofs.«422006_j8718783611640_1_alg».proof.Proof.KRun
import proofs.«422006_j8718783611640_1_alg».proof.Proof.KReg0
import proofs.«422006_j8718783611640_1_alg».proof.Proof.KReg1
import proofs.«422006_j8718783611640_1_alg».proof.Proof.KReg2
import proofs.«422006_j8718783611640_1_alg».proof.Proof.KReg3
import proofs.«422006_j8718783611640_1_alg».proof.Proof.KReg4
import proofs.«422006_j8718783611640_1_alg».proof.Proof.KKeep
import proofs.«422006_j8718783611640_1_alg».proof.Proof.KHostA
import proofs.«422006_j8718783611640_1_alg».proof.Proof.KHostB
import proofs.«422006_j8718783611640_1_alg».proof.Proof.KHostC
import proofs.«422006_j8718783611640_1_alg».proof.Proof.Spec

set_option maxRecDepth 16384

noncomputable section

open Idealize.ShloMosaic Idealize.ShloMosaic.TcCoe Idealize.SL.Sem Idealize.ShloMosaic.ValueIdx
open scoped BigOperators

namespace Cert.KernelIdeal.Chain

open Cert.KernelIdeal Cert.KernelIdeal.Gen Cert.Gin

variable (m : (ℓ : Loc nD τ sig) → Buf (Elt Ideal) ℓ) (ρ : Dev nD → PrngReg)

/-! ## The argument arrays, and the stages as tables -/

abbrev A0 (c : Dev nD) : Vec Ideal S50000x128 .f32 := m ((c : Thread nD τ).loc main_arg0)
abbrev EI (c : Dev nD) : IVec S2x800000 32 := m ((c : Thread nD τ).loc main_arg1)
abbrev BT (c : Dev nD) : IVec S50000 32 := m ((c : Thread nD τ).loc main_arg2)
abbrev A3 (c : Dev nD) : Vec Ideal S128x128 .f32 := m ((c : Thread nD τ).loc main_arg3)
abbrev A4 (c : Dev nD) : Vec Ideal S128 .f32 := m ((c : Thread nD τ).loc main_arg4)
abbrev A5 (c : Dev nD) : Vec Ideal S128x128 .f32 := m ((c : Thread nD τ).loc main_arg5)
abbrev A6 (c : Dev nD) : Vec Ideal S128 .f32 := m ((c : Thread nD τ).loc main_arg6)
abbrev A7 (c : Dev nD) : Vec Ideal S128 .f32 := m ((c : Thread nD τ).loc main_arg7)
abbrev A8 (c : Dev nD) : Vec Ideal S128 .f32 := m ((c : Thread nD τ).loc main_arg8)
abbrev A9 (c : Dev nD) : Vec Ideal S128x128 .f32 := m ((c : Thread nD τ).loc main_arg9)
abbrev A10 (c : Dev nD) : Vec Ideal S128 .f32 := m ((c : Thread nD τ).loc main_arg10)
abbrev A11 (c : Dev nD) : Vec Ideal S128x128 .f32 := m ((c : Thread nD τ).loc main_arg11)
abbrev A12 (c : Dev nD) : Vec Ideal S128 .f32 := m ((c : Thread nD τ).loc main_arg12)
abbrev A13 (c : Dev nD) : Vec Ideal S128 .f32 := m ((c : Thread nD τ).loc main_arg13)
abbrev A14 (c : Dev nD) : Vec Ideal S128 .f32 := m ((c : Thread nD τ).loc main_arg14)
abbrev A15 (c : Dev nD) : Vec Ideal S128x10 .f32 := m ((c : Thread nD τ).loc main_arg15)
abbrev A16 (c : Dev nD) : Vec Ideal S10 .f32 := m ((c : Thread nD τ).loc main_arg16)

/-- The features. -/
def x0 (c : Dev nD) : Tab 50000 128 := ofMat (A0 m c)
/-- The row each edge adds into. -/
def tg (c : Dev nD) : Fin 800000 → Option (Fin 50000) := tgtRow (EI m c)
/-- The row each edge reads. -/
def sr (c : Dev nD) : Fin 800000 → Fin 50000 := srcRow (EI m c)
/-- The first block's perceptron table. -/
def h1 (c : Dev nD) : Tab 50000 128 :=
  mlp (tadd (agg (x0 m c) (tg m c) (sr m c)) (x0 m c)) (ofMat (A3 m c)) (ofVec (A4 m c)) (ofMat (A5 m c)) (ofVec (A6 m c))
/-- The first block's normalised table. -/
def n1 (c : Dev nD) : Tab 50000 128 := bnFold epsBN (h1 m c) (ofVec (A7 m c)) (ofVec (A8 m c))
/-- The second block's perceptron table. -/
def h2 (c : Dev nD) : Tab 50000 128 :=
  mlp (tadd (agg (n1 m c) (tg m c) (sr m c)) (n1 m c)) (ofMat (A9 m c)) (ofVec (A10 m c)) (ofMat (A11 m c)) (ofVec (A12 m c))
/-- The second block's normalised table. -/
def n2 (c : Dev nD) : Tab 50000 128 := bnFold epsBN (h2 m c) (ofVec (A13 m c)) (ofVec (A14 m c))
/-- The pooled table. -/
def pooled (c : Dev nD) : Tab 128 128 := poolInd (n2 m c) (indGraph (BT m c))

/-! ## The first block -/

theorem hTab0_eq (c : Dev nD) : Reg0.hTab (V1 m ρ) c = h1 m c := by
  have e1 : Reg0.aggArr (V1 m ρ) c = toMat (agg (x0 m c) (tg m c) (sr m c)) := HostA.v13 m ρ c
  have e2 : Reg0.featArr (V1 m ρ) c = A0 m c := Keep.W1_arg0 m ρ c
  have e3 : Reg0.waArr (V1 m ρ) c = A3 m c := Keep.W1_arg3 m ρ c
  have e4 : Reg0.wbArr (V1 m ρ) c = A5 m c := Keep.W1_arg5 m ρ c
  have e5 : (fun k => Reg0.baArr (V1 m ρ) c (ix2 0 k)) = ofVec (A4 m c) := funext fun k => HostA.v14 m ρ c k
  have e6 : (fun k => Reg0.bbArr (V1 m ρ) c (ix2 0 k)) = ofVec (A6 m c) := funext fun k => HostA.v15 m ρ c k
  unfold Reg0.hTab h1
  rw [e1, e2, e3, e4, e5, e6]
  rfl

theorem v16_0_eq (c : Dev nD) : (W2 m ρ c (Proc.devRef .tc main_v16_0) : Vec Ideal S50000x128 .f32) = toMat (h1 m c) :=
  (W2_arr m ρ c 6).trans ((Reg0.out6 (V1 m ρ) c).trans (congrArg toMat (hTab0_eq m ρ c)))

theorem v16_1_eq (c : Dev nD) (d : Fin 128) :
    (W2 m ρ c (Proc.devRef .tc main_v16_1) : Vec Ideal S1x128 .f32) (ix2 0 d) = colSum (h1 m c) d :=
  (congrFun (W2_arr m ρ c 7) (ix2 0 d)).trans ((Reg0.out7 (V1 m ρ) c d).trans (by rw [hTab0_eq]))

theorem v16_2_eq (c : Dev nD) (d : Fin 128) :
    (W2 m ρ c (Proc.devRef .tc main_v16_2) : Vec Ideal S1x128 .f32) (ix2 0 d) = ∑ r : Fin 50000, h1 m c r d * h1 m c r d :=
  (congrFun (W2_arr m ρ c 8) (ix2 0 d)).trans ((Reg0.out8 (V1 m ρ) c d).trans (by rw [hTab0_eq]))

theorem scale_eq (h : Tab 50000 128) (g : Fin 128 → EReal) (d : Fin 128) :
    HostB.scaleAt (colSum h d) (∑ r : Fin 50000, h r d * h r d) (g d) = scaleOf epsBN h g d := rfl

theorem shift_eq (h : Tab 50000 128) (g be : Fin 128 → EReal) (d : Fin 128) :
    HostB.shiftAt (colSum h d) (∑ r : Fin 50000, h r d * h r d) (g d) (be d) = shiftOf epsBN h g be d := rfl

theorem v27_eq (c : Dev nD) (d : Fin 128) :
    (W3 m ρ c (Proc.devRef .tc main_v27) : Vec Ideal S1x128 .f32) (ix2 0 d) = scaleOf epsBN (h1 m c) (ofVec (A7 m c)) d := by
  rw [HostB.v27 m ρ c d, v16_1_eq, v16_2_eq, Keep.W2_arg7]
  exact scale_eq (h1 m c) (ofVec (A7 m c)) d

theorem v30_eq (c : Dev nD) (d : Fin 128) :
    (W3 m ρ c (Proc.devRef .tc main_v30) : Vec Ideal S1x128 .f32) (ix2 0 d) = shiftOf epsBN (h1 m c) (ofVec (A7 m c)) (ofVec (A8 m c)) d := by
  rw [HostB.v30 m ρ c d, v16_1_eq, v16_2_eq, Keep.W2_arg7, Keep.W2_arg8]
  exact shift_eq (h1 m c) (ofVec (A7 m c)) (ofVec (A8 m c)) d

theorem outTab1_eq (c : Dev nD) : Reg1.outTab (V3 m ρ) c = n1 m c := by
  funext n d
  have eh : Reg1.hArr (V3 m ρ) c = toMat (h1 m c) := (Keep.W3_v16_0 m ρ c).trans (v16_0_eq m ρ c)
  have es : Reg1.scArr (V3 m ρ) c (ix2 0 d) = scaleOf epsBN (h1 m c) (ofVec (A7 m c)) d := v27_eq m ρ c d
  have et : Reg1.shArr (V3 m ρ) c (ix2 0 d) = shiftOf epsBN (h1 m c) (ofVec (A7 m c)) (ofVec (A8 m c)) d := v30_eq m ρ c d
  unfold Reg1.outTab
  rw [eh, es, et]
  rfl

theorem v31_eq (c : Dev nD) : (W4 m ρ c (Proc.devRef .tc main_v31) : Vec Ideal S50000x128 .f32) = toMat (n1 m c) :=
  (W4_arr m ρ c 3).trans ((Reg1.out3 (V3 m ρ) c).trans (congrArg toMat (outTab1_eq m ρ c)))

/-! ## The second block -/

theorem hTab2_eq (c : Dev nD) : Reg2.hTab (V5 m ρ) c = h2 m c := by
  have e1 : Reg2.aggArr (V5 m ρ) c = toMat (agg (n1 m c) (tg m c) (sr m c)) := by
    refine (HostA.v41 m ρ c).trans ?_
    rw [v31_eq, Keep.W4_arg1]
    rfl
  have e2 : Reg2.featArr (V5 m ρ) c = toMat (n1 m c) := (Keep.W5_v31 m ρ c).trans (v31_eq m ρ c)
  have e3 : Reg2.waArr (V5 m ρ) c = A9 m c := Keep.W5_arg9 m ρ c
  have e4 : Reg2.wbArr (V5 m ρ) c = A11 m c := Keep.W5_arg11 m ρ c
  have e5 : (fun k => Reg2.baArr (V5 m ρ) c (ix2 0 k)) = ofVec (A10 m c) :=
    funext fun k => (HostA.v42 m ρ c k).trans (by rw [Keep.W4_arg10]; rfl)
  have e6 : (fun k => Reg2.bbArr (V5 m ρ) c (ix2 0 k)) = ofVec (A12 m c) :=
    funext fun k => (HostA.v43 m ρ c k).trans (by rw [Keep.W4_arg12]; rfl)
  unfold Reg2.hTab h2
  rw [e1, e2, e3, e4, e5, e6]
  rfl

theorem v44_0_eq (c : Dev nD) : (W6 m ρ c (Proc.devRef .tc main_v44_0) : Vec Ideal S50000x128 .f32) = toMat (h2 m c) :=
  (W6_arr m ρ c 6).trans ((Reg2.out6 (V5 m ρ) c).trans (congrArg toMat (hTab2_eq m ρ c)))

theorem v44_1_eq (c : Dev nD) (d : Fin 128) :
    (W6 m ρ c (Proc.devRef .tc main_v44_1) : Vec Ideal S1x128 .f32) (ix2 0 d) = colSum (h2 m c) d :=
  (congrFun (W6_arr m ρ c 7) (ix2 0 d)).trans ((Reg2.out7 (V5 m ρ) c d).trans (by rw [hTab2_eq]))

theorem v44_2_eq (c : Dev nD) (d : Fin 128) :
    (W6 m ρ c (Proc.devRef .tc main_v44_2) : Vec Ideal S1x128 .f32) (ix2 0 d) = ∑ r : Fin 50000, h2 m c r d * h2 m c r d :=
  (congrFun (W6_arr m ρ c 8) (ix2 0 d)).trans ((Reg2.out8 (V5 m ρ) c d).trans (by rw [hTab2_eq]))

theorem v55_eq (c : Dev nD) (d : Fin 128) :
    (W7 m ρ c (Proc.devRef .tc main_v55) : Vec Ideal S1x128 .f32) (ix2 0 d) = scaleOf epsBN (h2 m c) (ofVec (A13 m c)) d := by
  rw [HostB.v55 m ρ c d, v44_1_eq, v44_2_eq, Keep.W6_arg13]
  exact scale_eq (h2 m c) (ofVec (A13 m c)) d

theorem v58_eq (c : Dev nD) (d : Fin 128) :
    (W7 m ρ c (Proc.devRef .tc main_v58) : Vec Ideal S1x128 .f32) (ix2 0 d) = shiftOf epsBN (h2 m c) (ofVec (A13 m c)) (ofVec (A14 m c)) d := by
  rw [HostB.v58 m ρ c d, v44_1_eq, v44_2_eq, Keep.W6_arg13, Keep.W6_arg14]
  exact shift_eq (h2 m c) (ofVec (A13 m c)) (ofVec (A14 m c)) d

theorem outTab3_eq (c : Dev nD) : Reg3.outTab (V7 m ρ) c = n2 m c := by
  funext n d
  have eh : Reg3.hArr (V7 m ρ) c = toMat (h2 m c) := (Keep.W7_v44_0 m ρ c).trans (v44_0_eq m ρ c)
  have es : Reg3.scArr (V7 m ρ) c (ix2 0 d) = scaleOf epsBN (h2 m c) (ofVec (A13 m c)) d := v55_eq m ρ c d
  have et : Reg3.shArr (V7 m ρ) c (ix2 0 d) = shiftOf epsBN (h2 m c) (ofVec (A13 m c)) (ofVec (A14 m c)) d := v58_eq m ρ c d
  unfold Reg3.outTab
  rw [eh, es, et]
  rfl

theorem v59_eq (c : Dev nD) : (W8 m ρ c (Proc.devRef .tc main_v59) : Vec Ideal S50000x128 .f32) = toMat (n2 m c) :=
  (W8_arr m ρ c 3).trans ((Reg3.out3 (V7 m ρ) c).trans (congrArg toMat (outTab3_eq m ρ c)))

/-! ## Pooling and the last map -/

theorem v67_eq (c : Dev nD) : (W10 m ρ c (Proc.devRef .tc main_v67) : Vec Ideal S128x128 .f32) = toMat (pooled m c) := by
  refine (W10_arr m ρ c 2).trans ((Reg4.out2 (V9 m ρ) c).trans ?_)
  have eh : Reg4.hArr (V9 m ρ) c = toMat (n2 m c) := (Keep.W9_v59 m ρ c).trans (v59_eq m ρ c)
  have ei : Reg4.indArr (V9 m ρ) c = toMat (indGraph (BT m c)) := by
    refine (HostC.v66 m ρ c).trans ?_
    rw [Keep.W8_arg2]
  rw [eh, ei]
  rfl

/-- The result array's final contents are the folded network of the launch contents of the arguments. -/
theorem result_eq (c : Dev nD) :
    (W11 m ρ c (Proc.devRef .tc main_v71) : Vec Ideal S128x10 .f32)
      = toMat (netFoldOf (A0 m c) (EI m c) (BT m c) (A3 m c) (A4 m c) (A5 m c) (A6 m c) (A7 m c) (A8 m c) (A9 m c) (A10 m c)
          (A11 m c) (A12 m c) (A13 m c) (A14 m c) (A15 m c) (A16 m c)) := by
  rw [HostC.v71 m ρ c, v67_eq, Keep.W10_arg15, Keep.W10_arg16]
  rfl

/-- The run, read: the result array holds the folded network of the launch contents of the arguments, which end unchanged. -/
theorem run_net : θ_run defs (onTc (τ := τ) (main (F := Ideal))) ⟨m, fun _ => 0, ρ⟩ (fun r => ∀ c : Dev nD,
      r.2.mem ((c.tc : Thread nD τ).loc main_v71)
        = toMat (netFoldOf (A0 m c) (EI m c) (BT m c) (A3 m c) (A4 m c) (A5 m c) (A6 m c) (A7 m c) (A8 m c) (A9 m c) (A10 m c)
          (A11 m c) (A12 m c) (A13 m c) (A14 m c) (A15 m c) (A16 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c).1.trans (result_eq m ρ c), (h c).2⟩) (RunNamed.run_named (F := Ideal) m ρ)

end Cert.KernelIdeal.Chain

end
-- ==== Proof.RefRead.lean ====
/- The reference's stages over variable arrays, each read as a table of the specification: an affine layer at
   (n, d) is the sum over the 128 inner coordinates of the row times the column, plus the bias row at d; the
   rectifier is the entrywise maximum with zero; the neighbour sum plus the input is the scatter of the gathered
   rows into the zero table, plus the input; the column mean and the mean squared deviation are sums over the
   50000 rows divided by 50000; the normalisation centres each entry, scales it by the reciprocal root of the
   deviation plus epsilon and by the scale row, adds the shift row and rectifies; the pooling scatters the rows by
   their graph words; the last affine map is the sum over 128 coordinates plus the bias row of ten entries. -/
import proofs.«422006_j8718783611640_1_alg».proof.Proof.Gen.ReferenceIdeal
import proofs.«422006_j8718783611640_1_alg».proof.ReferenceIdeal
import proofs.«422006_j8718783611640_1_alg».proof.Proof.Spec
import proofs.«422006_j8718783611640_1_alg».proof.Proof.HostRead
import proofs.«422006_j8718783611640_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx
open scoped BigOperators

namespace Cert.ReferenceIdeal.RefRead

open Cert.ReferenceIdeal Cert.ReferenceIdeal.Gen Cert.Gin

/-! ## The perceptron -/

/-- An affine layer: at (n, d) the product is the sum over the inner coordinate, and the bias row is read at d. -/
theorem lin_read (s : FVec Ideal S50000x128 .f32) (W : FVec Ideal S128x128 .f32) (b : FVec Ideal S128 .f32) :
    (addf (Host.dotGeneral (F := Ideal) dot_S50000x128_S128x128_S50000x128_1_0_0_1_n_n none s W) (broadcastInDim S50000x128 ![0, 1] bcast_S1x128_S50000x128_0_1 (broadcastInDim S1x128 ![1] bcast_S128_S1x128_1 b)))
      = toMat (lin (ofMat s) (ofMat W) (ofVec b)) := by
  funext i
  obtain ⟨n, d, rfl⟩ : ∃ (n : Fin 50000) (d : Fin 128), i = ix2 n d := ⟨i 0, i 1, eq_ix2 i⟩
  rw [addf_apply, toMat_ix2]
  show _ + _ = (∑ j : Fin 128, s (ix2 n j) * W (ix2 j d)) + b (ix1 d)
  refine congrArg₂ (· + ·) ?_ ?_
  · exact Cert.DotPlain.dotGeneral_rows_cols _ rfl rfl rfl rfl rfl rfl none .single s W n d
  · exact Cert.HostRead.row_bcast_read _ _ b n d

/-- The rectifier: the maximum with the zero table, entry by entry. -/
theorem relu_read (s : FVec Ideal S50000x128 .f32) :
    (maximumf s (broadcastInDim S50000x128 ![] bcast_S_S50000x128 (constant (F := Ideal) S_ .f32 0x00000000#32))) = toMat (relu (ofMat s)) := by
  funext i
  obtain ⟨n, d, rfl⟩ : ∃ (n : Fin 50000) (d : Fin 128), i = ix2 n d := ⟨i 0, i 1, eq_ix2 i⟩
  rw [maximumf_apply, Cert.HostRead.const_bcast_read, Ideal.ofBits_zero_f32]
  rfl

/-- The two-layer perceptron: an affine layer, the rectifier, an affine layer. -/
theorem mlp_read (s : FVec Ideal S50000x128 .f32) (Wa : FVec Ideal S128x128 .f32) (ba : FVec Ideal S128 .f32)
    (Wb : FVec Ideal S128x128 .f32) (bb : FVec Ideal S128 .f32) :
    (addf (Host.dotGeneral (F := Ideal) dot_S50000x128_S128x128_S50000x128_1_0_0_1_n_n none (maximumf (addf (Host.dotGeneral (F := Ideal) dot_S50000x128_S128x128_S50000x128_1_0_0_1_n_n none s Wa) (broadcastInDim S50000x128 ![0, 1] bcast_S1x128_S50000x128_0_1 (broadcastInDim S1x128 ![1] bcast_S128_S1x128_1 ba))) (broadcastInDim S50000x128 ![] bcast_S_S50000x128 (constant (F := Ideal) S_ .f32 0x00000000#32))) Wb) (broadcastInDim S50000x128 ![0, 1] bcast_S1x128_S50000x128_0_1 (broadcastInDim S1x128 ![1] bcast_S128_S1x128_1 bb)))
      = toMat (mlp (ofMat s) (ofMat Wa) (ofVec ba) (ofMat Wb) (ofVec bb)) := by
  rw [lin_read s Wa ba, relu_read, lin_read]
  rfl

/-! ## The neighbour sum -/

/-- The neighbour sum plus the input: the target words are row 1 of the edge list, the source words row 0,
    normalised; the gathered rows are scattered into the zero table, and the input is added. -/
theorem agg_add_read (x : FVec Ideal S50000x128 .f32) (ei : IVec S2x800000 32) (v1 : IVec S800000 32)
    (hv1 : v1 = (shapeCast S800000 (extractStridedSlice S1x800000 ![0, 0] ei slices_S2x800000_S1x800000_0_0) shapeCasts_S1x800000_S800000)) :
    (addf (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (Host.gather gather_S50000x128_S800000x1_S800000x128_1_0_n_n_0_1_1128 x (broadcastInDim S800000x1 ![0] bcast_S800000_S800000x1_0 (select (cmpi .slt v1 (broadcastInDim S800000 ![] bcast_S_S800000 (constantI S_ 32 0#32))) (addi v1 (broadcastInDim S800000 ![] bcast_S_S800000 (constantI S_ 32 50000#32))) v1)))) x)
      = toMat (tadd (agg (ofMat x) (tgtRow ei) (srcRow ei)) (ofMat x)) := by
  have hz : ∀ i, (broadcastInDim S50000x128 ![] bcast_S_S50000x128 (constant (F := Ideal) S_ .f32 0x00000000#32)) i = 0 := fun i => (Cert.HostRead.const_bcast_read _ _ i).trans Ideal.ofBits_zero_f32
  have hS : ∀ e : Fin 800000, (broadcastInDim S800000x1 ![0] bcast_S800000_S800000x1_0 (shapeCast S800000 (extractStridedSlice S1x800000 ![1, 0] ei slices_S2x800000_S1x800000_1_0) shapeCasts_S1x800000_S800000)) (ix2 e 0) = ei (ix2 1 e) :=
    fun e => Cert.HostRead.edge_col_read 1 ![1, 0] rfl slices_S2x800000_S1x800000_1_0 shapeCasts_S1x800000_S800000 bcast_S800000_S800000x1_0 ei e
  have hG : ∀ e : Fin 800000, (broadcastInDim S800000x1 ![0] bcast_S800000_S800000x1_0 (select (cmpi .slt v1 (broadcastInDim S800000 ![] bcast_S_S800000 (constantI S_ 32 0#32))) (addi v1 (broadcastInDim S800000 ![] bcast_S_S800000 (constantI S_ 32 50000#32))) v1)) (ix2 e 0) = normWord (ei (ix2 0 e)) :=
    fun e => Cert.HostRead.src_col_read slices_S2x800000_S1x800000_0_0 shapeCasts_S1x800000_S800000 bcast_S800000_S800000x1_0 bcast_S_S800000 ei v1 hv1 e
  have hagg := Cert.HostRead.agg_read scatter_S50000x128_S800000x1_S800000x128_1_0_0_1 rfl rfl rfl rfl
      gather_S50000x128_S800000x1_S800000x128_1_0_n_n_0_1_1128 rfl rfl rfl rfl rfl rfl rfl ei _ hz _ _ hS hG x
  rw [hagg]
  funext i
  obtain ⟨n, d, rfl⟩ : ∃ (n : Fin 50000) (d : Fin 128), i = ix2 n d := ⟨i 0, i 1, eq_ix2 i⟩
  rw [addf_apply, toMat_ix2, toMat_ix2]
  rfl

/-- One convolution before its normalisation: the perceptron of the neighbour sum plus the input. -/
theorem conv_read (x : FVec Ideal S50000x128 .f32) (ei : IVec S2x800000 32) (v1 : IVec S800000 32)
    (hv1 : v1 = (shapeCast S800000 (extractStridedSlice S1x800000 ![0, 0] ei slices_S2x800000_S1x800000_0_0) shapeCasts_S1x800000_S800000))
    (Wa : FVec Ideal S128x128 .f32) (ba : FVec Ideal S128 .f32) (Wb : FVec Ideal S128x128 .f32) (bb : FVec Ideal S128 .f32) :
    (addf (Host.dotGeneral (F := Ideal) dot_S50000x128_S128x128_S50000x128_1_0_0_1_n_n none (maximumf (addf (Host.dotGeneral (F := Ideal) dot_S50000x128_S128x128_S50000x128_1_0_0_1_n_n none (addf (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (Host.gather gather_S50000x128_S800000x1_S800000x128_1_0_n_n_0_1_1128 x (broadcastInDim S800000x1 ![0] bcast_S800000_S800000x1_0 (select (cmpi .slt v1 (broadcastInDim S800000 ![] bcast_S_S800000 (constantI S_ 32 0#32))) (addi v1 (broadcastInDim S800000 ![] bcast_S_S800000 (constantI S_ 32 50000#32))) v1)))) x) Wa) (broadcastInDim S50000x128 ![0, 1] bcast_S1x128_S50000x128_0_1 (broadcastInDim S1x128 ![1] bcast_S128_S1x128_1 ba))) (broadcastInDim S50000x128 ![] bcast_S_S50000x128 (constant (F := Ideal) S_ .f32 0x00000000#32))) Wb) (broadcastInDim S50000x128 ![0, 1] bcast_S1x128_S50000x128_0_1 (broadcastInDim S1x128 ![1] bcast_S128_S1x128_1 bb)))
      = toMat (mlp (tadd (agg (ofMat x) (tgtRow ei) (srcRow ei)) (ofMat x)) (ofMat Wa) (ofVec ba) (ofMat Wb) (ofVec bb)) := by
  rw [agg_add_read x ei v1 hv1, mlp_read]
  rfl

/-! ## The normalisation -/

/-- The column mean at d: the sum over the rows divided by the number of rows. -/
theorem mean_read (h : FVec Ideal S50000x128 .f32) (d : Fin 128) :
    (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32))) (ix1 d) = mean (ofMat h) d := by
  show Ideal.div ((Host.reduceAdd (F := Ideal) h (constant (F := Ideal) S_ .f32 0x00000000#32) reducesTo_S50000x128_S128_d0 h_S_) (ix1 d)) ((broadcastInDim S128 ![] bcast_S_S128 (constant (F := Ideal) S_ .f32 0x47435000#32)) (ix1 d)) = _
  rw [Cert.HostRead.colsum_read, Cert.HostRead.const_bcast_read, ofBits_nRows]
  rfl

/-- An entry less a row's entry of its column. -/
theorem sub_row_read (h : FVec Ideal S50000x128 .f32) (μ : FVec Ideal S128 .f32) (n : Fin 50000) (d : Fin 128) :
    (subf h (broadcastInDim S50000x128 ![0, 1] bcast_S1x128_S50000x128_0_1 (broadcastInDim S1x128 ![1] bcast_S128_S1x128_1 μ))) (ix2 n d) = h (ix2 n d) - μ (ix1 d) := by
  rw [subf_apply, Cert.HostRead.row_bcast_read]

/-- The mean squared deviation at d. -/
theorem var_read (h : FVec Ideal S50000x128 .f32) (d : Fin 128) :
    (Host.divf (F := Ideal) (Host.reduceAdd (F := Ideal) (mulf (subf h (broadcastInDim S50000x128 ![0, 1] bcast_S1x128_S50000x128_0_1 (broadcastInDim S1x128 ![1] bcast_S128_S1x128_1 (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32)))))) (subf h (broadcastInDim S50000x128 ![0, 1] bcast_S1x128_S50000x128_0_1 (broadcastInDim S1x128 ![1] bcast_S128_S1x128_1 (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32))))))) (constant (F := Ideal) S_ .f32 0x00000000#32) reducesTo_S50000x128_S128_d0 h_S_) (broadcastInDim S128 ![] bcast_S_S128 (constant (F := Ideal) S_ .f32 0x47435000#32))) (ix1 d) = varDev (ofMat h) d := by
  show Ideal.div ((Host.reduceAdd (F := Ideal) (mulf (subf h (broadcastInDim S50000x128 ![0, 1] bcast_S1x128_S50000x128_0_1 (broadcastInDim S1x128 ![1] bcast_S128_S1x128_1 (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32)))))) (subf h (broadcastInDim S50000x128 ![0, 1] bcast_S1x128_S50000x128_0_1 (broadcastInDim S1x128 ![1] bcast_S128_S1x128_1 (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32))))))) (constant (F := Ideal) S_ .f32 0x00000000#32) reducesTo_S50000x128_S128_d0 h_S_) (ix1 d)) ((broadcastInDim S128 ![] bcast_S_S128 (constant (F := Ideal) S_ .f32 0x47435000#32)) (ix1 d)) = _
  rw [Cert.HostRead.colsum_read, Cert.HostRead.const_bcast_read, ofBits_nRows]
  unfold varDev
  refine congrArg (fun t => Ideal.div t ((nRows : ℝ) : EReal)) (Finset.sum_congr rfl fun r _ => ?_)
  rw [mulf_apply, sub_row_read, mean_read]
  rfl

/-- The normalisation with its rectifier: the centred spelling of the specification. -/
theorem bn_read (h : FVec Ideal S50000x128 .f32) (g be : FVec Ideal S128 .f32) :
    (maximumf (addf (mulf (mulf (subf h (broadcastInDim S50000x128 ![0, 1] bcast_S1x128_S50000x128_0_1 (broadcastInDim S1x128 ![1] bcast_S128_S1x128_1 (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32)))))) (broadcastInDim S50000x128 ![0, 1] bcast_S1x128_S50000x128_0_1 (broadcastInDim S1x128 ![1] bcast_S128_S1x128_1 (Host.rsqrt (F := Ideal) (addf (Host.divf (F := Ideal) (Host.reduceAdd (F := Ideal) (mulf (subf h (broadcastInDim S50000x128 ![0, 1] bcast_S1x128_S50000x128_0_1 (broadcastInDim S1x128 ![1] bcast_S128_S1x128_1 (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32)))))) (subf h (broadcastInDim S50000x128 ![0, 1] bcast_S1x128_S50000x128_0_1 (broadcastInDim S1x128 ![1] bcast_S128_S1x128_1 (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32))))))) (constant (F := Ideal) S_ .f32 0x00000000#32) reducesTo_S50000x128_S128_d0 h_S_) (broadcastInDim S128 ![] bcast_S_S128 (constant (F := Ideal) S_ .f32 0x47435000#32))) (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 be))) (broadcastInDim S50000x128 ![] bcast_S_S50000x128 (constant (F := Ideal) S_ .f32 0x00000000#32)))
      = toMat (bnDev epsBN (ofMat h) (ofVec g) (ofVec be)) := by
  funext i
  obtain ⟨n, d, rfl⟩ : ∃ (n : Fin 50000) (d : Fin 128), i = ix2 n d := ⟨i 0, i 1, eq_ix2 i⟩
  rw [maximumf_apply, addf_apply, mulf_apply, mulf_apply, sub_row_read, mean_read, Cert.HostRead.row_bcast_read,
    Cert.HostRead.row_bcast_read, Cert.HostRead.row_bcast_read, Cert.HostRead.const_bcast_read, Ideal.ofBits_zero_f32, toMat_ix2]
  show max (((h (ix2 n d) - mean (ofMat h) d) * Ideal.rsqrt ((addf (Host.divf (F := Ideal) (Host.reduceAdd (F := Ideal) (mulf (subf h (broadcastInDim S50000x128 ![0, 1] bcast_S1x128_S50000x128_0_1 (broadcastInDim S1x128 ![1] bcast_S128_S1x128_1 (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32)))))) (subf h (broadcastInDim S50000x128 ![0, 1] bcast_S1x128_S50000x128_0_1 (broadcastInDim S1x128 ![1] bcast_S128_S1x128_1 (Host.divf (F := Ideal) (Host.reduceAdd (F := Ideal) h (constant (F := Ideal) S_ .f32 0x00000000#32) reducesTo_S50000x128_S128_d0 h_S_) (broadcastInDim S128 ![] bcast_S_S128 (constant (F := Ideal) S_ .f32 0x47435000#32))))))) (constant (F := Ideal) S_ .f32 0x00000000#32) reducesTo_S50000x128_S128_d0 h_S_) (broadcastInDim S128 ![] bcast_S_S128 (constant (F := Ideal) S_ .f32 0x47435000#32))) (broadcastInDim S128 ![] bcast_S_S128 (constant (F := Ideal) S_ .f32 0x3727C5AC#32))) (ix1 d))) * g (ix1 d) + be (ix1 d)) 0 = _
  rw [addf_apply, var_read, Cert.HostRead.const_bcast_read]
  rfl

/-! ## The pooling and the last affine map -/

/-- The segment pooling: the rows scattered into the zero table by their graph words. -/
theorem pool_read (h : FVec Ideal S50000x128 .f32) (batch : IVec S50000 32) :
    (Host.scatterAdd (F := Ideal) scatter_S128x128_S50000x1_S50000x128_1_0_0_1 (broadcastInDim S128x128 ![] bcast_S_S128x128 (constant (F := Ideal) S_ .f32 0x00000000#32)) (broadcastInDim S50000x1 ![0] bcast_S50000_S50000x1_0 batch) h) = toMat (poolSeg (ofMat h) (ownGraph batch)) :=
  Cert.HostRead.pool_read scatter_S128x128_S50000x1_S50000x128_1_0_0_1 rfl rfl rfl rfl batch _
    (fun i => (Cert.HostRead.const_bcast_read _ _ i).trans Ideal.ofBits_zero_f32) _
    (fun r => Cert.HostRead.batch_col_read _ batch r) h

/-- The last affine map, to ten classes. -/
theorem head_read (p : FVec Ideal S128x128 .f32) (Wo : FVec Ideal S128x10 .f32) (bo : FVec Ideal S10 .f32) :
    (addf (Host.dotGeneral (F := Ideal) dot_S128x128_S128x10_S128x10_1_0_0_1_n_n none p Wo) (broadcastInDim S128x10 ![0, 1] bcast_S1x10_S128x10_0_1 (broadcastInDim S1x10 ![1] bcast_S10_S1x10_1 bo)))
      = toMat (head (ofMat p) (ofMat Wo) (ofVec bo)) := by
  funext i
  obtain ⟨g, o, rfl⟩ : ∃ (g : Fin 128) (o : Fin 10), i = ix2 g o := ⟨i 0, i 1, eq_ix2 i⟩
  rw [addf_apply, toMat_ix2]
  show _ + _ = (∑ k : Fin 128, p (ix2 g k) * Wo (ix2 k o)) + bo (ix1 o)
  refine congrArg₂ (· + ·) ?_ ?_
  · exact Cert.DotPlain.dotGeneral_rows_cols _ rfl rfl rfl rfl rfl rfl none .single p Wo g o
  · exact Cert.HostRead.row_bcast_read _ _ bo g o

/-- The pooling followed by the last affine map. -/
theorem tail_read (h : FVec Ideal S50000x128 .f32) (batch : IVec S50000 32) (Wo : FVec Ideal S128x10 .f32) (bo : FVec Ideal S10 .f32) :
    (addf (Host.dotGeneral (F := Ideal) dot_S128x128_S128x10_S128x10_1_0_0_1_n_n none (Host.scatterAdd (F := Ideal) scatter_S128x128_S50000x1_S50000x128_1_0_0_1 (broadcastInDim S128x128 ![] bcast_S_S128x128 (constant (F := Ideal) S_ .f32 0x00000000#32)) (broadcastInDim S50000x1 ![0] bcast_S50000_S50000x1_0 batch) h) Wo) (broadcastInDim S128x10 ![0, 1] bcast_S1x10_S128x10_0_1 (broadcastInDim S1x10 ![1] bcast_S10_S1x10_1 bo)))
      = toMat (head (poolSeg (ofMat h) (ownGraph batch)) (ofMat Wo) (ofVec bo)) := by
  rw [pool_read, head_read]
  rfl

end Cert.ReferenceIdeal.RefRead

end
-- ==== Proof.RefValue.lean ====
/- The reference's run, read as the network with centred normalisations and segment pooling: each named stage of
   the run's composed term is a table of the specification, index by index — the neighbour sum by the scatter and
   gather read at an index, the perceptron's two products as sums over the 128 inner coordinates, the column means
   and variances as sums over the 50000 rows, the pooling as the scatter by graph words, the last affine map. -/
import proofs.«422006_j8718783611640_1_alg».proof.Proof.Gen.ReferenceIdeal.Run
import proofs.«422006_j8718783611640_1_alg».proof.Proof.Spec
import proofs.«422006_j8718783611640_1_alg».proof.Proof.HostRead
import proofs.«422006_j8718783611640_1_alg».proof.Proof.LibDotPlain
import proofs.«422006_j8718783611640_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Value Cert.Gin

/-! ## The run's named terms, as tables of the specification -/

/-- The first convolution before its normalisation: the perceptron of the neighbour sum plus the input. -/
theorem v24_eq (V0 : Valuation τ sig (Elt Ideal)) :
    res_main_v24 V0 = toMat (mlp (tadd (agg (ofMat (V0 (Proc.devRef .tc main_arg0))) (tgtRow (V0 (Proc.devRef .tc main_arg1))) (srcRow (V0 (Proc.devRef .tc main_arg1)))) (ofMat (V0 (Proc.devRef .tc main_arg0)))) (ofMat (V0 (Proc.devRef .tc main_arg3))) (ofVec (V0 (Proc.devRef .tc main_arg4))) (ofMat (V0 (Proc.devRef .tc main_arg5))) (ofVec (V0 (Proc.devRef .tc main_arg6)))) := by
  unfold res_main_v24
  exact RefRead.conv_read _ _ (res_main_v1 V0) rfl _ _ _ _

/-- The first block: the normalised, rectified first convolution. -/
theorem v51_eq (V0 : Valuation τ sig (Elt Ideal)) :
    res_main_v51 V0 = toMat (blockDev epsBN (ofMat (V0 (Proc.devRef .tc main_arg0))) (tgtRow (V0 (Proc.devRef .tc main_arg1))) (srcRow (V0 (Proc.devRef .tc main_arg1))) (ofMat (V0 (Proc.devRef .tc main_arg3))) (ofVec (V0 (Proc.devRef .tc main_arg4))) (ofMat (V0 (Proc.devRef .tc main_arg5))) (ofVec (V0 (Proc.devRef .tc main_arg6))) (ofVec (V0 (Proc.devRef .tc main_arg7))) (ofVec (V0 (Proc.devRef .tc main_arg8)))) := by
  unfold res_main_v51 res_main_v30 res_main_v27
  rw [RefRead.bn_read, v24_eq, ofMat_toMat]
  rfl

/-- The second convolution before its normalisation, on the first block's table. -/
theorem v76_eq (V0 : Valuation τ sig (Elt Ideal)) :
    res_main_v76 V0 = toMat (mlp (tadd (agg (blockDev epsBN (ofMat (V0 (Proc.devRef .tc main_arg0))) (tgtRow (V0 (Proc.devRef .tc main_arg1))) (srcRow (V0 (Proc.devRef .tc main_arg1))) (ofMat (V0 (Proc.devRef .tc main_arg3))) (ofVec (V0 (Proc.devRef .tc main_arg4))) (ofMat (V0 (Proc.devRef .tc main_arg5))) (ofVec (V0 (Proc.devRef .tc main_arg6))) (ofVec (V0 (Proc.devRef .tc main_arg7))) (ofVec (V0 (Proc.devRef .tc main_arg8)))) (tgtRow (V0 (Proc.devRef .tc main_arg1))) (srcRow (V0 (Proc.devRef .tc main_arg1)))) (blockDev epsBN (ofMat (V0 (Proc.devRef .tc main_arg0))) (tgtRow (V0 (Proc.devRef .tc main_arg1))) (srcRow (V0 (Proc.devRef .tc main_arg1))) (ofMat (V0 (Proc.devRef .tc main_arg3))) (ofVec (V0 (Proc.devRef .tc main_arg4))) (ofMat (V0 (Proc.devRef .tc main_arg5))) (ofVec (V0 (Proc.devRef .tc main_arg6))) (ofVec (V0 (Proc.devRef .tc main_arg7))) (ofVec (V0 (Proc.devRef .tc main_arg8))))) (ofMat (V0 (Proc.devRef .tc main_arg9))) (ofVec (V0 (Proc.devRef .tc main_arg10))) (ofMat (V0 (Proc.devRef .tc main_arg11))) (ofVec (V0 (Proc.devRef .tc main_arg12)))) := by
  unfold res_main_v76
  rw [RefRead.conv_read (res_main_v51 V0) _ (res_main_v53 V0) rfl, v51_eq, ofMat_toMat]

/-- The result: the second block pooled by graph and mapped to the ten classes. -/
theorem result_eq (V0 : Valuation τ sig (Elt Ideal)) :
    addf (Host.dotGeneral (F := Ideal) (φ₁ := .f32) (φ₂ := .f32) dot_S128x128_S128x10_S128x10_1_0_0_1_n_n none (Host.scatterAdd (F := Ideal) scatter_S128x128_S50000x1_S50000x128_1_0_0_1 (broadcastInDim S128x128 ![] bcast_S_S128x128 (constant (F := Ideal) S_ .f32 0x00000000#32)) (broadcastInDim S50000x1 ![0] bcast_S50000_S50000x1_0 (V0 (Proc.devRef .tc main_arg2))) (maximumf (addf (mulf (mulf (subf (res_main_v76 V0) (broadcastInDim S50000x128 ![0, 1] bcast_S1x128_S50000x128_0_1 (broadcastInDim S1x128 ![1] bcast_S128_S1x128_1 (res_main_v79 V0)))) (broadcastInDim S50000x128 ![0, 1] bcast_S1x128_S50000x128_0_1 (broadcastInDim S1x128 ![1] bcast_S128_S1x128_1 (Host.rsqrt (F := Ideal) (addf (Host.divf (F := Ideal) (Host.reduceAdd (F := Ideal) (mulf (res_main_v82 V0) (res_main_v82 V0)) (constant (F := Ideal) S_ .f32 0x00000000#32) reducesTo_S50000x128_S128_d0 h_S_) (broadcastInDim S128 ![] bcast_S_S128 (constant (F := Ideal) S_ .f32 0x47435000#32))) (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 (V0 (Proc.devRef .tc main_arg13))))) (broadcastInDim S50000x128 ![0, 1] bcast_S1x128_S50000x128_0_1 (broadcastInDim S1x128 ![1] bcast_S128_S1x128_1 (V0 (Proc.devRef .tc main_arg14))))) (broadcastInDim S50000x128 ![] bcast_S_S50000x128 (constant (F := Ideal) S_ .f32 0x00000000#32)))) (V0 (Proc.devRef .tc main_arg15))) (broadcastInDim S128x10 ![0, 1] bcast_S1x10_S128x10_0_1 (broadcastInDim S1x10 ![1] bcast_S10_S1x10_1 (V0 (Proc.devRef .tc main_arg16))))
      = toMat (netDevOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) := by
  unfold res_main_v82 res_main_v79
  rw [RefRead.tail_read, RefRead.bn_read, v76_eq, ofMat_toMat]
  rfl

/-- The run, read: the result array holds the centred network of the launch contents of the arguments, which end unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v110) = toMat (netDevOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) := by
  refine (θ_run defs _ _).mono (fun _ h c => ⟨(h c).1.trans ?_, (h c).2⟩) (Cert.ReferenceIdeal.Value.run (F := Ideal) m ρ)
  exact result_eq (StableHlo.launchContents m c)

end Cert.ReferenceIdeal.RefValue

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.Math.lean ====
/- The two spellings of the network are one function on real-valued data.

   The folded normalisation `h · scale + shift` and the centred one `(h − μ) · inv · γ + β` agree
   entry by entry once every entry of `h`, `γ` and `β` is a real number: the two variances agree
   (mean of squares minus squared mean, against mean squared deviation), the variance plus a positive
   epsilon is positive, so its reciprocal square root is a real, and the rest is the distributive law
   in the reals. Real-valuedness passes through every stage (finite sums, products, the rectifier).
   The indicator pooling and the segment pooling agree with no hypothesis: the indicator is one on
   the rows a graph owns and zero elsewhere. -/
import proofs.«422006_j8718783611640_1_alg».proof.Proof.Spec
import proofs.«422006_j8718783611640_1_alg».proof.Proof.LibERealBatchNorm

noncomputable section

namespace Cert.Gin

open Idealize.ShloMosaic Idealize.ShloMosaic.ValueIdx Cert.ERealBN
open scoped BigOperators

/-- Every entry of the table is a real number. -/
def TabReal {n k : Nat} (h : Tab n k) : Prop := ∀ r d, IsReal (h r d)

/-- Every entry of the row is a real number. -/
def RowReal {k : Nat} (b : Fin k → EReal) : Prop := ∀ d, IsReal (b d)

/-! ## The membership indicator -/

/-- A graph number below 128, written as a 32-bit word and read back signed, is itself. -/
private theorem toInt_graphWord (g : Fin 128) : (BitVec.ofNat 32 g.val).toInt = (g.val : Int) := by
  have hg := g.isLt
  rw [BitVec.toInt_eq_toNat_cond, BitVec.toNat_ofNat]
  have hm : g.val % 2 ^ 32 = g.val := Nat.mod_eq_of_lt (by omega)
  rw [hm]
  split <;> omega

/-- A word equals the word of graph `g` exactly when, read signed, it names graph `g`. -/
private theorem word_eq_iff (w : BitVec 32) (g : Fin 128) :
    w = BitVec.ofNat 32 g.val ↔ Cert.ScatterGather.tgtW 128 w = some g := by
  have hg := g.isLt
  unfold Cert.ScatterGather.tgtW
  constructor
  · intro h
    subst h
    have h1 := toInt_graphWord g
    rw [dif_pos ⟨by omega, by omega⟩]
    congr 1
    apply Fin.ext
    show (BitVec.ofNat 32 g.val).toInt.toNat = g.val
    omega
  · intro h
    split at h
    · next hx =>
      have hv : w.toInt.toNat = g.val := congrArg Fin.val (Option.some.inj h)
      apply BitVec.eq_of_toNat_eq
      rw [BitVec.toNat_ofNat, Nat.mod_eq_of_lt (by omega : g.val < 2 ^ 32)]
      have hc := BitVec.toInt_eq_toNat_cond w
      have hlt := w.isLt
      split at hc <;> omega
    · exact absurd h (by simp)

/-- The indicator is one exactly on the rows the graph owns. -/
theorem indGraph_eq (batch : IVec ⟨1, ![50000]⟩ 32) (r : Fin 50000) (g : Fin 128) :
    indGraph batch r g = if ownGraph batch r = some g then 1 else 0 := by
  unfold indGraph ownGraph
  show (((BitVec.ofBool (batch (ix1 r) == BitVec.ofNat 32 g.val)).toNat : ℝ) : EReal) = _
  by_cases h : batch (ix1 r) = BitVec.ofNat 32 g.val
  · rw [if_pos ((word_eq_iff _ _).mp h)]
    have hb : (batch (ix1 r) == BitVec.ofNat 32 g.val) = true := by simpa using h
    rw [hb]; simp
  · rw [if_neg (fun h' => h ((word_eq_iff _ _).mpr h'))]
    have hb : (batch (ix1 r) == BitVec.ofNat 32 g.val) = false := by simpa using h
    rw [hb]; simp

/-- Indicator pooling is segment pooling. -/
theorem poolInd_eq_poolSeg (h : Tab 50000 128) (batch : IVec ⟨1, ![50000]⟩ 32) :
    poolInd h (indGraph batch) = poolSeg h (ownGraph batch) := by
  funext g d
  unfold poolInd poolSeg
  rw [Finset.sum_filter]
  refine Finset.sum_congr rfl (fun r _ => ?_)
  rw [indGraph_eq, ite_mul, one_mul, zero_mul]

/-! ## The two normalisations -/

/-- The row count is a positive real. -/
private theorem nRows_pos : (0 : ℝ) < nRows := by unfold nRows; norm_num

/-- The row count is the number of rows. -/
private theorem card_rows : (Fintype.card (Fin 50000) : ℝ) = nRows := by
  rw [Fintype.card_fin]; unfold nRows; norm_num

/-- The column mean of a real table is real. -/
private theorem mean_real (h : Tab 50000 128) (hh : TabReal h) (d : Fin 128) : IsReal (mean h d) := by
  unfold mean colSum
  exact IsReal.div_coe (IsReal.sum _ _ (fun r _ => hh r d)) nRows_pos.ne'

/-- On a real table the two variances are one. -/
private theorem varSq_eq_varDev (h : Tab 50000 128) (hh : TabReal h) (d : Fin 128) : varSq h d = varDev h d := by
  unfold varSq varDev mean colSum
  exact var_eq (fun r => h r d) (fun r => hh r d) nRows card_rows nRows_pos

/-- The reciprocal square root of the variance plus a positive real is real. -/
private theorem inv_real (e : ℝ) (he : 0 < e) (h : Tab 50000 128) (hh : TabReal h) (d : Fin 128) :
    IsReal (Ideal.rsqrt (varDev h d + (e : EReal))) := by
  have hv := var_isReal_nonneg (fun r => h r d) (fun r => hh r d) nRows nRows_pos
  unfold varDev mean colSum
  exact rsqrt_var_isReal hv.1 hv.2 (IsReal.coe e) (by exact_mod_cast he)

/-- The distributive law behind the folding, over five reals read in the extended reals:
    `a·(c·i) + (b − m·(c·i)) = (a − m)·i·c + b`. -/
private theorem fold_eq_dev_coe (a m i c b : ℝ) :
    (a : EReal) * ((c : EReal) * (i : EReal)) + ((b : EReal) - (m : EReal) * ((c : EReal) * (i : EReal)))
      = ((a : EReal) - (m : EReal)) * (i : EReal) * (c : EReal) + (b : EReal) := by
  simp only [← EReal.coe_mul, ← EReal.coe_sub, ← EReal.coe_add]
  congr 1
  ring

/-- The folded normalisation is the centred one on real data, for a positive real epsilon. -/
theorem bnFold_eq_bnDev (eps : EReal) (heps : ∃ e : ℝ, 0 < e ∧ eps = (e : EReal)) (h : Tab 50000 128) (hh : TabReal h)
    (g be : Fin 128 → EReal) (hg : RowReal g) (hbe : RowReal be) : bnFold eps h g be = bnDev eps h g be := by
  obtain ⟨e, hepos, rfl⟩ := heps
  funext r d
  unfold bnFold bnDev shiftOf scaleOf
  rw [varSq_eq_varDev h hh d]
  obtain ⟨i, hi⟩ := inv_real e hepos h hh d
  obtain ⟨m, hm⟩ := mean_real h hh d
  obtain ⟨a, ha⟩ := hh r d
  obtain ⟨c, hc⟩ := hg d
  obtain ⟨b, hb⟩ := hbe d
  rw [hi, hm, ha, hc, hb, fold_eq_dev_coe]

/-- The centred normalisation of real data is real. -/
theorem bnDev_real (eps : EReal) (heps : ∃ e : ℝ, 0 < e ∧ eps = (e : EReal)) (h : Tab 50000 128) (hh : TabReal h)
    (g be : Fin 128 → EReal) (hg : RowReal g) (hbe : RowReal be) : TabReal (bnDev eps h g be) := by
  obtain ⟨e, hepos, rfl⟩ := heps
  intro r d
  unfold bnDev
  exact IsReal.max
    (IsReal.add (IsReal.mul (IsReal.mul (IsReal.sub (hh r d) (mean_real h hh d)) (inv_real e hepos h hh d)) (hg d)) (hbe d))
    IsReal.zero

/-! ## Real-valuedness through the perceptron and the neighbour sum -/

/-- An affine layer with real weights keeps a real table real. -/
private theorem lin_real {n : Nat} (s : Tab n 128) (hs : TabReal s) (W : Tab 128 128) (hW : TabReal W)
    (b : Fin 128 → EReal) (hb : RowReal b) : TabReal (lin s W b) := by
  intro r d
  unfold lin
  exact IsReal.add (IsReal.sum _ _ (fun j _ => IsReal.mul (hs r j) (hW j d))) (hb d)

/-- The rectifier keeps a real table real. -/
private theorem relu_real {n k : Nat} (s : Tab n k) (hs : TabReal s) : TabReal (relu s) :=
  fun r d => IsReal.max (hs r d) IsReal.zero

/-- The entrywise sum of two real tables is real. -/
private theorem tadd_real {n k : Nat} (a b : Tab n k) (ha : TabReal a) (hb : TabReal b) : TabReal (tadd a b) :=
  fun r d => IsReal.add (ha r d) (hb r d)

/-- The neighbour sum of a real table is real. -/
private theorem agg_real {n E : Nat} (x : Tab n 128) (hx : TabReal x) (tgt : Fin E → Option (Fin n)) (src : Fin E → Fin n) :
    TabReal (agg x tgt src) :=
  fun _ j => IsReal.sum _ _ (fun e _ => hx (src e) j)

/-- The perceptron of the neighbour sum plus self is real on real data. -/
theorem mlp_agg_real (x : Tab 50000 128) (hx : TabReal x) (tgt : Fin 800000 → Option (Fin 50000)) (src : Fin 800000 → Fin 50000)
    (Wa : Tab 128 128) (hWa : TabReal Wa) (ba : Fin 128 → EReal) (hba : RowReal ba) (Wb : Tab 128 128) (hWb : TabReal Wb)
    (bb : Fin 128 → EReal) (hbb : RowReal bb) : TabReal (mlp (tadd (agg x tgt src) x) Wa ba Wb bb) := by
  unfold mlp
  exact lin_real _ (relu_real _ (lin_real _ (tadd_real _ _ (agg_real x hx tgt src) hx) Wa hWa ba hba)) Wb hWb bb hbb

/-- The two networks agree on real-valued inputs (the last layer's weights are unconstrained). -/
theorem netFold_eq_netDev (eps : EReal) (heps : ∃ e : ℝ, 0 < e ∧ eps = (e : EReal))
    (x : Tab 50000 128) (hx : TabReal x) (ei : IVec ⟨2, ![2, 800000]⟩ 32) (batch : IVec ⟨1, ![50000]⟩ 32)
    (W1a : Tab 128 128) (hW1a : TabReal W1a) (b1a : Fin 128 → EReal) (hb1a : RowReal b1a)
    (W1b : Tab 128 128) (hW1b : TabReal W1b) (b1b : Fin 128 → EReal) (hb1b : RowReal b1b)
    (g1 : Fin 128 → EReal) (hg1 : RowReal g1) (be1 : Fin 128 → EReal) (hbe1 : RowReal be1)
    (W2a : Tab 128 128) (hW2a : TabReal W2a) (b2a : Fin 128 → EReal) (hb2a : RowReal b2a)
    (W2b : Tab 128 128) (hW2b : TabReal W2b) (b2b : Fin 128 → EReal) (hb2b : RowReal b2b)
    (g2 : Fin 128 → EReal) (hg2 : RowReal g2) (be2 : Fin 128 → EReal) (hbe2 : RowReal be2)
    (Wo : Tab 128 10) (bo : Fin 10 → EReal) :
    netFold eps x ei batch W1a b1a W1b b1b g1 be1 W2a b2a W2b b2b g2 be2 Wo bo
      = netDev eps x ei batch W1a b1a W1b b1b g1 be1 W2a b2a W2b b2b g2 be2 Wo bo := by
  unfold netFold netDev blockFold blockDev
  have h1 := mlp_agg_real x hx (tgtRow ei) (srcRow ei) W1a hW1a b1a hb1a W1b hW1b b1b hb1b
  rw [bnFold_eq_bnDev eps heps _ h1 g1 be1 hg1 hbe1]
  have h2 := bnDev_real eps heps _ h1 g1 be1 hg1 hbe1
  have h3 := mlp_agg_real _ h2 (tgtRow ei) (srcRow ei) W2a hW2a b2a hb2a W2b hW2b b2b hb2b
  rw [bnFold_eq_bnDev eps heps _ h3 g2 be2 hg2 hbe2, poolInd_eq_poolSeg]

end Cert.Gin

end
-- ==== Proof.PreReal.lean ====
/- The precondition, decoded: where the printed predicate holds (it is the conjunction, over the float
   inputs, of "every entry's absolute value is below +∞"), every entry of each float input the
   network's normalisations depend on is a real number. An extended real whose absolute value is
   below +∞ is neither infinity. -/
import proofs.«422006_j8718783611640_1_alg».proof.Pre_finite_inputs
import proofs.«422006_j8718783611640_1_alg».proof.Proof.Gen.Pre_finite_inputs
import proofs.«422006_j8718783611640_1_alg».proof.Proof.LibERealBatchNorm
import Idealize.ShloMosaic.Lib.ReduceAll
import Idealize.ShloMosaic.Lib.ValueIdx

noncomputable section

namespace Cert.PreReal

open Idealize.ShloMosaic Idealize.ShloMosaic.ValueIdx Cert.ERealBN Cert.Pre_finite_inputs

variable [Cert.Pre_finite_inputs.Facts]

/-- The f32 pattern with all exponent bits set and no fraction bit is +∞. -/
theorem ofBits_inf : Ideal.ofBits .f32 0x7F800000#32 = (⊤ : EReal) := by
  simp [Ideal.ofBits, Ideal.ieee]

/-- An extended real whose absolute value, max x (-x), lies strictly below +∞ is a real number:
    at +∞ the maximum is +∞ itself, and at -∞ its negation is. -/
theorem isReal_of_abs_lt_top (x : EReal) (h : max x (-x) < ⊤) : IsReal x := by
  induction x using EReal.rec with
  | bot => exact absurd h (by simp)
  | coe r => exact ⟨r, rfl⟩
  | top => exact absurd h (by simp)

/-- The comparison word "|x| < +∞" being 1 says x is real. -/
theorem isReal_of_cmp (x : Ideal .f32)
    (h : FloatOps.cmpf .olt (FloatOps.hostAbsf x) (FloatOps.ofBits (F := Ideal) .f32 0x7F800000#32) = 1#1) : IsReal x := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact isReal_of_abs_lt_top x hlt
  · simp [hlt] at h'

/-- The rank-0 shape has one index. -/
instance : Subsingleton S_.Idx := ⟨fun a b => funext fun d => d.elim0⟩

/-- One conjunct of the precondition, for an array of any shape: if the reduction by "and" over all
    axes of the words "|a i| < +∞" is 1, every entry of a is real. -/
theorem real_of_all {T : Shape} {axes : List (Fin T.rank)} (hb : S_.BroadcastsInDim T (![] : Fin 0 → Fin T.rank))
    (hr : T.ReducesTo axes S_) (hu : 0 < S_.numel) (a : FVec Ideal T .f32) (init : IVec S_ 1)
    (e : Host.reduce IntOp.andi
          (cmpf .olt (Host.absf a) (broadcastInDim T ![] hb (constant (F := Ideal) S_ .f32 0x7F800000#32))) init hr hu ix0 = 1#1) :
    ∀ i, IsReal (a i) := by
  intro i
  have hi := Host.reduce_andi_all _ init hr hu ix0 e i
  exact isReal_of_cmp (a i) hi

/-- Under the precondition every entry of the features, of the four weight matrices of the two
    perceptrons, of their four biases and of the two normalisations' scales and shifts is real. -/
theorem real_of_pre
    (a0 : FVec Ideal S50000x128 .f32) (a1 : IVec S2x800000 32) (a2 : IVec S50000 32)
    (a3 : FVec Ideal S128x128 .f32) (a4 : FVec Ideal S128 .f32) (a5 : FVec Ideal S128x128 .f32) (a6 : FVec Ideal S128 .f32)
    (a7 : FVec Ideal S128 .f32) (a8 : FVec Ideal S128 .f32)
    (a9 : FVec Ideal S128x128 .f32) (a10 : FVec Ideal S128 .f32) (a11 : FVec Ideal S128x128 .f32) (a12 : FVec Ideal S128 .f32)
    (a13 : FVec Ideal S128 .f32) (a14 : FVec Ideal S128 .f32)
    (a15 : FVec Ideal S128x10 .f32) (a16 : FVec Ideal S10 .f32)
    (h : Cert.Pre_finite_inputs.fn (F := Ideal) a0 a1 a2 a3 a4 a5 a6 a7 a8 a9 a10 a11 a12 a13 a14 a15 a16 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i)) ∧ (∀ i, IsReal (a11 i))
      ∧ (∀ i, IsReal (a12 i)) ∧ (∀ i, IsReal (a13 i)) ∧ (∀ i, IsReal (a14 i)) := by
  -- the predicate's one word, read at the one rank-0 index, is a left-nested "and" of fifteen reductions
  have hw := congrFun h ix0
  dsimp only [fn, fn_part1, fn_part2, fn_part3, fn_part4, andi] at hw
  simp only [IntOp.andi_eq_one] at hw
  obtain ⟨⟨⟨⟨⟨⟨⟨⟨⟨⟨⟨⟨⟨⟨e0, e3⟩, e4⟩, e5⟩, e6⟩, e7⟩, e8⟩, e9⟩, e10⟩, e11⟩, e12⟩, e13⟩, e14⟩, _⟩, _⟩ := hw
  exact ⟨real_of_all _ _ _ a0 _ e0, real_of_all _ _ _ a3 _ e3, real_of_all _ _ _ a4 _ e4, real_of_all _ _ _ a5 _ e5,
    real_of_all _ _ _ a6 _ e6, real_of_all _ _ _ a7 _ e7, real_of_all _ _ _ a8 _ e8, real_of_all _ _ _ a9 _ e9,
    real_of_all _ _ _ a10 _ e10, real_of_all _ _ _ a11 _ e11, real_of_all _ _ _ a12 _ e12, real_of_all _ _ _ a13 _ e13,
    real_of_all _ _ _ a14 _ e14⟩

end Cert.PreReal

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.lean ====
/- The certificate of a two-block graph convolution network (neighbour sum, two-layer perceptron, batch normalisation
   with a rectifier, twice; then a per-graph sum and an affine map) computed by five tiled kernels among host
   operations, against its plain array-program reference.

   Both programs compute one function on real-valued data. The kernel's program normalises with a folded scale and
   shift built from the column sums and sums of squares its first kernel accumulates over ten row blocks, and pools by
   multiplying with a graph-membership indicator; the reference centres each entry, takes the mean squared deviation,
   and pools by a segment sum. The two variances agree, the variance plus epsilon is positive, and the folded and
   centred affine forms agree, once every entry is a real number — which the precondition gives for the inputs and
   which every stage preserves; the indicator product is the segment sum outright. The kernels' block-wise products
   and sums are the reference's whole-array ones regrouped, which the extended reals allow without any finiteness.

   The three frames: the two kernel programs' are the generated frame proofs; the reference's is its run with the
   result dropped. The idealization rewrote nothing, so there is nothing to preserve. -/
import proofs.«422006_j8718783611640_1_alg».proof.Defs
import proofs.«422006_j8718783611640_1_alg».proof.Proof.Gen.Kernel
import proofs.«422006_j8718783611640_1_alg».proof.Proof.Gen.Kernel.Frame
import proofs.«422006_j8718783611640_1_alg».proof.Proof.Gen.KernelIdeal
import proofs.«422006_j8718783611640_1_alg».proof.Proof.Gen.KernelIdeal.Frame
import proofs.«422006_j8718783611640_1_alg».proof.Proof.Gen.ReferenceIdeal
import proofs.«422006_j8718783611640_1_alg».proof.Proof.Gen.Pre_finite_inputs
import proofs.«422006_j8718783611640_1_alg».proof.Proof.KChain
import proofs.«422006_j8718783611640_1_alg».proof.Proof.RefValue
import proofs.«422006_j8718783611640_1_alg».proof.Proof.Math
import proofs.«422006_j8718783611640_1_alg».proof.Proof.PreReal
import proofs.«422006_j8718783611640_1_alg».proof.Proof.LibBlockSum
import Idealize.ShloMosaic.Adequacy
import Idealize.ShloMosaic.Init

set_option maxRecDepth 16384

noncomputable section

namespace Cert.Proof

open Idealize.ShloMosaic Idealize.ShloMosaic.ValueIdx Idealize.SL.Sem Cert.Gin Cert.ERealBN

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefValue.run_net m ρ)

/-- A table read off an array of real entries is real. -/
theorem tabReal_ofMat {n k : Nat} (A : (⟨2, ![n, k]⟩ : Shape).Idx → EReal) (h : ∀ i, IsReal (A i)) : TabReal (ofMat A) :=
  fun r d => h (ix2 r d)

/-- A row read off a vector of real entries is real. -/
theorem rowReal_ofVec {k : Nat} (v : (⟨1, ![k]⟩ : Shape).Idx → EReal) (h : ∀ i, IsReal (v i)) : RowReal (ofVec v) :=
  fun d => h (ix1 d)

/-- On real-valued arguments the folded network is the centred one. -/
theorem nets_agree (a0 : (⟨2, ![50000, 128]⟩ : Shape).Idx → EReal) (a1 : IVec ⟨2, ![2, 800000]⟩ 32) (a2 : IVec ⟨1, ![50000]⟩ 32)
    (a3 : (⟨2, ![128, 128]⟩ : Shape).Idx → EReal) (a4 : (⟨1, ![128]⟩ : Shape).Idx → EReal)
    (a5 : (⟨2, ![128, 128]⟩ : Shape).Idx → EReal) (a6 a7 a8 : (⟨1, ![128]⟩ : Shape).Idx → EReal)
    (a9 : (⟨2, ![128, 128]⟩ : Shape).Idx → EReal) (a10 : (⟨1, ![128]⟩ : Shape).Idx → EReal)
    (a11 : (⟨2, ![128, 128]⟩ : Shape).Idx → EReal) (a12 a13 a14 : (⟨1, ![128]⟩ : Shape).Idx → EReal)
    (a15 : (⟨2, ![128, 10]⟩ : Shape).Idx → EReal) (a16 : (⟨1, ![10]⟩ : Shape).Idx → EReal)
    (h0 : ∀ i, IsReal (a0 i)) (h3 : ∀ i, IsReal (a3 i)) (h4 : ∀ i, IsReal (a4 i)) (h5 : ∀ i, IsReal (a5 i)) (h6 : ∀ i, IsReal (a6 i))
    (h7 : ∀ i, IsReal (a7 i)) (h8 : ∀ i, IsReal (a8 i)) (h9 : ∀ i, IsReal (a9 i)) (h10 : ∀ i, IsReal (a10 i)) (h11 : ∀ i, IsReal (a11 i))
    (h12 : ∀ i, IsReal (a12 i)) (h13 : ∀ i, IsReal (a13 i)) (h14 : ∀ i, IsReal (a14 i)) :
    netFoldOf a0 a1 a2 a3 a4 a5 a6 a7 a8 a9 a10 a11 a12 a13 a14 a15 a16
      = netDevOf a0 a1 a2 a3 a4 a5 a6 a7 a8 a9 a10 a11 a12 a13 a14 a15 a16 :=
  netFold_eq_netDev epsBN ofBits_eps_pos (ofMat a0) (tabReal_ofMat a0 h0) a1 a2
    (ofMat a3) (tabReal_ofMat a3 h3) (ofVec a4) (rowReal_ofVec a4 h4) (ofMat a5) (tabReal_ofMat a5 h5) (ofVec a6) (rowReal_ofVec a6 h6)
    (ofVec a7) (rowReal_ofVec a7 h7) (ofVec a8) (rowReal_ofVec a8 h8)
    (ofMat a9) (tabReal_ofMat a9 h9) (ofVec a10) (rowReal_ofVec a10 h10) (ofMat a11) (tabReal_ofMat a11 h11) (ofVec a12) (rowReal_ofVec a12 h12)
    (ofVec a13) (rowReal_ofVec a13 h13) (ofVec a14) (rowReal_ofVec a14 h14) (ofMat a15) (ofVec a16)

/-- At the ideal instance the kernel's program ends at the folded network of its arguments and the reference at the
    centred network of arguments that agree; under the precondition every float argument is real, so the two are one. -/
theorem algebraic : Cert.algebraic_KernelIdeal_ReferenceIdeal := by
  intro m ρ m' ρ' hpre hagree
  refine ⟨fun c => toMat (netFoldOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))),
    Cert.KernelIdeal.Chain.run_net m ρ, ?_⟩
  refine (θ_run Cert.ReferenceIdeal.defs _ _).mono (fun _ h c => ⟨(h c).1.trans ?_, (h c).2⟩)
    (Cert.ReferenceIdeal.RefValue.run_net m' ρ')
  obtain ⟨e0, e1, e2, e3, e4, e5, e6, e7, e8, e9, e10, e11, e12, e13, e14, e15, e16⟩ := hagree c
  rw [e0, e1, e2, e3, e4, e5, e6, e7, e8, e9, e10, e11, e12, e13, e14, e15, e16]
  obtain ⟨h0, h3, h4, h5, h6, h7, h8, h9, h10, h11, h12, h13, h14⟩ := Cert.PreReal.real_of_pre _ _ _ _ _ _ _ _ _ _ _ _ _ _ _ _ _ (hpre c)
  exact congrArg toMat (nets_agree _ _ _ _ _ _ _ _ _ _ _ _ _ _ _ _ _ h0 h3 h4 h5 h6 h7 h8 h9 h10 h11 h12 h13 h14).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
